-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x1024 : Shape := ⟨3, ![2, 1024, 1024]⟩
abbrev S2x1024 : Shape := ⟨2, ![2, 1024]⟩
abbrev S32000 : Shape := ⟨1, ![32000]⟩
abbrev S8x2048x1024 : Shape := ⟨3, ![8, 2048, 1024]⟩
abbrev S8x2048 : Shape := ⟨2, ![8, 2048]⟩
abbrev S8x1024x2048 : Shape := ⟨3, ![8, 1024, 2048]⟩
abbrev S8x1024 : Shape := ⟨2, ![8, 1024]⟩
abbrev S_ : Shape := ⟨0, ![]⟩

class Facts : Prop where
  bcast_S_S2x1024x1024 : S_.BroadcastsInDim S2x1024x1024 (![] : Fin 0 → Fin S2x1024x1024.rank)
  reducesTo_S2x1024x1024_S_d0_1_2 : S2x1024x1024.ReducesTo [0, 1, 2] S_
  h_S_ : 0 < S_.numel
  bcast_S_S8x2048x1024 : S_.BroadcastsInDim S8x2048x1024 (![] : Fin 0 → Fin S8x2048x1024.rank)
  reducesTo_S8x2048x1024_S_d0_1_2 : S8x2048x1024.ReducesTo [0, 1, 2] S_
  bcast_S_S8x2048 : S_.BroadcastsInDim S8x2048 (![] : Fin 0 → Fin S8x2048.rank)
  reducesTo_S8x2048_S_d0_1 : S8x2048.ReducesTo [0, 1] S_
  bcast_S_S8x1024x2048 : S_.BroadcastsInDim S8x1024x2048 (![] : Fin 0 → Fin S8x1024x2048.rank)
  reducesTo_S8x1024x2048_S_d0_1_2 : S8x1024x2048.ReducesTo [0, 1, 2] S_
  bcast_S_S8x1024 : S_.BroadcastsInDim S8x1024 (![] : Fin 0 → Fin S8x1024.rank)
  reducesTo_S8x1024_S_d0_1 : S8x1024.ReducesTo [0, 1] S_
  bcast_S_S32000 : S_.BroadcastsInDim S32000 (![] : Fin 0 → Fin S32000.rank)
  reducesTo_S32000_S_d0 : S32000.ReducesTo [0] S_

variable [Facts]

def fn_part1 {F : FTy → Type} [FloatOps F] (main_arg2 : IVec S32000 32) (main_arg6 : FVec F S8x1024 .f32) (main_v13 : IVec S_ 1) (main_v16 : IVec S8x1024x2048 1) : IVec S_ 1 :=
  let main_c_5 : IVec S_ 1 := constantI S_ 1 1#1
  let main_v17 : IVec S_ 1 := (fun x v => Host.reduce IntOp.andi x v reducesTo_S8x1024x2048_S_d0_1_2 h_S_) main_v16 main_c_5
  let main_v18 : IVec S_ 1 := andi main_v13 main_v17
  let main_v19 : FVec F S8x1024 .f32 := Host.absf main_arg6
  let main_cst_6 : FVec F S_ .f32 := constant S_ .f32 0x7F800000#32
  let main_v20 : FVec F S8x1024 .f32 := broadcastInDim S8x1024 ![] bcast_S_S8x1024 main_cst_6
  let main_v21 : IVec S8x1024 1 := cmpf .olt main_v19 main_v20
  let main_c_7 : IVec S_ 1 := constantI S_ 1 1#1
  let main_v22 : IVec S_ 1 := (fun x v => Host.reduce IntOp.andi x v reducesTo_S8x1024_S_d0_1 h_S_) main_v21 main_c_7
  let main_v23 : IVec S_ 1 := andi main_v18 main_v22
  let main_c_8 : IVec S_ 32 := constantI S_ 32 0#32
  let main_v24 : IVec S32000 32 := broadcastInDim S32000 ![] bcast_S_S32000 main_c_8
  let main_v25 : IVec S32000 1 := cmpi .sge main_arg2 main_v24
  let main_c_9 : IVec S_ 32 := constantI S_ 32 8#32
  let main_v26 : IVec S32000 32 := broadcastInDim S32000 ![] bcast_S_S32000 main_c_9
  let main_v27 : IVec S32000 1 := cmpi .slt main_arg2 main_v26
  let main_v28 : IVec S32000 1 := andi main_v25 main_v27
  let main_c_10 : IVec S_ 1 := constantI S_ 1 1#1
  let main_v29 : IVec S_ 1 := (fun x v => Host.reduce IntOp.andi x v reducesTo_S32000_S_d0 h_S_) main_v28 main_c_10
  let main_v30 : IVec S_ 1 := andi main_v23 main_v29
  main_v30

def fn {F : FTy → Type} [FloatOps F] (main_arg0 : FVec F S2x1024x1024 .f32) (main_arg1 : IVec S2x1024 32) (main_arg2 : IVec S32000 32) (main_arg3 : FVec F S8x2048x1024 .f32) (main_arg4 : FVec F S8x2048 .f32) (main_arg5 : FVec F S8x1024x2048 .f32) (main_arg6 : FVec F S8x1024 .f32) : IVec S_ 1 :=
  let main_v0 : FVec F S2x1024x1024 .f32 := Host.absf main_arg0
  let main_cst : FVec F S_ .f32 := constant S_ .f32 0x7F800000#32
  let main_v1 : FVec F S2x1024x1024 .f32 := broadcastInDim S2x1024x1024 ![] bcast_S_S2x1024x1024 main_cst
  let main_v2 : IVec S2x1024x1024 1 := cmpf .olt main_v0 main_v1
  let main_c : IVec S_ 1 := constantI S_ 1 1#1
  let main_v3 : IVec S_ 1 := (fun x v => Host.reduce IntOp.andi x v reducesTo_S2x1024x1024_S_d0_1_2 h_S_) main_v2 main_c
  let main_v4 : FVec F S8x2048x1024 .f32 := Host.absf main_arg3
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048 .f32 := Host.absf main_arg4
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  let main_c_3 : IVec S_ 1 := constantI S_ 1 1#1
  let main_v12 : IVec S_ 1 := (fun x v => Host.reduce IntOp.andi x v reducesTo_S8x2048_S_d0_1 h_S_) main_v11 main_c_3
  let main_v13 : IVec S_ 1 := andi main_v8 main_v12
  let main_v14 : FVec F S8x1024x2048 .f32 := Host.absf main_arg5
  let main_cst_4 : FVec F S_ .f32 := constant S_ .f32 0x7F800000#32
  let main_v15 : FVec F S8x1024x2048 .f32 := broadcastInDim S8x1024x2048 ![] bcast_S_S8x1024x2048 main_cst_4
  let main_v16 : IVec S8x1024x2048 1 := cmpf .olt main_v14 main_v15
  fn_part1 (F := F) main_arg2 main_arg6 main_v13 main_v16
-- ==== Kernel.lean ====
abbrev S2x1024x1024 : Shape := ⟨3, ![2, 1024, 1024]⟩
abbrev S2x1024 : Shape := ⟨2, ![2, 1024]⟩
abbrev S32000 : Shape := ⟨1, ![32000]⟩
abbrev S8x2048x1024 : Shape := ⟨3, ![8, 2048, 1024]⟩
abbrev S8x2048 : Shape := ⟨2, ![8, 2048]⟩
abbrev S8x1024x2048 : Shape := ⟨3, ![8, 1024, 2048]⟩
abbrev S8x1024 : Shape := ⟨2, ![8, 1024]⟩
abbrev S_ : Shape := ⟨0, ![]⟩
abbrev S2x1024x1 : Shape := ⟨3, ![2, 1024, 1]⟩
abbrev S2048 : Shape := ⟨1, ![2048]⟩
abbrev S2048x1 : Shape := ⟨2, ![2048, 1]⟩
abbrev S8 : Shape := ⟨1, ![8]⟩
abbrev S1x2048 : Shape := ⟨2, ![1, 2048]⟩
abbrev S8x1 : Shape := ⟨2, ![8, 1]⟩
abbrev S4096 : Shape := ⟨1, ![4096]⟩
abbrev S16 : Shape := ⟨1, ![16]⟩
abbrev S1x8 : Shape := ⟨2, ![1, 8]⟩
abbrev S16x1 : Shape := ⟨2, ![16, 1]⟩
abbrev S16x8 : Shape := ⟨2, ![16, 8]⟩
abbrev S2048x1024 : Shape := ⟨2, ![2048, 1024]⟩
abbrev S4096x1 : Shape := ⟨2, ![4096, 1]⟩
abbrev S4096x1024 : Shape := ⟨2, ![4096, 1024]⟩
abbrev S8x1x2048 : Shape := ⟨3, ![8, 1, 2048]⟩
abbrev S8x1x1024 : Shape := ⟨3, ![8, 1, 1024]⟩
abbrev S256x1024 : Shape := ⟨2, ![256, 1024]⟩
abbrev S1x2048x1024 : Shape := ⟨3, ![1, 2048, 1024]⟩
abbrev S1 : Shape := ⟨1, ![1]⟩
abbrev S1x1x2048 : Shape := ⟨3, ![1, 1, 2048]⟩
abbrev S1x1024x2048 : Shape := ⟨3, ![1, 1024, 2048]⟩
abbrev S1x1x1024 : Shape := ⟨3, ![1, 1, 1024]⟩
abbrev S256x2048 : Shape := ⟨2, ![256, 2048]⟩
abbrev S1024x2048 : Shape := ⟨2, ![1024, 2048]⟩
abbrev S1x1024 : Shape := ⟨2, ![1, 1024]⟩

abbrev nBuf : Space → Nat
  | .hbm => 179
  | .vmem => 12
  | .smem => 1
  | _ => 0

abbrev hbmTy0_0 (i : Nat) : BufTy := match i % 128 with
  | 0 => ⟨S2x1024x1024, .f32⟩
  | 1 => ⟨S2x1024, .i32⟩
  | 2 => ⟨S32000, .i32⟩
  | 3 => ⟨S8x2048x1024, .f32⟩
  | 4 => ⟨S8x2048, .f32⟩
  | 5 => ⟨S8x1024x2048, .f32⟩
  | 6 => ⟨S8x1024, .f32⟩
  | 7 => ⟨S_, .i32⟩
  | 8 => ⟨S2x1024, .i32⟩
  | 9 => ⟨S2x1024, .i1⟩
  | 10 => ⟨S_, .i32⟩
  | 11 => ⟨S2x1024, .i32⟩
  | 12 => ⟨S2x1024, .i32⟩
  | 13 => ⟨S2x1024, .i32⟩
  | 14 => ⟨S2x1024x1, .i32⟩
  | 15 => ⟨S2x1024, .i32⟩
  | 16 => ⟨S2048, .i32⟩
  | 17 => ⟨S2048, .i32⟩
  | 18 => ⟨S2048, .i32⟩
  | 19 => ⟨S2048, .i32⟩
  | 20 => ⟨S_, .i32⟩
  | 21 => ⟨S2048, .i32⟩
  | 22 => ⟨S2048, .i1⟩
  | 23 => ⟨S_, .i32⟩
  | 24 => ⟨S2048, .i32⟩
  | 25 => ⟨S2048, .i32⟩
  | 26 => ⟨S2048, .i32⟩
  | 27 => ⟨S2048x1, .i32⟩
  | 28 => ⟨S2048, .i32⟩
  | 29 => ⟨S8, .i32⟩
  | 30 => ⟨S1x2048, .i32⟩
  | 31 => ⟨S8x1, .i32⟩
  | 32 => ⟨S8x2048, .i32⟩
  | 33 => ⟨S8x2048, .i32⟩
  | 34 => ⟨S8x2048, .i1⟩
  | 35 => ⟨S8x2048, .i32⟩
  | 36 => ⟨S_, .i32⟩
  | 37 => ⟨S8, .i32⟩
  | 38 => ⟨S_, .i32⟩
  | 39 => ⟨S_, .i32⟩
  | 40 => ⟨S8, .i32⟩
  | 41 => ⟨S8, .i32⟩
  | 42 => ⟨S_, .i32⟩
  | 43 => ⟨S8, .i32⟩
  | 44 => ⟨S8, .i32⟩
  | 45 => ⟨S_, .i32⟩
  | 46 => ⟨S8, .i32⟩
  | 47 => ⟨S8, .i32⟩
  | 48 => ⟨S_, .i32⟩
  | 49 => ⟨S_, .i32⟩
  | 50 => ⟨S8, .i32⟩
  | 51 => ⟨S8, .i32⟩
  | 52 => ⟨S8, .i32⟩
  | 53 => ⟨S_, .i32⟩
  | 54 => ⟨S8, .i32⟩
  | 55 => ⟨S8, .i1⟩
  | 56 => ⟨S8, .i32⟩
  | 57 => ⟨S8, .i32⟩
  | 58 => ⟨S_, .i32⟩
  | 59 => ⟨S8, .i32⟩
  | 60 => ⟨S8, .i1⟩
  | 61 => ⟨S8, .i1⟩
  | 62 => ⟨S_, .i32⟩
  | 63 => ⟨S8, .i32⟩
  | 64 => ⟨S8, .i32⟩
  | 65 => ⟨S8, .i32⟩
  | 66 => ⟨S_, .i32⟩
  | 67 => ⟨S8, .i32⟩
  | 68 => ⟨S8, .i32⟩
  | 69 => ⟨S_, .i32⟩
  | 70 => ⟨S_, .i32⟩
  | 71 => ⟨S8, .i32⟩
  | 72 => ⟨S8, .i32⟩
  | 73 => ⟨S2048, .i32⟩
  | 74 => ⟨S_, .i32⟩
  | 75 => ⟨S2048, .i32⟩
  | 76 => ⟨S2048, .i1⟩
  | 77 => ⟨S_, .i32⟩
  | 78 => ⟨S2048, .i32⟩
  | 79 => ⟨S2048, .i32⟩
  | 80 => ⟨S2048, .i32⟩
  | 81 => ⟨S2048x1, .i32⟩
  | 82 => ⟨S2048, .i32⟩
  | 83 => ⟨S2048, .i32⟩
  | 84 => ⟨S_, .i32⟩
  | 85 => ⟨S2048, .i32⟩
  | 86 => ⟨S2048, .i1⟩
  | 87 => ⟨S_, .i32⟩
  | 88 => ⟨S2048, .i32⟩
  | 89 => ⟨S2048, .i32⟩
  | 90 => ⟨S2048, .i32⟩
  | 91 => ⟨S2048x1, .i32⟩
  | 92 => ⟨S2048, .i32⟩
  | 93 => ⟨S2048, .i32⟩
  | 94 => ⟨S_, .i32⟩
  | 95 => ⟨S4096, .i32⟩
  | 96 => ⟨S_, .i32⟩
  | 97 => ⟨S2048, .i32⟩
  | 98 => ⟨S2048, .i1⟩
  | 99 => ⟨S_, .i32⟩
  | 100 => ⟨S2048, .i32⟩
  | 101 => ⟨S2048, .i32⟩
  | 102 => ⟨S2048, .i32⟩
  | 103 => ⟨S2048x1, .i32⟩
  | 104 => ⟨S4096, .i32⟩
  | 105 => ⟨S_, .i32⟩
  | 106 => ⟨S2048, .i32⟩
  | 107 => ⟨S_, .i32⟩
  | 108 => ⟨S2048, .i32⟩
  | 109 => ⟨S2048, .i1⟩
  | 110 => ⟨S_, .i32⟩
  | 111 => ⟨S2048, .i32⟩
  | 112 => ⟨S2048, .i32⟩
  | 113 => ⟨S2048, .i32⟩
  | 114 => ⟨S2048x1, .i32⟩
  | 115 => ⟨S2048, .i32⟩
  | 116 => ⟨S_, .i32⟩
  | 117 => ⟨S_, .i32⟩
  | 118 => ⟨S8, .i32⟩
  | 119 => ⟨S8, .i32⟩
  | 120 => ⟨S8, .i32⟩
  | 121 => ⟨S_, .i32⟩
  | 122 => ⟨S8, .i32⟩
  | 123 => ⟨S8, .i1⟩
  | 124 => ⟨S8, .i32⟩
  | 125 => ⟨S8, .i32⟩
  | 126 => ⟨S_, .i32⟩
  | 127 => ⟨S8, .i32⟩
  | _ => ⟨S2x1024x1024, .f32⟩

abbrev hbmTy0_1 (i : Nat) : BufTy := match i % 128 with
  | 0 => ⟨S8, .i1⟩
  | 1 => ⟨S8, .i1⟩
  | 2 => ⟨S_, .i32⟩
  | 3 => ⟨S8, .i32⟩
  | 4 => ⟨S8, .i32⟩
  | 5 => ⟨S8, .i32⟩
  | 6 => ⟨S16, .i32⟩
  | 7 => ⟨S1x8, .i32⟩
  | 8 => ⟨S16x1, .i32⟩
  | 9 => ⟨S16x8, .i32⟩
  | 10 => ⟨S16x8, .i32⟩
  | 11 => ⟨S16x8, .i1⟩
  | 12 => ⟨S16x8, .i32⟩
  | 13 => ⟨S_, .i32⟩
  | 14 => ⟨S16, .i32⟩
  | 15 => ⟨S_, .i32⟩
  | 16 => ⟨S16, .i32⟩
  | 17 => ⟨S16, .i32⟩
  | 18 => ⟨S_, .i32⟩
  | 19 => ⟨S_, .i32⟩
  | 20 => ⟨S_, .i32⟩
  | 21 => ⟨S16, .i32⟩
  | 22 => ⟨S16, .i32⟩
  | 23 => ⟨S_, .i32⟩
  | 24 => ⟨S16, .i32⟩
  | 25 => ⟨S2048x1024, .f32⟩
  | 26 => ⟨S2048x1024, .bf16⟩
  | 27 => ⟨S_, .i32⟩
  | 28 => ⟨S4096, .i32⟩
  | 29 => ⟨S4096, .i1⟩
  | 30 => ⟨S_, .i32⟩
  | 31 => ⟨S4096, .i32⟩
  | 32 => ⟨S4096, .i32⟩
  | 33 => ⟨S4096, .i32⟩
  | 34 => ⟨S4096x1, .i32⟩
  | 35 => ⟨S4096x1024, .bf16⟩
  | 36 => ⟨S8x2048x1024, .bf16⟩
  | 37 => ⟨S8x1024x2048, .bf16⟩
  | 38 => ⟨S8x1x2048, .f32⟩
  | 39 => ⟨S8x1x1024, .f32⟩
  | 40 => ⟨S4096x1024, .f32⟩
  | 41 => ⟨S_, .i32⟩
  | 42 => ⟨S2048, .i32⟩
  | 43 => ⟨S2048, .i1⟩
  | 44 => ⟨S_, .i32⟩
  | 45 => ⟨S2048, .i32⟩
  | 46 => ⟨S2048, .i32⟩
  | 47 => ⟨S2048, .i32⟩
  | 48 => ⟨S2048x1, .i32⟩
  | 49 => ⟨S2048x1024, .f32⟩
  | 50 => ⟨S2x1024x1024, .f32⟩
  | _ => ⟨S2x1024x1024, .f32⟩

abbrev hbmTy (i : Nat) : BufTy := match i / 128 with
  | 0 => hbmTy0_0 i
  | 1 => hbmTy0_1 i
  | _ => ⟨S2x1024x1024, .f32⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x2048, .bf16⟩
  | .local _ .vmem, ⟨7, _⟩ => ⟨S1x1024x2048, .bf16⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .smem, ⟨0, _⟩ => ⟨S16, .i32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_v0 : Ref sig .tc := ⟨.hbm, 17, rfl⟩
abbrev main_call0_v1_0 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_call1_call0_c : Ref sig .tc := ⟨.hbm, 38, rfl⟩
abbrev main_call1_call0_v0 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_c : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_c_0 : Ref sig .tc := ⟨.hbm, 62, rfl⟩
abbrev main_call2_v12 : Ref sig .tc := ⟨.hbm, 63, rfl⟩
abbrev main_call2_v13 : Ref sig .tc := ⟨.hbm, 64, rfl⟩
abbrev main_v30 : Ref sig .tc := ⟨.hbm, 65, rfl⟩
abbrev main_c_7 : Ref sig .tc := ⟨.hbm, 66, rfl⟩
abbrev main_v31 : Ref sig .tc := ⟨.hbm, 67, rfl⟩
abbrev main_v32 : Ref sig .tc := ⟨.hbm, 68, rfl⟩
abbrev main_call3_call0_c : Ref sig .tc := ⟨.hbm, 69, rfl⟩
abbrev main_call3_call0_v0 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_c_8 : Ref sig .tc := ⟨.hbm, 74, rfl⟩
abbrev main_v36 : Ref sig .tc := ⟨.hbm, 75, rfl⟩
abbrev main_v37 : Ref sig .tc := ⟨.hbm, 76, rfl⟩
abbrev main_c_9 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_c_10 : Ref sig .tc := ⟨.hbm, 84, rfl⟩
abbrev main_v44 : Ref sig .tc := ⟨.hbm, 85, rfl⟩
abbrev main_v45 : Ref sig .tc := ⟨.hbm, 86, rfl⟩
abbrev main_c_11 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_c_12 : Ref sig .tc := ⟨.hbm, 94, rfl⟩
abbrev main_v52 : Ref sig .tc := ⟨.hbm, 95, rfl⟩
abbrev main_c_13 : Ref sig .tc := ⟨.hbm, 96, rfl⟩
abbrev main_v53 : Ref sig .tc := ⟨.hbm, 97, rfl⟩
abbrev main_v54 : Ref sig .tc := ⟨.hbm, 98, rfl⟩
abbrev main_c_14 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_c_15 : Ref sig .tc := ⟨.hbm, 105, rfl⟩
abbrev main_v60 : Ref sig .tc := ⟨.hbm, 106, rfl⟩
abbrev main_c_16 : Ref sig .tc := ⟨.hbm, 107, rfl⟩
abbrev main_v61 : Ref sig .tc := ⟨.hbm, 108, rfl⟩
abbrev main_v62 : Ref sig .tc := ⟨.hbm, 109, rfl⟩
abbrev main_c_17 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_c_18 : Ref sig .tc := ⟨.hbm, 116, rfl⟩
abbrev main_call4_v0 : Ref sig .tc := ⟨.hbm, 117, rfl⟩
abbrev main_call4_v1 : Ref sig .tc := ⟨.hbm, 118, rfl⟩
abbrev main_call4_v2 : Ref sig .tc := ⟨.hbm, 119, rfl⟩
abbrev main_call4_v3 : Ref sig .tc := ⟨.hbm, 120, rfl⟩
abbrev main_call4_v4 : Ref sig .tc := ⟨.hbm, 121, rfl⟩
abbrev main_call4_v5 : Ref sig .tc := ⟨.hbm, 122, rfl⟩
abbrev main_call4_v6 : Ref sig .tc := ⟨.hbm, 123, rfl⟩
abbrev main_call4_v7 : Ref sig .tc := ⟨.hbm, 124, rfl⟩
abbrev main_call4_v8 : Ref sig .tc := ⟨.hbm, 125, rfl⟩
abbrev main_call4_c : Ref sig .tc := ⟨.hbm, 126, rfl⟩
abbrev main_call4_v9 : Ref sig .tc := ⟨.hbm, 127, rfl⟩
abbrev main_call4_v10 : Ref sig .tc := ⟨.hbm, 128, rfl⟩
abbrev main_call4_v11 : Ref sig .tc := ⟨.hbm, 129, rfl⟩
abbrev main_call4_c_0 : Ref sig .tc := ⟨.hbm, 130, rfl⟩
abbrev main_call4_v12 : Ref sig .tc := ⟨.hbm, 131, rfl⟩
abbrev main_call4_v13 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_c_19 : Ref sig .tc := ⟨.hbm, 141, rfl⟩
abbrev main_v76 : Ref sig .tc := ⟨.hbm, 142, rfl⟩
abbrev main_c_20 : Ref sig .tc := ⟨.hbm, 143, rfl⟩
abbrev main_v77 : Ref sig .tc := ⟨.hbm, 144, rfl⟩
abbrev main_v78 : Ref sig .tc := ⟨.hbm, 145, rfl⟩
abbrev main_c_21 : Ref sig .tc := ⟨.hbm, 146, rfl⟩
abbrev main_c_22 : Ref sig .tc := ⟨.hbm, 147, rfl⟩
abbrev main_call5_v0 : Ref sig .tc := ⟨.hbm, 148, rfl⟩
abbrev main_call5_v1 : Ref sig .tc := ⟨.hbm, 149, rfl⟩
abbrev main_call5_v2 : Ref sig .tc := ⟨.hbm, 150, rfl⟩
abbrev main_call5_v3 : Ref sig .tc := ⟨.hbm, 151, rfl⟩
abbrev main_call5_v4 : Ref sig .tc := ⟨.hbm, 152, rfl⟩
abbrev main_v80 : Ref sig .tc := ⟨.hbm, 153, rfl⟩
abbrev main_v81 : Ref sig .tc := ⟨.hbm, 154, rfl⟩
abbrev main_c_23 : Ref sig .tc := ⟨.hbm, 155, rfl⟩
abbrev main_v82 : Ref sig .tc := ⟨.hbm, 156, rfl⟩
abbrev main_v83 : Ref sig .tc := ⟨.hbm, 157, rfl⟩
abbrev main_c_24 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_c_25 : Ref sig .tc := ⟨.hbm, 169, rfl⟩
abbrev main_v94 : Ref sig .tc := ⟨.hbm, 170, rfl⟩
abbrev main_v95 : Ref sig .tc := ⟨.hbm, 171, rfl⟩
abbrev main_c_26 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v79 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v79.idx], fun | 0 => main_v79.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S2x1024 : S_.BroadcastsInDim S2x1024 (![] : Fin 0 → Fin S2x1024.rank)
  bcast_S2x1024_S2x1024x1_0_1 : S2x1024.BroadcastsInDim S2x1024x1 (![0, 1] : Fin 2 → Fin S2x1024x1.rank)
  shapeCasts_S2x1024_S2048 : S2x1024.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S8_S8x1_0 : S8.BroadcastsInDim S8x1 (![0] : Fin 1 → Fin S8x1.rank)
  bcast_S1x2048_S8x2048_0_1 : S1x2048.BroadcastsInDim S8x2048 (![0, 1] : Fin 2 → Fin S8x2048.rank)
  bcast_S8x1_S8x2048_0_1 : S8x1.BroadcastsInDim S8x2048 (![0, 1] : Fin 2 → Fin S8x2048.rank)
  natLt_1_32 : 1 < 32
  reducesTo_S8x2048_S8_d1 : S8x2048.ReducesTo [1] S8
  h_S_ : 0 < S_.numel
  bcast_S_S_ : S_.BroadcastsInDim S_ (![] : Fin 0 → Fin S_.rank)
  reduceWindows_S8_S8_w8s1p7_0 : S8.ReduceWindows (![8] : Fin 1 → Nat) ![1] ![7] ![0] S8
  bcast_S_S8 : S_.BroadcastsInDim S8 (![] : Fin 0 → Fin S8.rank)
  bcast_S_S4096 : S_.BroadcastsInDim S4096 (![] : Fin 0 → Fin S4096.rank)
  bcast_S8_S1x8_1 : S8.BroadcastsInDim S1x8 (![1] : Fin 1 → Fin S1x8.rank)
  bcast_S16_S16x1_0 : S16.BroadcastsInDim S16x1 (![0] : Fin 1 → Fin S16x1.rank)
  bcast_S1x8_S16x8_0_1 : S1x8.BroadcastsInDim S16x8 (![0, 1] : Fin 2 → Fin S16x8.rank)
  bcast_S16x1_S16x8_0_1 : S16x1.BroadcastsInDim S16x8 (![0, 1] : Fin 2 → Fin S16x8.rank)
  reducesTo_S16x8_S16_d1 : S16x8.ReducesTo [1] S16
  bcast_S_S16 : S_.BroadcastsInDim S16 (![] : Fin 0 → Fin S16.rank)
  shapeCasts_S2x1024x1024_S2048x1024 : S2x1024x1024.ShapeCasts S2048x1024
  bitsLt_bf16_f32 : FTy.bits .bf16 < FTy.bits .f32
  bcast_S4096_S4096x1_0 : S4096.BroadcastsInDim S4096x1 (![0] : Fin 1 → Fin S4096x1.rank)
  shapeCasts_S8x2048_S8x1x2048 : S8x2048.ShapeCasts S8x1x2048
  shapeCasts_S8x1024_S8x1x1024 : S8x1024.ShapeCasts S8x1x1024
  numel1_S1 : S1.numel = 1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S256x2048 : S1x2048.Broadcasts S256x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S256x1024 : S1x1024.Broadcasts S256x1024
  shapeCasts_S2048x1024_S2x1024x1024 : S2048x1024.ShapeCasts S2x1024x1024
  gather_S32000_S2x1024x1_S2x1024_n_0_n_n_0_2_1_wf : GatherDims.WF S32000 S2x1024x1 S2x1024 [] [0] [] [0] [] 2 ![1]
  gather_S2048_S2048x1_S2048_n_0_n_n_0_1_1_wf : GatherDims.WF S2048 S2048x1 S2048 [] [0] [] [0] [] 1 ![1]
  gather_S8_S2048x1_S2048_n_0_n_n_0_1_1_wf : GatherDims.WF S8 S2048x1 S2048 [] [0] [] [0] [] 1 ![1]
  scatter_S4096_S2048x1_S2048_n_0_0_1_wf : ScatterDims.WF S4096 S2048x1 S2048 [] [0] [0] 1
  scatter_S2048_S2048x1_S2048_n_0_0_1_wf : ScatterDims.WF S2048 S2048x1 S2048 [] [0] [0] 1
  gather_S2048x1024_S4096x1_S4096x1024_1_0_n_n_0_1_11024_wf : GatherDims.WF S2048x1024 S4096x1 S4096x1024 [1] [0] [] [0] [] 1 ![1, 1024]
  dot_S256x1024_S2048x1024_S256x2048_1_1_0_0_n_n_wf : DotDims.WF S256x1024 S2048x1024 S256x2048 [1] [1] [0] [0] [] []
  dot_S256x2048_S1024x2048_S256x1024_1_1_0_0_n_n_wf : DotDims.WF S256x2048 S1024x2048 S256x1024 [1] [1] [0] [0] [] []
  gather_S4096x1024_S2048x1_S2048x1024_1_0_n_n_0_1_11024_wf : GatherDims.WF S4096x1024 S2048x1 S2048x1024 [1] [0] [] [0] [] 1 ![1, 1024]
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .bf16 = 32 ∨ (Rect.block (s := S4096x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x1024.size a
  hwx0_5 : ∀ i : grid0.Coords, EltTy.bits .f32 = 32 ∨ (Rect.block (s := S4096x1024) S256x1024.size (cc0_transform_5 i) (hinb0_5 i)).WholeWords (EltTy.packing .f32)

variable [Facts₀]

def gather_S32000_S2x1024x1_S2x1024_n_0_n_n_0_2_1 : GatherDims S32000 S2x1024x1 S2x1024 where
  offsetDims := []
  collapsedSliceDims := [0]
  operandBatchingDims := []
  startIndicesBatchingDims := []
  startIndexMap := [0]
  indexVectorDim := 2
  sliceSizes := ![1]
  wf := gather_S32000_S2x1024x1_S2x1024_n_0_n_n_0_2_1_wf
def comparator_i32_i32_d0 : BitVec 32 × BitVec 32 → BitVec 32 × BitVec 32 → BitVec 1 :=
  fun l r =>
    let v2 := IntOp.cmpi .slt l.1 r.1
    v2
def gather_S2048_S2048x1_S2048_n_0_n_n_0_1_1 : GatherDims S2048 S2048x1 S2048 where
  offsetDims := []
  collapsedSliceDims := [0]
  operandBatchingDims := []
  startIndicesBatchingDims := []
  startIndexMap := [0]
  indexVectorDim := 1
  sliceSizes := ![1]
  wf := gather_S2048_S2048x1_S2048_n_0_n_n_0_1_1_wf
def gather_S8_S2048x1_S2048_n_0_n_n_0_1_1 : GatherDims S8 S2048x1 S2048 where
  offsetDims := []
  collapsedSliceDims := [0]
  operandBatchingDims := []
  startIndicesBatchingDims := []
  startIndexMap := [0]
  indexVectorDim := 1
  sliceSizes := ![1]
  wf := gather_S8_S2048x1_S2048_n_0_n_n_0_1_1_wf
def scatter_S4096_S2048x1_S2048_n_0_0_1 : ScatterDims S4096 S2048x1 S2048 where
  updateWindowDims := []
  insertedWindowDims := [0]
  scatterDimsToOperandDims := [0]
  indexVectorDim := 1
  wf := scatter_S4096_S2048x1_S2048_n_0_0_1_wf
def scatter_S2048_S2048x1_S2048_n_0_0_1 : ScatterDims S2048 S2048x1 S2048 where
  updateWindowDims := []
  insertedWindowDims := [0]
  scatterDimsToOperandDims := [0]
  indexVectorDim := 1
  wf := scatter_S2048_S2048x1_S2048_n_0_0_1_wf
def gather_S2048x1024_S4096x1_S4096x1024_1_0_n_n_0_1_11024 : GatherDims S2048x1024 S4096x1 S4096x1024 where
  offsetDims := [1]
  collapsedSliceDims := [0]
  operandBatchingDims := []
  startIndicesBatchingDims := []
  startIndexMap := [0]
  indexVectorDim := 1
  sliceSizes := ![1, 1024]
  wf := gather_S2048x1024_S4096x1_S4096x1024_1_0_n_n_0_1_11024_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf
def gather_S4096x1024_S2048x1_S2048x1024_1_0_n_n_0_1_11024 : GatherDims S4096x1024 S2048x1 S2048x1024 where
  offsetDims := [1]
  collapsedSliceDims := [0]
  operandBatchingDims := []
  startIndicesBatchingDims := []
  startIndexMap := [0]
  indexVectorDim := 1
  sliceSizes := ![1, 1024]
  wf := gather_S4096x1024_S2048x1_S2048x1024_1_0_n_n_0_1_11024_wf

abbrev spec0_0 : Pipeline.WinSpec sig grid0.rank :=
  Pipeline.WinSpec.ofSpec (Memref.whole main_v88) S256x1024.size reads0_0 false false 2 stage0_0 sem0_0 nbuf0_0 hstage0_0

abbrev spec0_1 : Pipeline.WinSpec sig grid0.rank :=
  Pipeline.WinSpec.ofSpec (Memref.whole main_v89) S1x2048x1024.size reads0_1 false false 2 stage0_1 sem0_1 nbuf0_1 hstage0_1

abbrev spec0_2 : Pipeline.WinSpec sig grid0.rank :=
  Pipeline.WinSpec.ofSpec (Memref.whole main_v91) S1x1x2048.size reads0_2 false false 2 stage0_2 sem0_2 nbuf0_2 hstage0_2

abbrev spec0_3 : Pipeline.WinSpec sig grid0.rank :=
  Pipeline.WinSpec.ofSpec (Memref.whole main_v90) S1x1024x2048.size reads0_3 false false 2 stage0_3 sem0_3 nbuf0_3 hstage0_3

abbrev spec0_4 : Pipeline.WinSpec sig grid0.rank :=
  Pipeline.WinSpec.ofSpec (Memref.whole main_v92) S1x1x1024.size reads0_4 false false 2 stage0_4 sem0_4 nbuf0_4 hstage0_4

abbrev spec0_5 : Pipeline.WinSpec sig grid0.rank :=
  Pipeline.WinSpec.ofSpec (Memref.whole main_v93) S256x1024.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 k0_off1_inb numel1_S1 pf | 2 => cc0_transform_2 k0_off1_inb numel1_S1 pf | 3 => cc0_transform_3 k0_off1_inb numel1_S1 pf | 4 => cc0_transform_4 k0_off1_inb numel1_S1 pf | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 pf | 4 => hreads0_4 pf | 5 => hreads0_5 | ⟨_ + 6, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x2048x1024.size a ≤ S8x2048x1024.size a), EltTy.bits .bf16 = 32 ∨ (Rect.block (s := S8x2048x1024) S1x2048x1024.size (cc0_transform_1 k0_off1_inb numel1_S1 pf i) h).WholeWords (EltTy.packing .bf16)) ∧
  (∀ i : grid0.Coords, ∃ h : (∀ a, (cc0_transform_2 k0_off1_inb numel1_S1 pf i a + 1) * S1x1x2048.size a ≤ S8x1x2048.size a), EltTy.bits .f32 = 32 ∨ (Rect.block (s := S8x1x2048) S1x1x2048.size (cc0_transform_2 k0_off1_inb numel1_S1 pf i) h).WholeWords (EltTy.packing .f32)) ∧
  (∀ i : grid0.Coords, ∃ h : (∀ a, (cc0_transform_3 k0_off1_inb numel1_S1 pf i a + 1) * S1x1024x2048.size a ≤ S8x1024x2048.size a), EltTy.bits .bf16 = 32 ∨ (Rect.block (s := S8x1024x2048) S1x1024x2048.size (cc0_transform_3 k0_off1_inb numel1_S1 pf i) h).WholeWords (EltTy.packing .bf16)) ∧
  (∀ i : grid0.Coords, ∃ h : (∀ a, (cc0_transform_4 k0_off1_inb numel1_S1 pf i a + 1) * S1x1x1024.size a ≤ S8x1x1024.size a), EltTy.bits .f32 = 32 ∨ (Rect.block (s := S8x1x1024) S1x1x1024.size (cc0_transform_4 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2.1 i).elim fun h _ => h a | 3 => fun i a => (hok.2.2.1 i).elim fun h _ => h a | 4 => fun i a => (hok.2.2.2 i).elim fun h _ => h a | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2.1 i).elim fun _ h => h | 3 => fun i => (hok.2.2.1 i).elim fun _ h => h | 4 => fun i => (hok.2.2.2 i).elim fun _ h => h | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S2x1024x1024 : Shape := ⟨3, ![2, 1024, 1024]⟩
abbrev S2x1024 : Shape := ⟨2, ![2, 1024]⟩
abbrev S32000 : Shape := ⟨1, ![32000]⟩
abbrev S8x2048x1024 : Shape := ⟨3, ![8, 2048, 1024]⟩
abbrev S8x2048 : Shape := ⟨2, ![8, 2048]⟩
abbrev S8x1024x2048 : Shape := ⟨3, ![8, 1024, 2048]⟩
abbrev S8x1024 : Shape := ⟨2, ![8, 1024]⟩
abbrev S_ : Shape := ⟨0, ![]⟩
abbrev S2x1024x1 : Shape := ⟨3, ![2, 1024, 1]⟩
abbrev S1x2048x1024 : Shape := ⟨3, ![1, 2048, 1024]⟩
abbrev S2048x1024 : Shape := ⟨2, ![2048, 1024]⟩
abbrev S2x1024x2048 : Shape := ⟨3, ![2, 1024, 2048]⟩
abbrev S1x2048 : Shape := ⟨2, ![1, 2048]⟩
abbrev S2048 : Shape := ⟨1, ![2048]⟩
abbrev S1x1x2048 : Shape := ⟨3, ![1, 1, 2048]⟩
abbrev S1x1024x2048 : Shape := ⟨3, ![1, 1024, 2048]⟩
abbrev S1024x2048 : Shape := ⟨2, ![1024, 2048]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 218
  | .vmem => 0
  | .smem => 0
  | _ => 0

abbrev hbmTy0_0 (i : Nat) : BufTy := match i % 128 with
  | 0 => ⟨S2x1024x1024, .f32⟩
  | 1 => ⟨S2x1024, .i32⟩
  | 2 => ⟨S32000, .i32⟩
  | 3 => ⟨S8x2048x1024, .f32⟩
  | 4 => ⟨S8x2048, .f32⟩
  | 5 => ⟨S8x1024x2048, .f32⟩
  | 6 => ⟨S8x1024, .f32⟩
  | 7 => ⟨S_, .i32⟩
  | 8 => ⟨S2x1024, .i32⟩
  | 9 => ⟨S2x1024, .i1⟩
  | 10 => ⟨S_, .i32⟩
  | 11 => ⟨S2x1024, .i32⟩
  | 12 => ⟨S2x1024, .i32⟩
  | 13 => ⟨S2x1024, .i32⟩
  | 14 => ⟨S2x1024x1, .i32⟩
  | 15 => ⟨S2x1024, .i32⟩
  | 16 => ⟨S_, .f32⟩
  | 17 => ⟨S2x1024x1024, .f32⟩
  | 18 => ⟨S1x2048x1024, .f32⟩
  | 19 => ⟨S2048x1024, .f32⟩
  | 20 => ⟨S2x1024x2048, .f32⟩
  | 21 => ⟨S1x2048, .f32⟩
  | 22 => ⟨S2048, .f32⟩
  | 23 => ⟨S1x1x2048, .f32⟩
  | 24 => ⟨S2x1024x2048, .f32⟩
  | 25 => ⟨S2x1024x2048, .f32⟩
  | 26 => ⟨S_, .f32⟩
  | 27 => ⟨S2x1024x2048, .f32⟩
  | 28 => ⟨S2x1024x2048, .f32⟩
  | 29 => ⟨S1x1024x2048, .f32⟩
  | 30 => ⟨S1024x2048, .f32⟩
  | 31 => ⟨S2x1024x1024, .f32⟩
  | 32 => ⟨S1x1024, .f32⟩
  | 33 => ⟨S1024, .f32⟩
  | 34 => ⟨S1x1x1024, .f32⟩
  | 35 => ⟨S2x1024x1024, .f32⟩
  | 36 => ⟨S2x1024x1024, .f32⟩
  | 37 => ⟨S_, .i32⟩
  | 38 => ⟨S2x1024, .i32⟩
  | 39 => ⟨S2x1024, .i1⟩
  | 40 => ⟨S2x1024x1, .i1⟩
  | 41 => ⟨S2x1024x1024, .i1⟩
  | 42 => ⟨S2x1024x1024, .f32⟩
  | 43 => ⟨S1x2048x1024, .f32⟩
  | 44 => ⟨S2048x1024, .f32⟩
  | 45 => ⟨S2x1024x2048, .f32⟩
  | 46 => ⟨S1x2048, .f32⟩
  | 47 => ⟨S2048, .f32⟩
  | 48 => ⟨S1x1x2048, .f32⟩
  | 49 => ⟨S2x1024x2048, .f32⟩
  | 50 => ⟨S2x1024x2048, .f32⟩
  | 51 => ⟨S_, .f32⟩
  | 52 => ⟨S2x1024x2048, .f32⟩
  | 53 => ⟨S2x1024x2048, .f32⟩
  | 54 => ⟨S1x1024x2048, .f32⟩
  | 55 => ⟨S1024x2048, .f32⟩
  | 56 => ⟨S2x1024x1024, .f32⟩
  | 57 => ⟨S1x1024, .f32⟩
  | 58 => ⟨S1024, .f32⟩
  | 59 => ⟨S1x1x1024, .f32⟩
  | 60 => ⟨S2x1024x1024, .f32⟩
  | 61 => ⟨S2x1024x1024, .f32⟩
  | 62 => ⟨S_, .i32⟩
  | 63 => ⟨S2x1024, .i32⟩
  | 64 => ⟨S2x1024, .i1⟩
  | 65 => ⟨S2x1024x1, .i1⟩
  | 66 => ⟨S2x1024x1024, .i1⟩
  | 67 => ⟨S2x1024x1024, .f32⟩
  | 68 => ⟨S1x2048x1024, .f32⟩
  | 69 => ⟨S2048x1024, .f32⟩
  | 70 => ⟨S2x1024x2048, .f32⟩
  | 71 => ⟨S1x2048, .f32⟩
  | 72 => ⟨S2048, .f32⟩
  | 73 => ⟨S1x1x2048, .f32⟩
  | 74 => ⟨S2x1024x2048, .f32⟩
  | 75 => ⟨S2x1024x2048, .f32⟩
  | 76 => ⟨S_, .f32⟩
  | 77 => ⟨S2x1024x2048, .f32⟩
  | 78 => ⟨S2x1024x2048, .f32⟩
  | 79 => ⟨S1x1024x2048, .f32⟩
  | 80 => ⟨S1024x2048, .f32⟩
  | 81 => ⟨S2x1024x1024, .f32⟩
  | 82 => ⟨S1x1024, .f32⟩
  | 83 => ⟨S1024, .f32⟩
  | 84 => ⟨S1x1x1024, .f32⟩
  | 85 => ⟨S2x1024x1024, .f32⟩
  | 86 => ⟨S2x1024x1024, .f32⟩
  | 87 => ⟨S_, .i32⟩
  | 88 => ⟨S2x1024, .i32⟩
  | 89 => ⟨S2x1024, .i1⟩
  | 90 => ⟨S2x1024x1, .i1⟩
  | 91 => ⟨S2x1024x1024, .i1⟩
  | 92 => ⟨S2x1024x1024, .f32⟩
  | 93 => ⟨S1x2048x1024, .f32⟩
  | 94 => ⟨S2048x1024, .f32⟩
  | 95 => ⟨S2x1024x2048, .f32⟩
  | 96 => ⟨S1x2048, .f32⟩
  | 97 => ⟨S2048, .f32⟩
  | 98 => ⟨S1x1x2048, .f32⟩
  | 99 => ⟨S2x1024x2048, .f32⟩
  | 100 => ⟨S2x1024x2048, .f32⟩
  | 101 => ⟨S_, .f32⟩
  | 102 => ⟨S2x1024x2048, .f32⟩
  | 103 => ⟨S2x1024x2048, .f32⟩
  | 104 => ⟨S1x1024x2048, .f32⟩
  | 105 => ⟨S1024x2048, .f32⟩
  | 106 => ⟨S2x1024x1024, .f32⟩
  | 107 => ⟨S1x1024, .f32⟩
  | 108 => ⟨S1024, .f32⟩
  | 109 => ⟨S1x1x1024, .f32⟩
  | 110 => ⟨S2x1024x1024, .f32⟩
  | 111 => ⟨S2x1024x1024, .f32⟩
  | 112 => ⟨S_, .i32⟩
  | 113 => ⟨S2x1024, .i32⟩
  | 114 => ⟨S2x1024, .i1⟩
  | 115 => ⟨S2x1024x1, .i1⟩
  | 116 => ⟨S2x1024x1024, .i1⟩
  | 117 => ⟨S2x1024x1024, .f32⟩
  | 118 => ⟨S1x2048x1024, .f32⟩
  | 119 => ⟨S2048x1024, .f32⟩
  | 120 => ⟨S2x1024x2048, .f32⟩
  | 121 => ⟨S1x2048, .f32⟩
  | 122 => ⟨S2048, .f32⟩
  | 123 => ⟨S1x1x2048, .f32⟩
  | 124 => ⟨S2x1024x2048, .f32⟩
  | 125 => ⟨S2x1024x2048, .f32⟩
  | 126 => ⟨S_, .f32⟩
  | 127 => ⟨S2x1024x2048, .f32⟩
  | _ => ⟨S2x1024x1024, .f32⟩

abbrev hbmTy0_1 (i : Nat) : BufTy := match i % 128 with
  | 0 => ⟨S2x1024x2048, .f32⟩
  | 1 => ⟨S1x1024x2048, .f32⟩
  | 2 => ⟨S1024x2048, .f32⟩
  | 3 => ⟨S2x1024x1024, .f32⟩
  | 4 => ⟨S1x1024, .f32⟩
  | 5 => ⟨S1024, .f32⟩
  | 6 => ⟨S1x1x1024, .f32⟩
  | 7 => ⟨S2x1024x1024, .f32⟩
  | 8 => ⟨S2x1024x1024, .f32⟩
  | 9 => ⟨S_, .i32⟩
  | 10 => ⟨S2x1024, .i32⟩
  | 11 => ⟨S2x1024, .i1⟩
  | 12 => ⟨S2x1024x1, .i1⟩
  | 13 => ⟨S2x1024x1024, .i1⟩
  | 14 => ⟨S2x1024x1024, .f32⟩
  | 15 => ⟨S1x2048x1024, .f32⟩
  | 16 => ⟨S2048x1024, .f32⟩
  | 17 => ⟨S2x1024x2048, .f32⟩
  | 18 => ⟨S1x2048, .f32⟩
  | 19 => ⟨S2048, .f32⟩
  | 20 => ⟨S1x1x2048, .f32⟩
  | 21 => ⟨S2x1024x2048, .f32⟩
  | 22 => ⟨S2x1024x2048, .f32⟩
  | 23 => ⟨S_, .f32⟩
  | 24 => ⟨S2x1024x2048, .f32⟩
  | 25 => ⟨S2x1024x2048, .f32⟩
  | 26 => ⟨S1x1024x2048, .f32⟩
  | 27 => ⟨S1024x2048, .f32⟩
  | 28 => ⟨S2x1024x1024, .f32⟩
  | 29 => ⟨S1x1024, .f32⟩
  | 30 => ⟨S1024, .f32⟩
  | 31 => ⟨S1x1x1024, .f32⟩
  | 32 => ⟨S2x1024x1024, .f32⟩
  | 33 => ⟨S2x1024x1024, .f32⟩
  | 34 => ⟨S_, .i32⟩
  | 35 => ⟨S2x1024, .i32⟩
  | 36 => ⟨S2x1024, .i1⟩
  | 37 => ⟨S2x1024x1, .i1⟩
  | 38 => ⟨S2x1024x1024, .i1⟩
  | 39 => ⟨S2x1024x1024, .f32⟩
  | 40 => ⟨S1x2048x1024, .f32⟩
  | 41 => ⟨S2048x1024, .f32⟩
  | 42 => ⟨S2x1024x2048, .f32⟩
  | 43 => ⟨S1x2048, .f32⟩
  | 44 => ⟨S2048, .f32⟩
  | 45 => ⟨S1x1x2048, .f32⟩
  | 46 => ⟨S2x1024x2048, .f32⟩
  | 47 => ⟨S2x1024x2048, .f32⟩
  | 48 => ⟨S_, .f32⟩
  | 49 => ⟨S2x1024x2048, .f32⟩
  | 50 => ⟨S2x1024x2048, .f32⟩
  | 51 => ⟨S1x1024x2048, .f32⟩
  | 52 => ⟨S1024x2048, .f32⟩
  | 53 => ⟨S2x1024x1024, .f32⟩
  | 54 => ⟨S1x1024, .f32⟩
  | 55 => ⟨S1024, .f32⟩
  | 56 => ⟨S1x1x1024, .f32⟩
  | 57 => ⟨S2x1024x1024, .f32⟩
  | 58 => ⟨S2x1024x1024, .f32⟩
  | 59 => ⟨S_, .i32⟩
  | 60 => ⟨S2x1024, .i32⟩
  | 61 => ⟨S2x1024, .i1⟩
  | 62 => ⟨S2x1024x1, .i1⟩
  | 63 => ⟨S2x1024x1024, .i1⟩
  | 64 => ⟨S2x1024x1024, .f32⟩
  | 65 => ⟨S1x2048x1024, .f32⟩
  | 66 => ⟨S2048x1024, .f32⟩
  | 67 => ⟨S2x1024x2048, .f32⟩
  | 68 => ⟨S1x2048, .f32⟩
  | 69 => ⟨S2048, .f32⟩
  | 70 => ⟨S1x1x2048, .f32⟩
  | 71 => ⟨S2x1024x2048, .f32⟩
  | 72 => ⟨S2x1024x2048, .f32⟩
  | 73 => ⟨S_, .f32⟩
  | 74 => ⟨S2x1024x2048, .f32⟩
  | 75 => ⟨S2x1024x2048, .f32⟩
  | 76 => ⟨S1x1024x2048, .f32⟩
  | 77 => ⟨S1024x2048, .f32⟩
  | 78 => ⟨S2x1024x1024, .f32⟩
  | 79 => ⟨S1x1024, .f32⟩
  | 80 => ⟨S1024, .f32⟩
  | 81 => ⟨S1x1x1024, .f32⟩
  | 82 => ⟨S2x1024x1024, .f32⟩
  | 83 => ⟨S2x1024x1024, .f32⟩
  | 84 => ⟨S_, .i32⟩
  | 85 => ⟨S2x1024, .i32⟩
  | 86 => ⟨S2x1024, .i1⟩
  | 87 => ⟨S2x1024x1, .i1⟩
  | 88 => ⟨S2x1024x1024, .i1⟩
  | 89 => ⟨S2x1024x1024, .f32⟩
  | _ => ⟨S2x1024x1024, .f32⟩

abbrev hbmTy (i : Nat) : BufTy := match i / 128 with
  | 0 => hbmTy0_0 i
  | 1 => hbmTy0_1 i
  | _ => ⟨S2x1024x1024, .f32⟩

abbrev bufTy : (tb : Table) → Fin (tcTables nBuf tb) → BufTy
  | .hbm, ⟨i, _⟩ => hbmTy i
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call1_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call2_cst : Ref sig .tc := ⟨.hbm, 51, rfl⟩
abbrev main_call2_v0 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_2 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call3_v0 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_call4_cst : Ref sig .tc := ⟨.hbm, 76, rfl⟩
abbrev main_call4_v0 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_c_3 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_call5_v0 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_call6_cst : Ref sig .tc := ⟨.hbm, 101, rfl⟩
abbrev main_call6_v0 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_c_4 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_call7_v0 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_call8_cst : Ref sig .tc := ⟨.hbm, 126, rfl⟩
abbrev main_call8_v0 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_c_5 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_call9_v0 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_call10_cst : Ref sig .tc := ⟨.hbm, 151, rfl⟩
abbrev main_call10_v0 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_c_6 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_call11_v0 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_call12_cst : Ref sig .tc := ⟨.hbm, 176, rfl⟩
abbrev main_call12_v0 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_c_7 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_call13_v0 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_call14_cst : Ref sig .tc := ⟨.hbm, 201, rfl⟩
abbrev main_call14_v0 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_c_8 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_call15_v0 : Ref sig .tc := ⟨.hbm, 216, rfl⟩
abbrev main_v175 : Ref sig .tc := ⟨.hbm, 217, rfl⟩

abbrev nD : Nat := 1
abbrev τ : Topo := Topo.v7x

variable {F : FTy → Type} [FloatOps F]

class Facts₀ : Prop where
  bcast_S_S2x1024 : S_.BroadcastsInDim S2x1024 (![] : Fin 0 → Fin S2x1024.rank)
  bcast_S2x1024_S2x1024x1_0_1 : S2x1024.BroadcastsInDim S2x1024x1 (![0, 1] : Fin 2 → Fin S2x1024x1.rank)
  bcast_S_S2x1024x1024 : S_.BroadcastsInDim S2x1024x1024 (![] : Fin 0 → Fin S2x1024x1024.rank)
  slices_S8x2048x1024_S1x2048x1024_0_0_0 : S8x2048x1024.Slices ![0, 0, 0] S1x2048x1024
  shapeCasts_S1x2048x1024_S2048x1024 : S1x2048x1024.ShapeCasts S2048x1024
  slices_S8x2048_S1x2048_0_0 : S8x2048.Slices ![0, 0] S1x2048
  shapeCasts_S1x2048_S2048 : S1x2048.ShapeCasts S2048
  bcast_S2048_S1x1x2048_2 : S2048.BroadcastsInDim S1x1x2048 (![2] : Fin 1 → Fin S1x1x2048.rank)
  bcast_S1x1x2048_S2x1024x2048_0_1_2 : S1x1x2048.BroadcastsInDim S2x1024x2048 (![0, 1, 2] : Fin 3 → Fin S2x1024x2048.rank)
  bcast_S_S2x1024x2048 : S_.BroadcastsInDim S2x1024x2048 (![] : Fin 0 → Fin S2x1024x2048.rank)
  slices_S8x1024x2048_S1x1024x2048_0_0_0 : S8x1024x2048.Slices ![0, 0, 0] S1x1024x2048
  shapeCasts_S1x1024x2048_S1024x2048 : S1x1024x2048.ShapeCasts S1024x2048
  slices_S8x1024_S1x1024_0_0 : S8x1024.Slices ![0, 0] S1x1024
  shapeCasts_S1x1024_S1024 : S1x1024.ShapeCasts S1024
  bcast_S1024_S1x1x1024_2 : S1024.BroadcastsInDim S1x1x1024 (![2] : Fin 1 → Fin S1x1x1024.rank)
  bcast_S1x1x1024_S2x1024x1024_0_1_2 : S1x1x1024.BroadcastsInDim S2x1024x1024 (![0, 1, 2] : Fin 3 → Fin S2x1024x1024.rank)
  bcast_S2x1024x1_S2x1024x1024_0_1_2 : S2x1024x1.BroadcastsInDim S2x1024x1024 (![0, 1, 2] : Fin 3 → Fin S2x1024x1024.rank)
  slices_S8x2048x1024_S1x2048x1024_1_0_0 : S8x2048x1024.Slices ![1, 0, 0] S1x2048x1024
  slices_S8x2048_S1x2048_1_0 : S8x2048.Slices ![1, 0] S1x2048
  slices_S8x1024x2048_S1x1024x2048_1_0_0 : S8x1024x2048.Slices ![1, 0, 0] S1x1024x2048
  slices_S8x1024_S1x1024_1_0 : S8x1024.Slices ![1, 0] S1x1024
  slices_S8x2048x1024_S1x2048x1024_2_0_0 : S8x2048x1024.Slices ![2, 0, 0] S1x2048x1024
  slices_S8x2048_S1x2048_2_0 : S8x2048.Slices ![2, 0] S1x2048
  slices_S8x1024x2048_S1x1024x2048_2_0_0 : S8x1024x2048.Slices ![2, 0, 0] S1x1024x2048
  slices_S8x1024_S1x1024_2_0 : S8x1024.Slices ![2, 0] S1x1024
  slices_S8x2048x1024_S1x2048x1024_3_0_0 : S8x2048x1024.Slices ![3, 0, 0] S1x2048x1024
  slices_S8x2048_S1x2048_3_0 : S8x2048.Slices ![3, 0] S1x2048
  slices_S8x1024x2048_S1x1024x2048_3_0_0 : S8x1024x2048.Slices ![3, 0, 0] S1x1024x2048
  slices_S8x1024_S1x1024_3_0 : S8x1024.Slices ![3, 0] S1x1024
  slices_S8x2048x1024_S1x2048x1024_4_0_0 : S8x2048x1024.Slices ![4, 0, 0] S1x2048x1024
  slices_S8x2048_S1x2048_4_0 : S8x2048.Slices ![4, 0] S1x2048
  slices_S8x1024x2048_S1x1024x2048_4_0_0 : S8x1024x2048.Slices ![4, 0, 0] S1x1024x2048
  slices_S8x1024_S1x1024_4_0 : S8x1024.Slices ![4, 0] S1x1024
  slices_S8x2048x1024_S1x2048x1024_5_0_0 : S8x2048x1024.Slices ![5, 0, 0] S1x2048x1024
  slices_S8x2048_S1x2048_5_0 : S8x2048.Slices ![5, 0] S1x2048
  slices_S8x1024x2048_S1x1024x2048_5_0_0 : S8x1024x2048.Slices ![5, 0, 0] S1x1024x2048
  slices_S8x1024_S1x1024_5_0 : S8x1024.Slices ![5, 0] S1x1024
  slices_S8x2048x1024_S1x2048x1024_6_0_0 : S8x2048x1024.Slices ![6, 0, 0] S1x2048x1024
  slices_S8x2048_S1x2048_6_0 : S8x2048.Slices ![6, 0] S1x2048
  slices_S8x1024x2048_S1x1024x2048_6_0_0 : S8x1024x2048.Slices ![6, 0, 0] S1x1024x2048
  slices_S8x1024_S1x1024_6_0 : S8x1024.Slices ![6, 0] S1x1024
  slices_S8x2048x1024_S1x2048x1024_7_0_0 : S8x2048x1024.Slices ![7, 0, 0] S1x2048x1024
  slices_S8x2048_S1x2048_7_0 : S8x2048.Slices ![7, 0] S1x2048
  slices_S8x1024x2048_S1x1024x2048_7_0_0 : S8x1024x2048.Slices ![7, 0, 0] S1x1024x2048
  slices_S8x1024_S1x1024_7_0 : S8x1024.Slices ![7, 0] S1x1024
  gather_S32000_S2x1024x1_S2x1024_n_0_n_n_0_2_1_wf : GatherDims.WF S32000 S2x1024x1 S2x1024 [] [0] [] [0] [] 2 ![1]
  dot_S2x1024x1024_S2048x1024_S2x1024x2048_2_1_01_0_n_n_wf : DotDims.WF S2x1024x1024 S2048x1024 S2x1024x2048 [2] [1] [0, 1] [0] [] []
  dot_S2x1024x2048_S1024x2048_S2x1024x1024_2_1_01_0_n_n_wf : DotDims.WF S2x1024x2048 S1024x2048 S2x1024x1024 [2] [1] [0, 1] [0] [] []

variable [Facts₀]

def gather_S32000_S2x1024x1_S2x1024_n_0_n_n_0_2_1 : GatherDims S32000 S2x1024x1 S2x1024 where
  offsetDims := []
  collapsedSliceDims := [0]
  operandBatchingDims := []
  startIndicesBatchingDims := []
  startIndexMap := [0]
  indexVectorDim := 2
  sliceSizes := ![1]
  wf := gather_S32000_S2x1024x1_S2x1024_n_0_n_n_0_2_1_wf
def dot_S2x1024x1024_S2048x1024_S2x1024x2048_2_1_01_0_n_n : DotDims S2x1024x1024 S2048x1024 S2x1024x2048 where
  lhsContracting := [2]
  rhsContracting := [1]
  lhsNonContracting := [0, 1]
  rhsNonContracting := [0]
  lhsBatch := []
  rhsBatch := []
  wf := dot_S2x1024x1024_S2048x1024_S2x1024x2048_2_1_01_0_n_n_wf
def dot_S2x1024x2048_S1024x2048_S2x1024x1024_2_1_01_0_n_n : DotDims S2x1024x2048 S1024x2048 S2x1024x1024 where
  lhsContracting := [2]
  rhsContracting := [1]
  lhsNonContracting := [0, 1]
  rhsNonContracting := [0]
  lhsBatch := []
  rhsBatch := []
  wf := dot_S2x1024x2048_S1024x2048_S2x1024x1024_2_1_01_0_n_n_wf

class Facts : Prop extends Facts₀ where

variable [Facts]
-- ==== Proof.FfnSpec.lean ====
/-
  The two-layer feed-forward network of one token under one expert, on the extended reals:
     ffn x W1 b1 W2 b2 d = (∑ h, max ((∑ k, x k * W1 h k) + b1 h) 0 * W2 d h) + b2 d ,
  with the rectifier's floor kept as the zero word read as an extended real.
-/
import Idealize.ShloMosaic.PureOps.Ideal

noncomputable section

namespace Cert.Ffn

open Idealize.ShloMosaic

/-- the rectifier's floor: the zero word as an extended real -/
def zero : EReal := Ideal.ofBits .f32 0x00000000#32

/-- hidden unit h of a token x under first-layer weights W1 and bias b1, after the rectifier -/
def hid {D H : ℕ} (x : Fin D → EReal) (W1 : Fin H → Fin D → EReal) (b1 : Fin H → EReal) (h : Fin H) : EReal :=
  max ((∑ k : Fin D, x k * W1 h k) + b1 h) zero

/-- output feature d of a token x under one expert's two layers -/
def ffn {D H : ℕ} (x : Fin D → EReal) (W1 : Fin H → Fin D → EReal) (b1 : Fin H → EReal) (W2 : Fin D → Fin H → EReal)
    (b2 : Fin D → EReal) (d : Fin D) : EReal :=
  (∑ h : Fin H, hid x W1 b1 h * W2 d h) + b2 d

end Cert.Ffn

end
-- ==== Proof.RefBranch.lean ====
/-
  One expert of the reference, index by index.  The reference computes, for every expert k, the dense two-layer network
  of ALL tokens: a contraction of the activations with the k-th slice of the first weights, the k-th bias row broadcast,
  the rectifier, a contraction with the k-th slice of the second weights, the second bias row.  At token (b, s) and
  feature d that is the feed-forward network of the token's row under expert k.
-/
import proofs.«426305_j78847009620271_3_alg».proof.ReferenceIdeal
import proofs.«426305_j78847009620271_3_alg».proof.Proof.Gen.ReferenceIdeal
import proofs.«426305_j78847009620271_3_alg».proof.Proof.FfnSpec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.ReferenceIdeal.RefValue

open Cert.ReferenceIdeal Cert.ReferenceIdeal.Gen
open Idealize.ShloMosaic Idealize.ShloMosaic.ValueIdx

/-- expert k's dense output over all tokens, in the program's spelling -/
def branch (x : FVec Ideal S2x1024x1024 .f32) (W1 : FVec Ideal S8x2048x1024 .f32) (B1 : FVec Ideal S8x2048 .f32)
    (W2 : FVec Ideal S8x1024x2048 .f32) (B2 : FVec Ideal S8x1024 .f32) (k : ℕ)
    (h1 : S8x2048x1024.Slices ![k, 0, 0] S1x2048x1024) (h2 : S8x2048.Slices ![k, 0] S1x2048)
    (h3 : S8x1024x2048.Slices ![k, 0, 0] S1x1024x2048) (h4 : S8x1024.Slices ![k, 0] S1x1024) :
    FVec Ideal S2x1024x1024 .f32 :=
  addf (Host.dotGeneral dot_S2x1024x2048_S1024x2048_S2x1024x1024_2_1_01_0_n_n none
      (maximumf (addf (Host.dotGeneral dot_S2x1024x1024_S2048x1024_S2x1024x2048_2_1_01_0_n_n none x
            (shapeCast S2048x1024 (extractStridedSlice S1x2048x1024 ![k, 0, 0] W1 h1) shapeCasts_S1x2048x1024_S2048x1024))
          (broadcastInDim S2x1024x2048 ![0, 1, 2] bcast_S1x1x2048_S2x1024x2048_0_1_2
            (broadcastInDim S1x1x2048 ![2] bcast_S2048_S1x1x2048_2
              (shapeCast S2048 (extractStridedSlice S1x2048 ![k, 0] B1 h2) shapeCasts_S1x2048_S2048))))
        (broadcastInDim S2x1024x2048 ![] bcast_S_S2x1024x2048 (constant S_ .f32 0x00000000#32)))
      (shapeCast S1024x2048 (extractStridedSlice S1x1024x2048 ![k, 0, 0] W2 h3) shapeCasts_S1x1024x2048_S1024x2048))
    (broadcastInDim S2x1024x1024 ![0, 1, 2] bcast_S1x1x1024_S2x1024x1024_0_1_2
      (broadcastInDim S1x1x1024 ![2] bcast_S1024_S1x1x1024_2
        (shapeCast S1024 (extractStridedSlice S1x1024 ![k, 0] B2 h4) shapeCasts_S1x1024_S1024)))

/-! ## Layout operations at an index, at any extents -/

section Layout
variable {α : Type}

/-- A rank-3 array cut along its leading axis from `o` reads, at (j, a, e), the source at (k, a, e) with k = o + j. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-- A vector laid along the LAST axis of an [n0, n1, n] block through a [1, 1, n] intermediate reads, at (b, s, q), the
    vector at q. -/
theorem bcast_last3 {n0 n1 n : ℕ} (h₁ : (⟨1, ![n]⟩ : Shape).BroadcastsInDim ⟨3, ![1, 1, n]⟩ ![2])
    (h₂ : (⟨3, ![1, 1, n]⟩ : Shape).BroadcastsInDim ⟨3, ![n0, n1, n]⟩ ![0, 1, 2]) (v : (⟨1, ![n]⟩ : Shape).Idx → α)
    (b : Fin n0) (s : Fin n1) (q : Fin n) :
    broadcastInDim ⟨3, ![n0, n1, n]⟩ ![0, 1, 2] h₂ (broadcastInDim ⟨3, ![1, 1, n]⟩ ![2] h₁ v) (ix3 b s q) = v (ix1 q) := by
  have hq := q.isLt
  refine (broadcastInDim_apply ![0, 1, 2] h₂ _ (ix3 b s q) (ix3 (0 : Fin 1) (0 : Fin 1) q) (fun ax => ?_)).trans
    (broadcastInDim_apply ![2] h₁ v (ix3 (0 : Fin 1) (0 : Fin 1) q) (ix1 q) (fun ax => ?_))
  · match ax with
    | ⟨0, _⟩ => exact (if_pos rfl).symm
    | ⟨1, _⟩ => exact (if_pos rfl).symm
    | ⟨2, _⟩ =>
      show q.val = if n = 1 then 0 else q.val
      split <;> omega
  · match ax with
    | ⟨0, _⟩ =>
      show q.val = if n = 1 then 0 else q.val
      split <;> omega

end Layout

/-! ## The first contraction: activations [2,1024,1024] against weights [2048,1024], the last axis of both -/

/-- the left operand's batch coordinate is the output's -/
theorem lhsA_0 (i : S2x1024x2048.Idx) (q : dot_S2x1024x1024_S2048x1024_S2x1024x2048_2_1_01_0_n_n.contr.Idx) :
    (dot_S2x1024x1024_S2048x1024_S2x1024x2048_2_1_01_0_n_n.lhsIdx i q 0).val = (i 0).val := by
  unfold DotDims.lhsIdx
  rw [dif_neg (show ¬(0 : Fin S2x1024x1024.rank) ∈ dot_S2x1024x1024_S2048x1024_S2x1024x2048_2_1_01_0_n_n.lhsBatch by decide), dif_pos (show (0 : Fin S2x1024x1024.rank) ∈ dot_S2x1024x1024_S2048x1024_S2x1024x2048_2_1_01_0_n_n.lhsNonContracting by decide)]
  rfl
/-- the left operand's token coordinate is the output's -/
theorem lhsA_1 (i : S2x1024x2048.Idx) (q : dot_S2x1024x1024_S2048x1024_S2x1024x2048_2_1_01_0_n_n.contr.Idx) :
    (dot_S2x1024x1024_S2048x1024_S2x1024x2048_2_1_01_0_n_n.lhsIdx i q 1).val = (i 1).val := by
  unfold DotDims.lhsIdx
  rw [dif_neg (show ¬(1 : Fin S2x1024x1024.rank) ∈ dot_S2x1024x1024_S2048x1024_S2x1024x2048_2_1_01_0_n_n.lhsBatch by decide), dif_pos (show (1 : Fin S2x1024x1024.rank) ∈ dot_S2x1024x1024_S2048x1024_S2x1024x2048_2_1_01_0_n_n.lhsNonContracting by decide)]
  rfl
/-- the left operand's last coordinate is the contraction position -/
theorem lhsA_2 (i : S2x1024x2048.Idx) (q : dot_S2x1024x1024_S2048x1024_S2x1024x2048_2_1_01_0_n_n.contr.Idx) :
    (dot_S2x1024x1024_S2048x1024_S2x1024x2048_2_1_01_0_n_n.lhsIdx i q 2).val = (q ⟨0, by decide⟩).val :=
  dot_S2x1024x1024_S2048x1024_S2x1024x2048_2_1_01_0_n_n.lhsIdx_val_of_single rfl i q
/-- the right operand's row coordinate is the output's last coordinate -/
theorem rhsA_0 (i : S2x1024x2048.Idx) (q : dot_S2x1024x1024_S2048x1024_S2x1024x2048_2_1_01_0_n_n.contr.Idx) :
    (dot_S2x1024x1024_S2048x1024_S2x1024x2048_2_1_01_0_n_n.rhsIdx i q 0).val = (i 2).val := by
  unfold DotDims.rhsIdx
  rw [dif_neg (show ¬(0 : Fin S2048x1024.rank) ∈ dot_S2x1024x1024_S2048x1024_S2x1024x2048_2_1_01_0_n_n.rhsBatch by decide), dif_pos (show (0 : Fin S2048x1024.rank) ∈ dot_S2x1024x1024_S2048x1024_S2x1024x2048_2_1_01_0_n_n.rhsNonContracting by decide)]
  rfl
/-- the right operand's column coordinate is the contraction position -/
theorem rhsA_1 (i : S2x1024x2048.Idx) (q : dot_S2x1024x1024_S2048x1024_S2x1024x2048_2_1_01_0_n_n.contr.Idx) :
    (dot_S2x1024x1024_S2048x1024_S2x1024x2048_2_1_01_0_n_n.rhsIdx i q 1).val = (q ⟨0, by decide⟩).val :=
  dot_S2x1024x1024_S2048x1024_S2x1024x2048_2_1_01_0_n_n.rhsIdx_val_of_single rfl i q

/-- the contraction at (b, s, c): the sum over the contracted axis of a (b, s, j) * w (c, j) -/
theorem dotA_apply (a : FVec Ideal S2x1024x1024 .f32) (w : FVec Ideal S2048x1024 .f32) (b : Fin 2) (s : Fin 1024) (c : Fin 2048) :
    Host.dotGeneral dot_S2x1024x1024_S2048x1024_S2x1024x2048_2_1_01_0_n_n none a w (ix3 b s c) = ∑ j : Fin 1024, a (ix3 b s j) * w (ix2 c j) := by
  refine (Ideal.dotGeneral_apply dot_S2x1024x1024_S2048x1024_S2x1024x2048_2_1_01_0_n_n none .single a w (ix3 b s c)).trans ?_
  rw [← Equiv.sum_comp (contrEquiv1 dot_S2x1024x1024_S2048x1024_S2x1024x2048_2_1_01_0_n_n 1024 rfl rfl).symm]
  refine Finset.sum_congr rfl fun j _ => ?_
  have hj := contrEquiv1_symm_val dot_S2x1024x1024_S2048x1024_S2x1024x2048_2_1_01_0_n_n 1024 rfl rfl j
  have el : dot_S2x1024x1024_S2048x1024_S2x1024x2048_2_1_01_0_n_n.lhsIdx (ix3 b s c) ((contrEquiv1 dot_S2x1024x1024_S2048x1024_S2x1024x2048_2_1_01_0_n_n 1024 rfl rfl).symm j) = ix3 b s j :=
    funext fun ax => Fin.ext (by
      match ax with
      | ⟨0, _⟩ => exact lhsA_0 _ _
      | ⟨1, _⟩ => exact lhsA_1 _ _
      | ⟨2, _⟩ => exact (lhsA_2 _ _).trans hj)
  have er : dot_S2x1024x1024_S2048x1024_S2x1024x2048_2_1_01_0_n_n.rhsIdx (ix3 b s c) ((contrEquiv1 dot_S2x1024x1024_S2048x1024_S2x1024x2048_2_1_01_0_n_n 1024 rfl rfl).symm j) = ix2 c j :=
    funext fun ax => Fin.ext (by
      match ax with
      | ⟨0, _⟩ => exact rhsA_0 _ _
      | ⟨1, _⟩ => exact (rhsA_1 _ _).trans hj)
  rw [el, er]

/-! ## The second contraction: hidden units [2,1024,2048] against weights [1024,2048], the last axis of both -/

/-- the left operand's batch coordinate is the output's -/
theorem lhsB_0 (i : S2x1024x1024.Idx) (q : dot_S2x1024x2048_S1024x2048_S2x1024x1024_2_1_01_0_n_n.contr.Idx) :
    (dot_S2x1024x2048_S1024x2048_S2x1024x1024_2_1_01_0_n_n.lhsIdx i q 0).val = (i 0).val := by
  unfold DotDims.lhsIdx
  rw [dif_neg (show ¬(0 : Fin S2x1024x2048.rank) ∈ dot_S2x1024x2048_S1024x2048_S2x1024x1024_2_1_01_0_n_n.lhsBatch by decide), dif_pos (show (0 : Fin S2x1024x2048.rank) ∈ dot_S2x1024x2048_S1024x2048_S2x1024x1024_2_1_01_0_n_n.lhsNonContracting by decide)]
  rfl
/-- the left operand's token coordinate is the output's -/
theorem lhsB_1 (i : S2x1024x1024.Idx) (q : dot_S2x1024x2048_S1024x2048_S2x1024x1024_2_1_01_0_n_n.contr.Idx) :
    (dot_S2x1024x2048_S1024x2048_S2x1024x1024_2_1_01_0_n_n.lhsIdx i q 1).val = (i 1).val := by
  unfold DotDims.lhsIdx
  rw [dif_neg (show ¬(1 : Fin S2x1024x2048.rank) ∈ dot_S2x1024x2048_S1024x2048_S2x1024x1024_2_1_01_0_n_n.lhsBatch by decide), dif_pos (show (1 : Fin S2x1024x2048.rank) ∈ dot_S2x1024x2048_S1024x2048_S2x1024x1024_2_1_01_0_n_n.lhsNonContracting by decide)]
  rfl
/-- the left operand's last coordinate is the contraction position -/
theorem lhsB_2 (i : S2x1024x1024.Idx) (q : dot_S2x1024x2048_S1024x2048_S2x1024x1024_2_1_01_0_n_n.contr.Idx) :
    (dot_S2x1024x2048_S1024x2048_S2x1024x1024_2_1_01_0_n_n.lhsIdx i q 2).val = (q ⟨0, by decide⟩).val :=
  dot_S2x1024x2048_S1024x2048_S2x1024x1024_2_1_01_0_n_n.lhsIdx_val_of_single rfl i q
/-- the right operand's row coordinate is the output's last coordinate -/
theorem rhsB_0 (i : S2x1024x1024.Idx) (q : dot_S2x1024x2048_S1024x2048_S2x1024x1024_2_1_01_0_n_n.contr.Idx) :
    (dot_S2x1024x2048_S1024x2048_S2x1024x1024_2_1_01_0_n_n.rhsIdx i q 0).val = (i 2).val := by
  unfold DotDims.rhsIdx
  rw [dif_neg (show ¬(0 : Fin S1024x2048.rank) ∈ dot_S2x1024x2048_S1024x2048_S2x1024x1024_2_1_01_0_n_n.rhsBatch by decide), dif_pos (show (0 : Fin S1024x2048.rank) ∈ dot_S2x1024x2048_S1024x2048_S2x1024x1024_2_1_01_0_n_n.rhsNonContracting by decide)]
  rfl
/-- the right operand's column coordinate is the contraction position -/
theorem rhsB_1 (i : S2x1024x1024.Idx) (q : dot_S2x1024x2048_S1024x2048_S2x1024x1024_2_1_01_0_n_n.contr.Idx) :
    (dot_S2x1024x2048_S1024x2048_S2x1024x1024_2_1_01_0_n_n.rhsIdx i q 1).val = (q ⟨0, by decide⟩).val :=
  dot_S2x1024x2048_S1024x2048_S2x1024x1024_2_1_01_0_n_n.rhsIdx_val_of_single rfl i q

/-- the contraction at (b, s, c): the sum over the contracted axis of a (b, s, j) * w (c, j) -/
theorem dotB_apply (a : FVec Ideal S2x1024x2048 .f32) (w : FVec Ideal S1024x2048 .f32) (b : Fin 2) (s : Fin 1024) (c : Fin 1024) :
    Host.dotGeneral dot_S2x1024x2048_S1024x2048_S2x1024x1024_2_1_01_0_n_n none a w (ix3 b s c) = ∑ j : Fin 2048, a (ix3 b s j) * w (ix2 c j) := by
  refine (Ideal.dotGeneral_apply dot_S2x1024x2048_S1024x2048_S2x1024x1024_2_1_01_0_n_n none .single a w (ix3 b s c)).trans ?_
  rw [← Equiv.sum_comp (contrEquiv1 dot_S2x1024x2048_S1024x2048_S2x1024x1024_2_1_01_0_n_n 2048 rfl rfl).symm]
  refine Finset.sum_congr rfl fun j _ => ?_
  have hj := contrEquiv1_symm_val dot_S2x1024x2048_S1024x2048_S2x1024x1024_2_1_01_0_n_n 2048 rfl rfl j
  have el : dot_S2x1024x2048_S1024x2048_S2x1024x1024_2_1_01_0_n_n.lhsIdx (ix3 b s c) ((contrEquiv1 dot_S2x1024x2048_S1024x2048_S2x1024x1024_2_1_01_0_n_n 2048 rfl rfl).symm j) = ix3 b s j :=
    funext fun ax => Fin.ext (by
      match ax with
      | ⟨0, _⟩ => exact lhsB_0 _ _
      | ⟨1, _⟩ => exact lhsB_1 _ _
      | ⟨2, _⟩ => exact (lhsB_2 _ _).trans hj)
  have er : dot_S2x1024x2048_S1024x2048_S2x1024x1024_2_1_01_0_n_n.rhsIdx (ix3 b s c) ((contrEquiv1 dot_S2x1024x2048_S1024x2048_S2x1024x1024_2_1_01_0_n_n 2048 rfl rfl).symm j) = ix2 c j :=
    funext fun ax => Fin.ext (by
      match ax with
      | ⟨0, _⟩ => exact rhsB_0 _ _
      | ⟨1, _⟩ => exact (rhsB_1 _ _).trans hj)
  rw [el, er]

/-! ## The k-th slices of the weights and the biases -/

/-- the k-th slice of the first weights as a matrix, at (h, j) -/
theorem w1_apply (W1 : FVec Ideal S8x2048x1024 .f32) (k : ℕ) (hk : k < 8)
    (h1 : S8x2048x1024.Slices ![k, 0, 0] S1x2048x1024) (h : Fin 2048) (j : Fin 1024) :
    shapeCast S2048x1024 (extractStridedSlice S1x2048x1024 ![k, 0, 0] W1 h1) shapeCasts_S1x2048x1024_S2048x1024 (ix2 h j)
      = W1 (ix3 (⟨k, hk⟩ : Fin 8) h j) :=
  (shapeCast_1ab_ab_apply _ _ h j).trans (slice3_axis0_apply k W1 h1 (0 : Fin 1) h j ⟨k, hk⟩ (Nat.add_zero k).symm)

/-- the k-th slice of the second weights as a matrix, at (d, h) -/
theorem w2_apply (W2 : FVec Ideal S8x1024x2048 .f32) (k : ℕ) (hk : k < 8)
    (h3 : S8x1024x2048.Slices ![k, 0, 0] S1x1024x2048) (d : Fin 1024) (h : Fin 2048) :
    shapeCast S1024x2048 (extractStridedSlice S1x1024x2048 ![k, 0, 0] W2 h3) shapeCasts_S1x1024x2048_S1024x2048 (ix2 d h)
      = W2 (ix3 (⟨k, hk⟩ : Fin 8) d h) :=
  (shapeCast_1ab_ab_apply _ _ d h).trans (slice3_axis0_apply k W2 h3 (0 : Fin 1) d h ⟨k, hk⟩ (Nat.add_zero k).symm)

/-- the k-th row of the first biases laid over all tokens, at (b, s, h) -/
theorem b1_apply (B1 : FVec Ideal S8x2048 .f32) (k : ℕ) (hk : k < 8) (h2 : S8x2048.Slices ![k, 0] S1x2048)
    (b : Fin 2) (s : Fin 1024) (h : Fin 2048) :
    broadcastInDim S2x1024x2048 ![0, 1, 2] bcast_S1x1x2048_S2x1024x2048_0_1_2
        (broadcastInDim S1x1x2048 ![2] bcast_S2048_S1x1x2048_2
          (shapeCast S2048 (extractStridedSlice S1x2048 ![k, 0] B1 h2) shapeCasts_S1x2048_S2048)) (ix3 b s h)
      = B1 (ix2 (⟨k, hk⟩ : Fin 8) h) :=
  (bcast_last3 _ _ _ b s h).trans ((shapeCast_1a_a_apply _ _ h).trans
    (slice2_axis0_apply k B1 h2 (0 : Fin 1) h ⟨k, hk⟩ (Nat.add_zero k).symm))

/-- the k-th row of the second biases laid over all tokens, at (b, s, d) -/
theorem b2_apply (B2 : FVec Ideal S8x1024 .f32) (k : ℕ) (hk : k < 8) (h4 : S8x1024.Slices ![k, 0] S1x1024)
    (b : Fin 2) (s : Fin 1024) (d : Fin 1024) :
    broadcastInDim S2x1024x1024 ![0, 1, 2] bcast_S1x1x1024_S2x1024x1024_0_1_2
        (broadcastInDim S1x1x1024 ![2] bcast_S1024_S1x1x1024_2
          (shapeCast S1024 (extractStridedSlice S1x1024 ![k, 0] B2 h4) shapeCasts_S1x1024_S1024)) (ix3 b s d)
      = B2 (ix2 (⟨k, hk⟩ : Fin 8) d) :=
  (bcast_last3 _ _ _ b s d).trans ((shapeCast_1a_a_apply _ _ d).trans
    (slice2_axis0_apply k B2 h4 (0 : Fin 1) d ⟨k, hk⟩ (Nat.add_zero k).symm))

/-- the rectifier's floor, broadcast: the zero word read as an extended real, everywhere -/
theorem zero_apply (i : S2x1024x2048.Idx) :
    broadcastInDim S2x1024x2048 ![] bcast_S_S2x1024x2048 (constant (F := Ideal) S_ .f32 0x00000000#32) i = Cert.Ffn.zero := rfl

/-! ## The branch -/

/-- at token (b, s), feature d: the feed-forward network of the token's row under expert k -/
theorem branch_apply (x : FVec Ideal S2x1024x1024 .f32) (W1 : FVec Ideal S8x2048x1024 .f32) (B1 : FVec Ideal S8x2048 .f32)
    (W2 : FVec Ideal S8x1024x2048 .f32) (B2 : FVec Ideal S8x1024 .f32) (k : ℕ) (hk : k < 8)
    (h1 : S8x2048x1024.Slices ![k, 0, 0] S1x2048x1024) (h2 : S8x2048.Slices ![k, 0] S1x2048)
    (h3 : S8x1024x2048.Slices ![k, 0, 0] S1x1024x2048) (h4 : S8x1024.Slices ![k, 0] S1x1024)
    (b : Fin 2) (s : Fin 1024) (d : Fin 1024) :
    branch x W1 B1 W2 B2 k h1 h2 h3 h4 (ix3 b s d)
      = Cert.Ffn.ffn (fun j : Fin 1024 => x (ix3 b s j)) (fun (h : Fin 2048) (j : Fin 1024) => W1 (ix3 (⟨k, hk⟩ : Fin 8) h j))
          (fun h : Fin 2048 => B1 (ix2 (⟨k, hk⟩ : Fin 8) h)) (fun (d' : Fin 1024) (h : Fin 2048) => W2 (ix3 (⟨k, hk⟩ : Fin 8) d' h))
          (fun d' : Fin 1024 => B2 (ix2 (⟨k, hk⟩ : Fin 8) d')) d := by
  unfold branch Cert.Ffn.ffn Cert.Ffn.hid
  rw [addf_apply, dotB_apply, b2_apply B2 k hk h4]
  congr 1
  refine Finset.sum_congr rfl fun h _ => ?_
  rw [maximumf_apply, addf_apply, dotA_apply, b1_apply B1 k hk h2, zero_apply, w2_apply W2 k hk h3]
  congr 3
  refine Finset.sum_congr rfl fun j _ => ?_
  rw [w1_apply W1 k hk h1]

end Cert.ReferenceIdeal.RefValue

end
-- ==== Proof.Spec.lean ====
/-
  What both programs compute.  Every token (b, s) carries an expert label L b s below 8; its output row is the two-layer
  feed-forward network of its input row under that expert's weights and biases.
-/
import proofs.«426305_j78847009620271_3_alg».proof.Proof.FfnSpec
import Idealize.ShloMosaic.Lib.ValueIdx

noncomputable section

namespace Cert.Spec

open Idealize.ShloMosaic Idealize.ShloMosaic.ValueIdx

/-- the expert of a label word: the word's value, capped at 7 -/
def expert (w : BitVec 32) : Fin 8 := ⟨min w.toNat 7, by omega⟩

/-- the routed feed-forward output, index by index -/
def out (x : (⟨3, ![2, 1024, 1024]⟩ : Shape).Idx → EReal) (W1 : (⟨3, ![8, 2048, 1024]⟩ : Shape).Idx → EReal)
    (B1 : (⟨2, ![8, 2048]⟩ : Shape).Idx → EReal) (W2 : (⟨3, ![8, 1024, 2048]⟩ : Shape).Idx → EReal)
    (B2 : (⟨2, ![8, 1024]⟩ : Shape).Idx → EReal) (lab : IVec ⟨2, ![2, 1024]⟩ 32) :
    (⟨3, ![2, 1024, 1024]⟩ : Shape).Idx → EReal := fun i =>
  Cert.Ffn.ffn (fun k : Fin 1024 => x (ix3 (i 0) (i 1) k))
    (fun (h : Fin 2048) (k : Fin 1024) => W1 (ix3 (expert (lab (ix2 (i 0) (i 1)))) h k))
    (fun h : Fin 2048 => B1 (ix2 (expert (lab (ix2 (i 0) (i 1)))) h))
    (fun (d : Fin 1024) (h : Fin 2048) => W2 (ix3 (expert (lab (ix2 (i 0) (i 1)))) d h))
    (fun d : Fin 1024 => B2 (ix2 (expert (lab (ix2 (i 0) (i 1)))) d)) (i 2)

end Cert.Spec

end
-- ==== Proof.RefValue.lean ====
/-
  The reference's result is the routed feed-forward output.  The reference overwrites a zero array eight times: pass k
  keeps, where the token's label equals k, expert k's dense output.  A label below 8 equals exactly one k, so token (b, s)
  ends with the output of its own expert: the specification's function of the arguments.
-/
import proofs.«426305_j78847009620271_3_alg».proof.Proof.RefRun
import proofs.«426305_j78847009620271_3_alg».proof.Proof.RefBranch
import proofs.«426305_j78847009620271_3_alg».proof.Proof.Spec
import Idealize.ShloMosaic.Lib.StableHlo.Predicate

set_option maxRecDepth 16384

noncomputable section

namespace Cert.ReferenceIdeal.RefValue

open Cert.ReferenceIdeal Cert.ReferenceIdeal.Gen
open Idealize.ShloMosaic Idealize.ShloMosaic.TcCoe Idealize.SL.Sem Idealize.ShloMosaic.ValueIdx

variable (m : (ℓ : Loc nD τ sig) → Buf (Elt Ideal) ℓ) (c : Dev nD)

/-- the arguments as launched -/
abbrev xs : FVec Ideal S2x1024x1024 .f32 := m ((c.tc : Thread nD τ).loc main_arg0)
abbrev tok : IVec S2x1024 32 := m ((c.tc : Thread nD τ).loc main_arg1)
abbrev tab : IVec S32000 32 := m ((c.tc : Thread nD τ).loc main_arg2)
abbrev w1a : FVec Ideal S8x2048x1024 .f32 := m ((c.tc : Thread nD τ).loc main_arg3)
abbrev b1a : FVec Ideal S8x2048 .f32 := m ((c.tc : Thread nD τ).loc main_arg4)
abbrev w2a : FVec Ideal S8x1024x2048 .f32 := m ((c.tc : Thread nD τ).loc main_arg5)
abbrev b2a : FVec Ideal S8x1024 .f32 := m ((c.tc : Thread nD τ).loc main_arg6)

/-- the expert label of every token: the hash table gathered at the token ids -/
def lab : IVec S2x1024 32 :=
  Host.gather gather_S32000_S2x1024x1_S2x1024_n_0_n_n_0_2_1 (tab m c)
    (broadcastInDim S2x1024x1 ![0, 1] bcast_S2x1024_S2x1024x1_0_1
      (select (cmpi .slt (tok m c) (broadcastInDim S2x1024 ![] bcast_S_S2x1024 (constantI S_ 32 0#32)))
        (addi (tok m c) (broadcastInDim S2x1024 ![] bcast_S_S2x1024 (constantI S_ 32 32000#32))) (tok m c)))

/-- pass k of the reference: keep expert k's output where the label is k -/
def pass (k : BitVec 32) (y prev : FVec Ideal S2x1024x1024 .f32) : FVec Ideal S2x1024x1024 .f32 :=
  select (broadcastInDim S2x1024x1024 ![0, 1, 2] bcast_S2x1024x1_S2x1024x1024_0_1_2
      (broadcastInDim S2x1024x1 ![0, 1] bcast_S2x1024_S2x1024x1_0_1
        (cmpi .eq (lab m c) (broadcastInDim S2x1024 ![] bcast_S_S2x1024 (constantI S_ 32 k))))) y prev

/-- the label mask laid over the feature axis, [2,1024] → [2,1024,1] → [2,1024,1024], read at (b, s, d) is the
    mask at (b, s) -/
theorem mask_apply {α : Type} (v : S2x1024.Idx → α) (b : Fin 2) (s : Fin 1024) (d : Fin 1024) :
    broadcastInDim S2x1024x1024 ![0, 1, 2] bcast_S2x1024x1_S2x1024x1024_0_1_2
      (broadcastInDim S2x1024x1 ![0, 1] bcast_S2x1024_S2x1024x1_0_1 v) (ix3 b s d) = v (ix2 b s) := by
  refine (broadcastInDim_apply ![0, 1, 2] bcast_S2x1024x1_S2x1024x1024_0_1_2 _ (ix3 b s d) (ix3 b s (0 : Fin 1))
    (fun ax => ?_)).trans
    (broadcastInDim_apply ![0, 1] bcast_S2x1024_S2x1024x1_0_1 v (ix3 b s (0 : Fin 1)) (ix2 b s) (fun ax => ?_))
  · match ax with
    | ⟨0, _⟩ =>
      show b.val = if (2 : ℕ) = 1 then 0 else b.val
      exact (if_neg (by decide)).symm
    | ⟨1, _⟩ =>
      show s.val = if (1024 : ℕ) = 1 then 0 else s.val
      exact (if_neg (by decide)).symm
    | ⟨2, _⟩ => exact (if_pos rfl).symm
  · match ax with
    | ⟨0, _⟩ =>
      show b.val = if (2 : ℕ) = 1 then 0 else b.val
      exact (if_neg (by decide)).symm
    | ⟨1, _⟩ =>
      show s.val = if (1024 : ℕ) = 1 then 0 else s.val
      exact (if_neg (by decide)).symm

/-- the comparison of a label array with a broadcast constant, at an index -/
theorem cmp_apply (L : IVec S2x1024 32) (k : BitVec 32) (i : S2x1024.Idx) :
    cmpi .eq L (broadcastInDim S2x1024 ![] bcast_S_S2x1024 (constantI S_ 32 k)) i = IntOp.cmpi .eq (L i) k := rfl

/-- one pass at an index: expert k's value where the label is k, the earlier value elsewhere -/
theorem pass_apply (k : BitVec 32) (y prev : FVec Ideal S2x1024x1024 .f32) (b : Fin 2) (s : Fin 1024) (d : Fin 1024) :
    pass m c k y prev (ix3 b s d) = if lab m c (ix2 b s) = k then y (ix3 b s d) else prev (ix3 b s d) := by
  unfold pass
  rw [select_apply, mask_apply, cmp_apply]
  by_cases h : lab m c (ix2 b s) = k
  · rw [if_pos h, StableHlo.Predicate.cmpi_eq_iff.2 h, select_one]
  · rw [if_neg h, eq_zero_of_ne_one (fun h1 => h (StableHlo.Predicate.cmpi_eq_iff.1 h1)), select_zero]

/-- the reference's result term, pass by pass: eight overwrites of the zero array -/
theorem res_chain : Cert.ReferenceIdeal.Value.res_main_v175 m c =
    (pass m c 7#32 (branch (xs m c) (w1a m c) (b1a m c) (w2a m c) (b2a m c) 7 slices_S8x2048x1024_S1x2048x1024_7_0_0 slices_S8x2048_S1x2048_7_0 slices_S8x1024x2048_S1x1024x2048_7_0_0 slices_S8x1024_S1x1024_7_0)
      (pass m c 6#32 (branch (xs m c) (w1a m c) (b1a m c) (w2a m c) (b2a m c) 6 slices_S8x2048x1024_S1x2048x1024_6_0_0 slices_S8x2048_S1x2048_6_0 slices_S8x1024x2048_S1x1024x2048_6_0_0 slices_S8x1024_S1x1024_6_0)
      (pass m c 5#32 (branch (xs m c) (w1a m c) (b1a m c) (w2a m c) (b2a m c) 5 slices_S8x2048x1024_S1x2048x1024_5_0_0 slices_S8x2048_S1x2048_5_0 slices_S8x1024x2048_S1x1024x2048_5_0_0 slices_S8x1024_S1x1024_5_0)
      (pass m c 4#32 (branch (xs m c) (w1a m c) (b1a m c) (w2a m c) (b2a m c) 4 slices_S8x2048x1024_S1x2048x1024_4_0_0 slices_S8x2048_S1x2048_4_0 slices_S8x1024x2048_S1x1024x2048_4_0_0 slices_S8x1024_S1x1024_4_0)
      (pass m c 3#32 (branch (xs m c) (w1a m c) (b1a m c) (w2a m c) (b2a m c) 3 slices_S8x2048x1024_S1x2048x1024_3_0_0 slices_S8x2048_S1x2048_3_0 slices_S8x1024x2048_S1x1024x2048_3_0_0 slices_S8x1024_S1x1024_3_0)
      (pass m c 2#32 (branch (xs m c) (w1a m c) (b1a m c) (w2a m c) (b2a m c) 2 slices_S8x2048x1024_S1x2048x1024_2_0_0 slices_S8x2048_S1x2048_2_0 slices_S8x1024x2048_S1x1024x2048_2_0_0 slices_S8x1024_S1x1024_2_0)
      (pass m c 1#32 (branch (xs m c) (w1a m c) (b1a m c) (w2a m c) (b2a m c) 1 slices_S8x2048x1024_S1x2048x1024_1_0_0 slices_S8x2048_S1x2048_1_0 slices_S8x1024x2048_S1x1024x2048_1_0_0 slices_S8x1024_S1x1024_1_0)
      (pass m c 0#32 (branch (xs m c) (w1a m c) (b1a m c) (w2a m c) (b2a m c) 0 slices_S8x2048x1024_S1x2048x1024_0_0_0 slices_S8x2048_S1x2048_0_0 slices_S8x1024x2048_S1x1024x2048_0_0_0 slices_S8x1024_S1x1024_0_0)
      (broadcastInDim S2x1024x1024 ![] bcast_S_S2x1024x1024 (constant S_ .f32 0x00000000#32)))))))))) := by
  unfold Cert.ReferenceIdeal.Value.res_main_v175
  rfl

/-- the specification at (b, s, d), spelled out -/
theorem out_apply (x : FVec Ideal S2x1024x1024 .f32) (W1 : FVec Ideal S8x2048x1024 .f32) (B1 : FVec Ideal S8x2048 .f32)
    (W2 : FVec Ideal S8x1024x2048 .f32) (B2 : FVec Ideal S8x1024 .f32) (L : IVec S2x1024 32)
    (b : Fin 2) (s : Fin 1024) (d : Fin 1024) :
    Cert.Spec.out x W1 B1 W2 B2 L (ix3 b s d)
      = Cert.Ffn.ffn (fun j : Fin 1024 => x (ix3 b s j))
          (fun (h : Fin 2048) (j : Fin 1024) => W1 (ix3 (Cert.Spec.expert (L (ix2 b s))) h j))
          (fun h : Fin 2048 => B1 (ix2 (Cert.Spec.expert (L (ix2 b s))) h))
          (fun (d' : Fin 1024) (h : Fin 2048) => W2 (ix3 (Cert.Spec.expert (L (ix2 b s))) d' h))
          (fun d' : Fin 1024 => B2 (ix2 (Cert.Spec.expert (L (ix2 b s))) d')) d := rfl

/-- the expert of the word k, for k below 8, is k -/
theorem expert_ofNat (k : ℕ) (hk : k < 8) : Cert.Spec.expert (BitVec.ofNat 32 k) = ⟨k, hk⟩ := by
  apply Fin.ext
  show min (BitVec.ofNat 32 k).toNat 7 = k
  rw [BitVec.toNat_ofNat, Nat.mod_eq_of_lt (by omega)]
  omega

/-- a word whose value is below 8 is one of the eight label words -/
theorem label_cases (L : BitVec 32) (h : L.toNat < 8) :
    L = 0#32 ∨ L = 1#32 ∨ L = 2#32 ∨ L = 3#32 ∨ L = 4#32 ∨ L = 5#32 ∨ L = 6#32 ∨ L = 7#32 := by
  have h' : L.toNat = 0 ∨ L.toNat = 1 ∨ L.toNat = 2 ∨ L.toNat = 3 ∨ L.toNat = 4 ∨ L.toNat = 5 ∨ L.toNat = 6
      ∨ L.toNat = 7 := by omega
  rcases h' with h' | h' | h' | h' | h' | h' | h' | h'
  · exact Or.inl (BitVec.eq_of_toNat_eq h')
  · exact Or.inr (Or.inl (BitVec.eq_of_toNat_eq h'))
  · exact Or.inr (Or.inr (Or.inl (BitVec.eq_of_toNat_eq h')))
  · exact Or.inr (Or.inr (Or.inr (Or.inl (BitVec.eq_of_toNat_eq h'))))
  · exact Or.inr (Or.inr (Or.inr (Or.inr (Or.inl (BitVec.eq_of_toNat_eq h')))))
  · exact Or.inr (Or.inr (Or.inr (Or.inr (Or.inr (Or.inl (BitVec.eq_of_toNat_eq h'))))))
  · exact Or.inr (Or.inr (Or.inr (Or.inr (Or.inr (Or.inr (Or.inl (BitVec.eq_of_toNat_eq h')))))))
  · exact Or.inr (Or.inr (Or.inr (Or.inr (Or.inr (Or.inr (Or.inr (BitVec.eq_of_toNat_eq h')))))))

/-- expert k's dense output at (b, s, d) is the specification's value for the label word k -/
theorem case_label (k : ℕ) (hk : k < 8)
    (h1 : S8x2048x1024.Slices ![k, 0, 0] S1x2048x1024) (h2 : S8x2048.Slices ![k, 0] S1x2048)
    (h3 : S8x1024x2048.Slices ![k, 0, 0] S1x1024x2048) (h4 : S8x1024.Slices ![k, 0] S1x1024)
    (b : Fin 2) (s : Fin 1024) (d : Fin 1024) :
    branch (xs m c) (w1a m c) (b1a m c) (w2a m c) (b2a m c) k h1 h2 h3 h4 (ix3 b s d)
      = Cert.Ffn.ffn (fun j : Fin 1024 => xs m c (ix3 b s j))
          (fun (h : Fin 2048) (j : Fin 1024) => w1a m c (ix3 (Cert.Spec.expert (BitVec.ofNat 32 k)) h j))
          (fun h : Fin 2048 => b1a m c (ix2 (Cert.Spec.expert (BitVec.ofNat 32 k)) h))
          (fun (d' : Fin 1024) (h : Fin 2048) => w2a m c (ix3 (Cert.Spec.expert (BitVec.ofNat 32 k)) d' h))
          (fun d' : Fin 1024 => b2a m c (ix2 (Cert.Spec.expert (BitVec.ofNat 32 k)) d')) d := by
  rw [branch_apply _ _ _ _ _ k hk, expert_ofNat k hk]

/-- the eight passes at (b, s, d): a label below 8 is exactly one k, the passes of the other labels keep the earlier
    value, and pass k writes expert k's output -/
theorem res_apply (hlab : ∀ i, (lab m c i).toNat < 8) (b : Fin 2) (s : Fin 1024) (d : Fin 1024) :
    (pass m c 7#32 (branch (xs m c) (w1a m c) (b1a m c) (w2a m c) (b2a m c) 7 slices_S8x2048x1024_S1x2048x1024_7_0_0 slices_S8x2048_S1x2048_7_0 slices_S8x1024x2048_S1x1024x2048_7_0_0 slices_S8x1024_S1x1024_7_0)
      (pass m c 6#32 (branch (xs m c) (w1a m c) (b1a m c) (w2a m c) (b2a m c) 6 slices_S8x2048x1024_S1x2048x1024_6_0_0 slices_S8x2048_S1x2048_6_0 slices_S8x1024x2048_S1x1024x2048_6_0_0 slices_S8x1024_S1x1024_6_0)
      (pass m c 5#32 (branch (xs m c) (w1a m c) (b1a m c) (w2a m c) (b2a m c) 5 slices_S8x2048x1024_S1x2048x1024_5_0_0 slices_S8x2048_S1x2048_5_0 slices_S8x1024x2048_S1x1024x2048_5_0_0 slices_S8x1024_S1x1024_5_0)
      (pass m c 4#32 (branch (xs m c) (w1a m c) (b1a m c) (w2a m c) (b2a m c) 4 slices_S8x2048x1024_S1x2048x1024_4_0_0 slices_S8x2048_S1x2048_4_0 slices_S8x1024x2048_S1x1024x2048_4_0_0 slices_S8x1024_S1x1024_4_0)
      (pass m c 3#32 (branch (xs m c) (w1a m c) (b1a m c) (w2a m c) (b2a m c) 3 slices_S8x2048x1024_S1x2048x1024_3_0_0 slices_S8x2048_S1x2048_3_0 slices_S8x1024x2048_S1x1024x2048_3_0_0 slices_S8x1024_S1x1024_3_0)
      (pass m c 2#32 (branch (xs m c) (w1a m c) (b1a m c) (w2a m c) (b2a m c) 2 slices_S8x2048x1024_S1x2048x1024_2_0_0 slices_S8x2048_S1x2048_2_0 slices_S8x1024x2048_S1x1024x2048_2_0_0 slices_S8x1024_S1x1024_2_0)
      (pass m c 1#32 (branch (xs m c) (w1a m c) (b1a m c) (w2a m c) (b2a m c) 1 slices_S8x2048x1024_S1x2048x1024_1_0_0 slices_S8x2048_S1x2048_1_0 slices_S8x1024x2048_S1x1024x2048_1_0_0 slices_S8x1024_S1x1024_1_0)
      (pass m c 0#32 (branch (xs m c) (w1a m c) (b1a m c) (w2a m c) (b2a m c) 0 slices_S8x2048x1024_S1x2048x1024_0_0_0 slices_S8x2048_S1x2048_0_0 slices_S8x1024x2048_S1x1024x2048_0_0_0 slices_S8x1024_S1x1024_0_0)
      (broadcastInDim S2x1024x1024 ![] bcast_S_S2x1024x1024 (constant S_ .f32 0x00000000#32)))))))))) (ix3 b s d)
      = Cert.Spec.out (xs m c) (w1a m c) (b1a m c) (w2a m c) (b2a m c) (lab m c) (ix3 b s d) := by
  rw [pass_apply, pass_apply, pass_apply, pass_apply, pass_apply, pass_apply, pass_apply, pass_apply, out_apply]
  have hL := hlab (ix2 b s)
  generalize lab m c (ix2 b s) = L at hL ⊢
  rcases label_cases L hL with rfl | rfl | rfl | rfl | rfl | rfl | rfl | rfl <;>
    simp only [BitVec.reduceEq, if_false, if_true]
  · exact case_label m c 0 (by norm_num) _ _ _ _ b s d
  · exact case_label m c 1 (by norm_num) _ _ _ _ b s d
  · exact case_label m c 2 (by norm_num) _ _ _ _ b s d
  · exact case_label m c 3 (by norm_num) _ _ _ _ b s d
  · exact case_label m c 4 (by norm_num) _ _ _ _ b s d
  · exact case_label m c 5 (by norm_num) _ _ _ _ b s d
  · exact case_label m c 6 (by norm_num) _ _ _ _ b s d
  · exact case_label m c 7 (by norm_num) _ _ _ _ b s d

/-- THE REFERENCE'S RESULT TERM is the routed feed-forward output, for labels below 8 -/
theorem res_eq (hlab : ∀ i, (lab m c i).toNat < 8) :
    Cert.ReferenceIdeal.Value.res_main_v175 m c
      = Cert.Spec.out (xs m c) (w1a m c) (b1a m c) (w2a m c) (b2a m c) (lab m c) := by
  rw [res_chain m c]
  funext i
  rw [eq_ix3 i]
  exact res_apply m c hlab (i 0) (i 1) (i 2)

end Cert.ReferenceIdeal.RefValue

end
-- ==== Proof.LibTRef.lean ====
/-
  Typed references of a module-local function: moving a value to the buffer's own type and back is the identity.

  An operation of an outlined function is stated over references that carry the type of the tensor they hold; its
  function is moved to the buffer's own contents type along the equation of the two types (`toBuf`) and each operand
  is moved back (`ofBuf`). Reading a line of such operations leaves a pair `ofBuf (toBuf v)` around every
  intermediate value; the pair is the identity, whatever the reference.
-/
import Idealize.ShloMosaic.Lib.StableHlo

namespace Idealize.ShloMosaic.StableHlo.TRef

variable {sig : RefSig} {Val : EltTy → Type} {T : BufTy}

/-- To the buffer's type and back. -/
theorem ofBuf_toBuf (x : TRef sig T) (v : T.Contents Val) : x.ofBuf (x.toBuf v) = v := by
  obtain ⟨r, rfl, h1, h2⟩ := x
  rfl

/-- Back and to the buffer's type. -/
theorem toBuf_ofBuf (x : TRef sig T) (v : x.ref.ty.Contents Val) : x.toBuf (x.ofBuf v) = v := by
  obtain ⟨r, rfl, h1, h2⟩ := x
  rfl

end Idealize.ShloMosaic.StableHlo.TRef
-- ==== Proof.LibHostInt.lean ====
/-
  Integer host arithmetic read at an index, on 32-bit words whose values stay small.

  * An inclusive running sum written as a sliding window of width 8 over a vector of 8 words padded with 7 zeros in
    front: entry k is the sum of entries 0..k (no wrap when the total stays below 2^31).
  * Floor division of a non-negative word by 256, written the way it is printed (truncating quotient, corrected by one
    when the signs differ and the remainder is not zero): for a non-negative dividend it is the quotient of the values.
  * A clamp to [0, hi] written  min hi (max 0 w)  leaves a word already in the range.
-/
import Idealize.ShloMosaic.PureOps
import Idealize.ShloMosaic.Lib.ReduceAll
import Idealize.ShloMosaic.Lib.StableHlo.Predicate

noncomputable section

namespace Cert.HostInt

open Idealize.ShloMosaic

/-- the vector read at a natural position: the entry below 8, the zero word from 8 on -/
def entry (x : IVec ⟨1, ![8]⟩ 32) (m : Nat) : BitVec 32 := if hm : m < 8 then x (Shape.Idx.ofFin ⟨m, hm⟩) else 0#32

theorem entry_val (x : IVec ⟨1, ![8]⟩ 32) (k : Fin 8) : x (Shape.Idx.ofFin k) = entry x k.val := by
  unfold entry; rw [dif_pos k.isLt]

/-- the window sum at entry k is the left fold, over the 8 window positions m, of the padded vector's word at k + m:
    the zero word on the 7 cells of padding and past the end, the vector's entry k + m - 7 between -/
theorem reduceWindow_fold (x : IVec ⟨1, ![8]⟩ 32) (init : (⟨0, ![]⟩ : Shape).Idx → BitVec 32)
    (h : (⟨1, ![8]⟩ : Shape).ReduceWindows ![8] ![1] ![7] ![0] ⟨1, ![8]⟩) (hu : 0 < (⟨0, ![]⟩ : Shape).numel)
    (hinit : ∀ i, init i = 0#32) (k : Fin 8) :
    Host.reduceWindow IntOp.addi ![8] ![1] ![7] ![0] x init h hu (Shape.Idx.ofFin k)
      = (List.range 8).foldl (fun r m => r + (if 7 ≤ k.val + m ∧ k.val + m - 7 < 8 then entry x (k.val + m - 7) else 0#32)) 0#32 := by
  have hN : (⟨1, ![8]⟩ : Shape).numel = 8 := by decide
  unfold Host.reduceWindow
  simp only []
  have hR : List.range 8 = List.range (⟨1, ![8]⟩ : Shape).numel := by rw [hN]
  rw [hinit, hR, ← List.map_coe_finRange_eq_range, List.foldl_map]
  congr 1
  funext r n
  -- the one coordinate of window position n is n itself
  have hn : ((⟨1, ![8]⟩ : Shape).rowMajor.symm n 0).val = n.val := by
    have := Shape.rowMajor_val_one ((⟨1, ![8]⟩ : Shape).rowMajor.symm n)
    rw [Equiv.apply_symm_apply] at this
    exact this.symm
  have hp : ∀ a : Fin 1, ((Shape.Idx.ofFin k : (⟨1, ![8]⟩ : Shape).Idx) (a.cast h.1.symm)).val * (![1] : Fin 1 → Nat) a
      + ((⟨1, ![8]⟩ : Shape).rowMajor.symm n a).val = k.val + n.val := by
    intro a
    have ha : a = 0 := Subsingleton.elim _ _
    subst ha
    rw [hn]
    show k.val * 1 + n.val = _
    omega
  show r + _ = _
  congr 1
  by_cases hc : 7 ≤ k.val + n.val ∧ k.val + n.val - 7 < 8
  · rw [if_pos hc, dif_pos (fun a => by
      have ha : a = 0 := Subsingleton.elim _ _
      subst ha
      rw [hp]; exact hc)]
    unfold entry
    rw [dif_pos hc.2]
    congr 1
    funext a
    have ha : a = 0 := Subsingleton.elim _ _
    subst ha
    apply Fin.ext
    show _ - 7 = k.val + n.val - 7
    rw [hp]
  · rw [if_neg hc, dif_neg (fun hin => hc (by have := hin 0; rw [hp] at this; exact this))]

/-- the running sum of 8 words: entry k of the width-8 window sum over the vector padded with 7 zeros in front -/
theorem cumsum8_toNat (x : IVec ⟨1, ![8]⟩ 32) (init : (⟨0, ![]⟩ : Shape).Idx → BitVec 32)
    (h : (⟨1, ![8]⟩ : Shape).ReduceWindows ![8] ![1] ![7] ![0] ⟨1, ![8]⟩) (hu : 0 < (⟨0, ![]⟩ : Shape).numel)
    (hinit : ∀ i, init i = 0#32)
    (hx : ∑ k : Fin 8, (x (Shape.Idx.ofFin k)).toNat < 2 ^ 31) (k : Fin 8) :
    (Host.reduceWindow IntOp.addi ![8] ![1] ![7] ![0] x init h hu (Shape.Idx.ofFin k)).toNat
      = ∑ k' ∈ Finset.range (k.val + 1), (if hk : k' < 8 then (x (Shape.Idx.ofFin ⟨k', hk⟩)).toNat else 0) := by
  rw [reduceWindow_fold x init h hu hinit k]
  -- everything in terms of the vector read at natural positions
  have hx' : ∑ m ∈ Finset.range 8, (entry x m).toNat < 2 ^ 31 := by
    rw [← Fin.sum_univ_eq_sum_range (fun m => (entry x m).toNat) 8]
    simpa only [entry_val] using hx
  have hR : ∀ k' : Nat, (if hk : k' < 8 then (x (Shape.Idx.ofFin ⟨k', hk⟩)).toNat else 0) = (entry x k').toNat := by
    intro k'; unfold entry; split <;> rfl
  simp only [hR]
  simp only [Finset.sum_range_succ, Finset.sum_range_zero, zero_add] at hx'
  generalize entry x = X at hx' ⊢
  have hL : List.range 8 = [0, 1, 2, 3, 4, 5, 6, 7] := by decide
  rw [hL]
  -- position by position: the window at k holds 7 - k zeros, then the entries 0..k; no partial sum wraps
  fin_cases k <;>
    simp [Finset.sum_range_succ, BitVec.toNat_add] <;> omega

/-- a non-negative word divided by 256 (signed, truncating): no corner is met, and the quotient is that of the values -/
theorem divsi_256 (u : ArithUnit) (w : BitVec 32) (hw : w.toNat < 2 ^ 31) :
    (IntOp.divsi u w 256#32).toNat = w.toNat / 256 := by
  have hcorner : ¬ IntOp.SDivCorner w 256#32 := by
    intro hc; rcases hc with hc | ⟨_, hc⟩ <;> exact absurd hc (by decide)
  have hm : w.msb = false := BitVec.msb_eq_false_iff_two_mul_lt.mpr (by omega)
  simp only [IntOp.divsi, if_neg hcorner, BitVec.sdiv_eq, hm, show (256#32 : BitVec 32).msb = false from by decide,
    BitVec.udiv_eq, BitVec.toNat_udiv, BitVec.toNat_ofNat]

/-- floor division by 256 as printed, at an index where the dividend is non-negative -/
theorem floor_divide_apply {s : Shape} (A D Dsign Z One : IVec s 32) (i : s.Idx)
    (hD : D i = 256#32) (hDs : Dsign i = 1#32) (hZ : Z i = 0#32) (hOne : One i = 1#32) (hA : (A i).toNat < 2 ^ 31) :
    (select (andi (cmpi .ne (signi A) Dsign) (cmpi .ne (Host.remsi A D) Z)) (subi (Host.divsi A D) One) (Host.divsi A D) i).toNat
      = (A i).toNat / 256 := by
  have hm : (A i).msb = false := BitVec.msb_eq_false_iff_two_mul_lt.mpr (by omega)
  -- the correction is never taken: a zero dividend has remainder zero, a positive one has the divisor's sign
  have hc : andi (cmpi .ne (signi A) Dsign) (cmpi .ne (Host.remsi A D) Z) i = 0#1 := by
    show IntOp.andi (IntOp.cmpi .ne (signi A i) (Dsign i)) (IntOp.cmpi .ne (IntOp.remsi .host (A i) (D i)) (Z i)) = 0#1
    rw [hD, hDs, hZ]
    by_cases h0 : A i = 0
    · have hr : IntOp.remsi .host (A i) 256#32 = 0#32 := by rw [h0]; decide
      rw [hr]
      have : IntOp.cmpi .ne (0#32) (0#32) = 0#1 := by decide
      rw [this]
      unfold IntOp.andi
      simp
    · have hs : signi A i = 1#32 := by
        show (if A i = 0 then (0 : BitVec 32) else if (A i).msb then -1 else 1) = 1#32
        rw [if_neg h0, hm]; rfl
      rw [hs]
      have : IntOp.cmpi .ne (1#32) (1#32) = 0#1 := by decide
      rw [this]
      unfold IntOp.andi
      simp
  show (Scalar.select (andi (cmpi .ne (signi A) Dsign) (cmpi .ne (Host.remsi A D) Z) i) (subi (Host.divsi A D) One i)
    (Host.divsi A D i)).toNat = _
  rw [hc]
  show (IntOp.divsi .host (A i) (D i)).toNat = _
  rw [hD]
  exact divsi_256 _ _ hA

/-- the sign of the word 256 is the word 1 -/
theorem signi_256 {s : Shape} (D : IVec s 32) (i : s.Idx) (hD : D i = 256#32) : signi D i = 1#32 := by
  show (if D i = 0 then (0 : BitVec 32) else if (D i).msb then -1 else 1) = 1#32
  rw [hD]; decide

/-- a clamp to [0, hi], written  min hi (max 0 w) , leaves a word with 0 ≤ w ≤ hi < 2^31 -/
theorem clip_apply {s : Shape} (W Z H : IVec s 32) (i : s.Idx) (hZ : Z i = 0#32) (hH : (H i).toNat < 2 ^ 31)
    (hW : (W i).toNat ≤ (H i).toNat) : minsi H (maxsi Z W) i = W i := by
  show IntOp.minsi (H i) (IntOp.maxsi (Z i) (W i)) = W i
  rw [hZ]
  have hti : (W i).toInt = (W i).toNat := StableHlo.Predicate.toInt_eq_toNat_of_lt (by omega)
  have hth : (H i).toInt = (H i).toNat := StableHlo.Predicate.toInt_eq_toNat_of_lt hH
  have h0 : (0#32 : BitVec 32).toInt = 0 := by decide
  -- the maximum with zero is the word itself: it is not negative
  have hmax : IntOp.maxsi 0#32 (W i) = W i := by
    unfold IntOp.maxsi
    split <;> rename_i hc <;> simp only [BitVec.slt, hti, h0, decide_eq_true_eq] at hc
    all_goals first | rfl | omega
  rw [hmax]
  -- the minimum with the bound is the word itself: it does not exceed the bound
  unfold IntOp.minsi
  split <;> rename_i hc <;> simp only [BitVec.slt, hti, hth, decide_eq_true_eq] at hc
  all_goals first | rfl | omega

/-- a clamp to [0, hi] always lands in [0, hi] -/
theorem clip_range {s : Shape} (W Z H : IVec s 32) (i : s.Idx) (hZ : Z i = 0#32) (hH : (H i).toNat < 2 ^ 31) :
    (minsi H (maxsi Z W) i).toNat ≤ (H i).toNat := by
  show (IntOp.minsi (H i) (IntOp.maxsi (Z i) (W i))).toNat ≤ (H i).toNat
  rw [hZ]
  have hth : (H i).toInt = (H i).toNat := StableHlo.Predicate.toInt_eq_toNat_of_lt hH
  have h0 : (0#32 : BitVec 32).toInt = 0 := by decide
  -- the maximum with zero is a word that is not negative
  have hM : 0 ≤ (IntOp.maxsi 0#32 (W i)).toInt := by
    unfold IntOp.maxsi
    split <;> rename_i hc <;> simp only [BitVec.slt, h0, decide_eq_true_eq] at hc
    · omega
    · omega
  generalize IntOp.maxsi 0#32 (W i) = M at hM
  unfold IntOp.minsi
  split <;> rename_i hc <;> simp only [BitVec.slt, hth, decide_eq_true_eq] at hc
  · exact le_refl _
  · have hMn : M.toInt = M.toNat := by
      rw [BitVec.toInt_eq_toNat_cond] at hM ⊢
      split <;> rename_i h2
      · rfl
      · rw [if_neg h2] at hM; have := M.isLt; omega
    omega

end Cert.HostInt

end
-- ==== Proof.KOk.lean ====
/-
  The pipeline's side condition on the prefetched per-tile expert table holds for EVERY launch memory: the table is
  the host's clamp  min 7 (max 0 ·)  of a count, so each of its sixteen words lies in 0 … 7, and the weight and bias
  windows, whose block index along the expert axis is that word, stay inside their arrays of eight experts; the bf16
  blocks take whole rows of words.
-/
import proofs.«426305_j78847009620271_3_alg».proof.Proof.Gen.KernelIdeal.Frame
import proofs.«426305_j78847009620271_3_alg».proof.Proof.LibTRef
import proofs.«426305_j78847009620271_3_alg».proof.Proof.LibHostInt
import Idealize.ShloMosaic.Lib.Affine
import Idealize.ShloMosaic.Lib.SortFacts

set_option maxRecDepth 16384

noncomputable section

namespace Cert.KernelIdeal.OkOf

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- the count the table is clamped from, and the table, on device 0 -/
abbrev cntT : IVec S16 32 := V m (0 : Dev nD) main_v76
abbrev tabT : IVec S16 32 := V m (0 : Dev nD) main_v79

set_option maxHeartbeats 1000000 in
/-- the table is the clamp to [0, 7] of the count less one -/
theorem tab_eq : tabT m = minsi (broadcastInDim S16 ![] bcast_S_S16 (constantI S_ 32 7#32))
    (maxsi (broadcastInDim S16 ![] bcast_S_S16 (constantI S_ 32 0#32))
      (subi (cntT m) (broadcastInDim S16 ![] bcast_S_S16 (constantI S_ 32 1#32)))) := by
  dsimp only [tabT, cntT, V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  try simp only [StableHlo.TRef.ofBuf_toBuf, StableHlo.TRef.toBuf_ofBuf]
  try simp only [StableHlo.TRef.ofBuf, StableHlo.TRef.toBuf, cast_eq]
  try rfl

/-- every word of the table is below 8 -/
theorem tab_lt (x : S16.Idx) : (tbl m 0 x).toNat < 8 := by
  show (tabT m x).toNat < 8
  rw [tab_eq]
  have h := Cert.HostInt.clip_range
    (subi (cntT m) (broadcastInDim S16 ![] bcast_S_S16 (constantI S_ 32 1#32)))
    (broadcastInDim S16 ![] bcast_S_S16 (constantI S_ 32 0#32))
    (broadcastInDim S16 ![] bcast_S_S16 (constantI S_ 32 7#32)) x rfl (show (7#32 : BitVec 32).toNat < 2 ^ 31 by decide)
  have h7 : (broadcastInDim S16 ![] bcast_S_S16 (constantI S_ 32 7#32) x : BitVec 32).toNat = 7 := rfl
  omega

/-- THE SIDE CONDITION, for every launch memory -/
theorem ok : Ok m := by
  refine ⟨fun i => ?_, fun i => ?_, fun i => ?_, fun i => ?_⟩
  · obtain ⟨w, hw, e⟩ : ∃ w : BitVec 32, w.toNat < 8 ∧ cc0_transform_1 k0_off1_inb numel1_S1 (tbl m) i = ![w.toNat, 0, 0] :=
      ⟨_, tab_lt m _, rfl⟩
    have hin : ∀ a, (cc0_transform_1 k0_off1_inb numel1_S1 (tbl m) i a + 1) * S1x2048x1024.size a ≤ S8x2048x1024.size a := by
      intro a; rw [e]; fin_cases a <;> simp [S1x2048x1024, S8x2048x1024] <;> omega
    exact ⟨hin, Or.inr (Affine.block_words_dvd (by decide) (by decide))⟩
  · obtain ⟨w, hw, e⟩ : ∃ w : BitVec 32, w.toNat < 8 ∧ cc0_transform_2 k0_off1_inb numel1_S1 (tbl m) i = ![w.toNat, 0, 0] :=
      ⟨_, tab_lt m _, rfl⟩
    have hin : ∀ a, (cc0_transform_2 k0_off1_inb numel1_S1 (tbl m) i a + 1) * S1x1x2048.size a ≤ S8x1x2048.size a := by
      intro a; rw [e]; fin_cases a <;> simp [S1x1x2048, S8x1x2048] <;> omega
    exact ⟨hin, Or.inl rfl⟩
  · obtain ⟨w, hw, e⟩ : ∃ w : BitVec 32, w.toNat < 8 ∧ cc0_transform_3 k0_off1_inb numel1_S1 (tbl m) i = ![w.toNat, 0, 0] :=
      ⟨_, tab_lt m _, rfl⟩
    have hin : ∀ a, (cc0_transform_3 k0_off1_inb numel1_S1 (tbl m) i a + 1) * S1x1024x2048.size a ≤ S8x1024x2048.size a := by
      intro a; rw [e]; fin_cases a <;> simp [S1x1024x2048, S8x1024x2048] <;> omega
    exact ⟨hin, Or.inr (Affine.block_words_dvd (by decide) (by decide))⟩
  · obtain ⟨w, hw, e⟩ : ∃ w : BitVec 32, w.toNat < 8 ∧ cc0_transform_4 k0_off1_inb numel1_S1 (tbl m) i = ![w.toNat, 0, 0] :=
      ⟨_, tab_lt m _, rfl⟩
    have hin : ∀ a, (cc0_transform_4 k0_off1_inb numel1_S1 (tbl m) i a + 1) * S1x1x1024.size a ≤ S8x1x1024.size a := by
      intro a; rw [e]; fin_cases a <;> simp [S1x1x1024, S8x1x1024] <;> omega
    exact ⟨hin, Or.inl rfl⟩

end Cert.KernelIdeal.OkOf

end
-- ==== Proof.KOkBits.lean ====
/-
  The pipeline's side condition on the prefetched per-tile expert table holds for EVERY launch memory: the table is
  the host's clamp  min 7 (max 0 ·)  of a count, so each of its sixteen words lies in 0 … 7, and the weight and bias
  windows, whose block index along the expert axis is that word, stay inside their arrays of eight experts; the bf16
  blocks take whole rows of words.
-/
import proofs.«426305_j78847009620271_3_alg».proof.Proof.Gen.Kernel.Frame
import proofs.«426305_j78847009620271_3_alg».proof.Proof.LibTRef
import proofs.«426305_j78847009620271_3_alg».proof.Proof.LibHostInt
import Idealize.ShloMosaic.Lib.Affine
import Idealize.ShloMosaic.Lib.SortFacts

set_option maxRecDepth 16384

noncomputable section

namespace Cert.Kernel.OkOf

open Cert.Kernel Cert.Kernel.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- the count the table is clamped from, and the table, on device 0 -/
abbrev cntT : IVec S16 32 := V m (0 : Dev nD) main_v76
abbrev tabT : IVec S16 32 := V m (0 : Dev nD) main_v79

set_option maxHeartbeats 1000000 in
/-- the table is the clamp to [0, 7] of the count less one -/
theorem tab_eq : tabT m = minsi (broadcastInDim S16 ![] bcast_S_S16 (constantI S_ 32 7#32))
    (maxsi (broadcastInDim S16 ![] bcast_S_S16 (constantI S_ 32 0#32))
      (subi (cntT m) (broadcastInDim S16 ![] bcast_S_S16 (constantI S_ 32 1#32)))) := by
  dsimp only [tabT, cntT, V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  try simp only [StableHlo.TRef.ofBuf_toBuf, StableHlo.TRef.toBuf_ofBuf]
  try simp only [StableHlo.TRef.ofBuf, StableHlo.TRef.toBuf, cast_eq]
  try rfl

/-- every word of the table is below 8 -/
theorem tab_lt (x : S16.Idx) : (tbl m 0 x).toNat < 8 := by
  show (tabT m x).toNat < 8
  rw [tab_eq]
  have h := Cert.HostInt.clip_range
    (subi (cntT m) (broadcastInDim S16 ![] bcast_S_S16 (constantI S_ 32 1#32)))
    (broadcastInDim S16 ![] bcast_S_S16 (constantI S_ 32 0#32))
    (broadcastInDim S16 ![] bcast_S_S16 (constantI S_ 32 7#32)) x rfl (show (7#32 : BitVec 32).toNat < 2 ^ 31 by decide)
  have h7 : (broadcastInDim S16 ![] bcast_S_S16 (constantI S_ 32 7#32) x : BitVec 32).toNat = 7 := rfl
  omega

/-- THE SIDE CONDITION, for every launch memory -/
theorem ok : Ok m := by
  refine ⟨fun i => ?_, fun i => ?_, fun i => ?_, fun i => ?_⟩
  · obtain ⟨w, hw, e⟩ : ∃ w : BitVec 32, w.toNat < 8 ∧ cc0_transform_1 k0_off1_inb numel1_S1 (tbl m) i = ![w.toNat, 0, 0] :=
      ⟨_, tab_lt m _, rfl⟩
    have hin : ∀ a, (cc0_transform_1 k0_off1_inb numel1_S1 (tbl m) i a + 1) * S1x2048x1024.size a ≤ S8x2048x1024.size a := by
      intro a; rw [e]; fin_cases a <;> simp [S1x2048x1024, S8x2048x1024] <;> omega
    exact ⟨hin, Or.inr (Affine.block_words_dvd (by decide) (by decide))⟩
  · obtain ⟨w, hw, e⟩ : ∃ w : BitVec 32, w.toNat < 8 ∧ cc0_transform_2 k0_off1_inb numel1_S1 (tbl m) i = ![w.toNat, 0, 0] :=
      ⟨_, tab_lt m _, rfl⟩
    have hin : ∀ a, (cc0_transform_2 k0_off1_inb numel1_S1 (tbl m) i a + 1) * S1x1x2048.size a ≤ S8x1x2048.size a := by
      intro a; rw [e]; fin_cases a <;> simp [S1x1x2048, S8x1x2048] <;> omega
    exact ⟨hin, Or.inl rfl⟩
  · obtain ⟨w, hw, e⟩ : ∃ w : BitVec 32, w.toNat < 8 ∧ cc0_transform_3 k0_off1_inb numel1_S1 (tbl m) i = ![w.toNat, 0, 0] :=
      ⟨_, tab_lt m _, rfl⟩
    have hin : ∀ a, (cc0_transform_3 k0_off1_inb numel1_S1 (tbl m) i a + 1) * S1x1024x2048.size a ≤ S8x1024x2048.size a := by
      intro a; rw [e]; fin_cases a <;> simp [S1x1024x2048, S8x1024x2048] <;> omega
    exact ⟨hin, Or.inr (Affine.block_words_dvd (by decide) (by decide))⟩
  · obtain ⟨w, hw, e⟩ : ∃ w : BitVec 32, w.toNat < 8 ∧ cc0_transform_4 k0_off1_inb numel1_S1 (tbl m) i = ![w.toNat, 0, 0] :=
      ⟨_, tab_lt m _, rfl⟩
    have hin : ∀ a, (cc0_transform_4 k0_off1_inb numel1_S1 (tbl m) i a + 1) * S1x1x1024.size a ≤ S8x1x1024.size a := by
      intro a; rw [e]; fin_cases a <;> simp [S1x1x1024, S8x1x1024] <;> omega
    exact ⟨hin, Or.inl rfl⟩

end Cert.Kernel.OkOf

end
-- ==== Proof.KStages.lean ====
/-
  The integer side of the routing, stage by stage.  Each equation says what one named buffer of the host program holds
  when the pallas_call is entered, as ONE operation group applied to the buffers computed before it: the expert label of
  every token (e), the stable argsort of the labels (sidx) and the labels in sorted order (es), the per-expert counts and
  their exclusive running sums (cnts, offs), the counts rounded up to whole tiles and their exclusive running sums
  (pcnt, poff), each sorted token's slot (ppos), the slot → token table (psi) and the token → slot table (otp), the
  per-tile expert table (eid), and the gathered activations (xp) with the re-typed weights.
-/
import proofs.«426305_j78847009620271_3_alg».proof.Proof.Gen.KernelIdeal.Frame
import proofs.«426305_j78847009620271_3_alg».proof.Proof.LibTRef

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

/-- the token ids, the hash table and the float arguments as launched -/
abbrev tok : IVec S2x1024 32 := m ((c : Thread nD τ).loc main_arg1)
abbrev tab : IVec S32000 32 := m ((c : Thread nD τ).loc main_arg2)
/-- the named buffers at region entry -/
abbrev e : IVec S2048 32 := V m c main_v7
abbrev sidx : IVec S2048 32 := V m c main_v8
abbrev es : IVec S2048 32 := V m c main_v15
abbrev cnts : IVec S8 32 := V m c main_v23
abbrev csum : IVec S8 32 := V m c main_v24
abbrev offs : IVec S8 32 := V m c main_v25
abbrev cpad : IVec S8 32 := V m c main_v29
abbrev ctile : IVec S8 32 := V m c main_v30
abbrev pcnt : IVec S8 32 := V m c main_v32
abbrev psum : IVec S8 32 := V m c main_v33
abbrev poff : IVec S8 32 := V m c main_v34
abbrev rnk : IVec S2048 32 := V m c main_v43
abbrev ppos : IVec S2048 32 := V m c main_v51
abbrev psi : IVec S4096 32 := V m c main_v59
abbrev otp : IVec S2048 32 := V m c main_v67
abbrev ptile : IVec S8 32 := V m c main_v68
abbrev tcnt : IVec S16 32 := V m c main_v76
abbrev eid : IVec S16 32 := V m c main_v79
/-- the float arguments as launched, and the kernel's float operands at region entry -/
abbrev xs : FVec F S2x1024x1024 .f32 := m ((c : Thread nD τ).loc main_arg0)
abbrev w1a : FVec F S8x2048x1024 .f32 := m ((c : Thread nD τ).loc main_arg3)
abbrev b1a : FVec F S8x2048 .f32 := m ((c : Thread nD τ).loc main_arg4)
abbrev w2a : FVec F S8x1024x2048 .f32 := m ((c : Thread nD τ).loc main_arg5)
abbrev b2a : FVec F S8x1024 .f32 := m ((c : Thread nD τ).loc main_arg6)
abbrev xp : FVec F S4096x1024 .bf16 := V m c main_v88
abbrev w1 : FVec F S8x2048x1024 .bf16 := V m c main_v89
abbrev w2 : FVec F S8x1024x2048 .bf16 := V m c main_v90
abbrev b1 : FVec F S8x1x2048 .f32 := V m c main_v91
abbrev b2 : FVec F S8x1x1024 .f32 := V m c main_v92

/-- a word vector with negative entries counted from the end of an axis of extent n (NumPy's rule) -/
abbrev wrapS2048 (n : BitVec 32) (x : IVec S2048 32) : IVec S2048 32 :=
  select (cmpi .slt x (broadcastInDim S2048 ![] bcast_S_S2048 (constantI S_ 32 0#32)))
    (addi x (broadcastInDim S2048 ![] bcast_S_S2048 (constantI S_ 32 n))) x

/-- floor division by 256 as the program spells it -/
abbrev fdiv256 (A : IVec S8 32) : IVec S8 32 :=
  select (andi (cmpi .ne (signi A) (broadcastInDim S8 ![] bcast_S_S8 (signi (constantI S_ 32 256#32))))
      (cmpi .ne (Host.remsi A (broadcastInDim S8 ![] bcast_S_S8 (constantI S_ 32 256#32))) (broadcastInDim S8 ![] bcast_S_S8 (constantI S_ 32 0#32))))
    (subi (Host.divsi A (broadcastInDim S8 ![] bcast_S_S8 (constantI S_ 32 256#32))) (broadcastInDim S8 ![] bcast_S_S8 (constantI S_ 32 1#32)))
    (Host.divsi A (broadcastInDim S8 ![] bcast_S_S8 (constantI S_ 32 256#32)))

set_option maxHeartbeats 1000000 in
theorem st_e : e m c = shapeCast S2048 (Host.gather gather_S32000_S2x1024x1_S2x1024_n_0_n_n_0_2_1 (tab m c)
    (broadcastInDim S2x1024x1 ![0, 1] bcast_S2x1024_S2x1024x1_0_1
      (select (cmpi .slt (tok m c) (broadcastInDim S2x1024 ![] bcast_S_S2x1024 (constantI S_ 32 0#32)))
        (addi (tok m c) (broadcastInDim S2x1024 ![] bcast_S_S2x1024 (constantI S_ 32 32000#32))) (tok m c))))
    shapeCasts_S2x1024_S2048 := by
  dsimp only [e, sidx, es, cnts, csum, offs, cpad, ctile, pcnt, psum, poff, rnk, ppos, psi, otp, ptile, tcnt, eid, tok, tab, xs, w1a, b1a, w2a, b2a, xp, w1, w2, b1, b2, wrapS2048, fdiv256, V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  try simp only [StableHlo.TRef.ofBuf_toBuf, StableHlo.TRef.toBuf_ofBuf]
  try simp only [StableHlo.TRef.ofBuf, StableHlo.TRef.toBuf, cast_eq]
  try rfl

set_option maxHeartbeats 1000000 in
theorem st_sidx : sidx m c = (Host.sort2 S2048 0 comparator_i32_i32_d0 (e m c) (iotaInDim S2048 32 0)).2 := by
  dsimp only [e, sidx, es, cnts, csum, offs, cpad, ctile, pcnt, psum, poff, rnk, ppos, psi, otp, ptile, tcnt, eid, tok, tab, xs, w1a, b1a, w2a, b2a, xp, w1, w2, b1, b2, wrapS2048, fdiv256, V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  try simp only [StableHlo.TRef.ofBuf_toBuf, StableHlo.TRef.toBuf_ofBuf]
  try simp only [StableHlo.TRef.ofBuf, StableHlo.TRef.toBuf, cast_eq]
  try rfl

set_option maxHeartbeats 1000000 in
theorem st_es : es m c = Host.gather gather_S2048_S2048x1_S2048_n_0_n_n_0_1_1 (e m c)
    (broadcastInDim S2048x1 ![0] bcast_S2048_S2048x1_0 (wrapS2048 2048#32 (sidx m c))) := by
  dsimp only [e, sidx, es, cnts, csum, offs, cpad, ctile, pcnt, psum, poff, rnk, ppos, psi, otp, ptile, tcnt, eid, tok, tab, xs, w1a, b1a, w2a, b2a, xp, w1, w2, b1, b2, wrapS2048, fdiv256, V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  try simp only [StableHlo.TRef.ofBuf_toBuf, StableHlo.TRef.toBuf_ofBuf]
  try simp only [StableHlo.TRef.ofBuf, StableHlo.TRef.toBuf, cast_eq]
  try rfl

set_option maxHeartbeats 1000000 in
theorem st_cnts : cnts m c = Host.reduce IntOp.addi
    (extui 32 (cmpi .eq (broadcastInDim S8x2048 ![0, 1] bcast_S1x2048_S8x2048_0_1 (broadcastInDim S1x2048 ![1] bcast_S2048_S1x2048_1 (e m c)))
      (broadcastInDim S8x2048 ![0, 1] bcast_S8x1_S8x2048_0_1 (broadcastInDim S8x1 ![0] bcast_S8_S8x1_0 (iotaInDim S8 32 0)))) natLt_1_32)
    (constantI S_ 32 0#32) reducesTo_S8x2048_S8_d1 h_S_ := by
  dsimp only [e, sidx, es, cnts, csum, offs, cpad, ctile, pcnt, psum, poff, rnk, ppos, psi, otp, ptile, tcnt, eid, tok, tab, xs, w1a, b1a, w2a, b2a, xp, w1, w2, b1, b2, wrapS2048, fdiv256, V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  try simp only [StableHlo.TRef.ofBuf_toBuf, StableHlo.TRef.toBuf_ofBuf]
  try simp only [StableHlo.TRef.ofBuf, StableHlo.TRef.toBuf, cast_eq]
  try rfl

set_option maxHeartbeats 1000000 in
theorem st_csum : csum m c = Host.reduceWindow IntOp.addi ![8] ![1] ![7] ![0] (cnts m c)
    (broadcastInDim S_ ![] bcast_S_S_ (constantI S_ 32 0#32)) reduceWindows_S8_S8_w8s1p7_0 h_S_ := by
  dsimp only [e, sidx, es, cnts, csum, offs, cpad, ctile, pcnt, psum, poff, rnk, ppos, psi, otp, ptile, tcnt, eid, tok, tab, xs, w1a, b1a, w2a, b2a, xp, w1, w2, b1, b2, wrapS2048, fdiv256, V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  try simp only [StableHlo.TRef.ofBuf_toBuf, StableHlo.TRef.toBuf_ofBuf]
  try simp only [StableHlo.TRef.ofBuf, StableHlo.TRef.toBuf, cast_eq]
  try rfl

set_option maxHeartbeats 1000000 in
theorem st_offs : offs m c = subi (csum m c) (cnts m c) := by
  dsimp only [e, sidx, es, cnts, csum, offs, cpad, ctile, pcnt, psum, poff, rnk, ppos, psi, otp, ptile, tcnt, eid, tok, tab, xs, w1a, b1a, w2a, b2a, xp, w1, w2, b1, b2, wrapS2048, fdiv256, V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  try simp only [StableHlo.TRef.ofBuf_toBuf, StableHlo.TRef.toBuf_ofBuf]
  try simp only [StableHlo.TRef.ofBuf, StableHlo.TRef.toBuf, cast_eq]
  try rfl

set_option maxHeartbeats 1000000 in
theorem st_cpad : cpad m c = subi (addi (cnts m c) (broadcastInDim S8 ![] bcast_S_S8 (constantI S_ 32 256#32)))
    (broadcastInDim S8 ![] bcast_S_S8 (constantI S_ 32 1#32)) := by
  dsimp only [e, sidx, es, cnts, csum, offs, cpad, ctile, pcnt, psum, poff, rnk, ppos, psi, otp, ptile, tcnt, eid, tok, tab, xs, w1a, b1a, w2a, b2a, xp, w1, w2, b1, b2, wrapS2048, fdiv256, V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  try simp only [StableHlo.TRef.ofBuf_toBuf, StableHlo.TRef.toBuf_ofBuf]
  try simp only [StableHlo.TRef.ofBuf, StableHlo.TRef.toBuf, cast_eq]
  try rfl

set_option maxHeartbeats 1000000 in
theorem st_ctile : ctile m c = fdiv256 (cpad m c) := by
  dsimp only [e, sidx, es, cnts, csum, offs, cpad, ctile, pcnt, psum, poff, rnk, ppos, psi, otp, ptile, tcnt, eid, tok, tab, xs, w1a, b1a, w2a, b2a, xp, w1, w2, b1, b2, wrapS2048, fdiv256, V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  try simp only [StableHlo.TRef.ofBuf_toBuf, StableHlo.TRef.toBuf_ofBuf]
  try simp only [StableHlo.TRef.ofBuf, StableHlo.TRef.toBuf, cast_eq]
  try rfl

set_option maxHeartbeats 1000000 in
theorem st_pcnt : pcnt m c = muli (ctile m c) (broadcastInDim S8 ![] bcast_S_S8 (constantI S_ 32 256#32)) := by
  dsimp only [e, sidx, es, cnts, csum, offs, cpad, ctile, pcnt, psum, poff, rnk, ppos, psi, otp, ptile, tcnt, eid, tok, tab, xs, w1a, b1a, w2a, b2a, xp, w1, w2, b1, b2, wrapS2048, fdiv256, V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  try simp only [StableHlo.TRef.ofBuf_toBuf, StableHlo.TRef.toBuf_ofBuf]
  try simp only [StableHlo.TRef.ofBuf, StableHlo.TRef.toBuf, cast_eq]
  try rfl

set_option maxHeartbeats 1000000 in
theorem st_psum : psum m c = Host.reduceWindow IntOp.addi ![8] ![1] ![7] ![0] (pcnt m c)
    (broadcastInDim S_ ![] bcast_S_S_ (constantI S_ 32 0#32)) reduceWindows_S8_S8_w8s1p7_0 h_S_ := by
  dsimp only [e, sidx, es, cnts, csum, offs, cpad, ctile, pcnt, psum, poff, rnk, ppos, psi, otp, ptile, tcnt, eid, tok, tab, xs, w1a, b1a, w2a, b2a, xp, w1, w2, b1, b2, wrapS2048, fdiv256, V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  try simp only [StableHlo.TRef.ofBuf_toBuf, StableHlo.TRef.toBuf_ofBuf]
  try simp only [StableHlo.TRef.ofBuf, StableHlo.TRef.toBuf, cast_eq]
  try rfl

set_option maxHeartbeats 1000000 in
theorem st_poff : poff m c = subi (psum m c) (pcnt m c) := by
  dsimp only [e, sidx, es, cnts, csum, offs, cpad, ctile, pcnt, psum, poff, rnk, ppos, psi, otp, ptile, tcnt, eid, tok, tab, xs, w1a, b1a, w2a, b2a, xp, w1, w2, b1, b2, wrapS2048, fdiv256, V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  try simp only [StableHlo.TRef.ofBuf_toBuf, StableHlo.TRef.toBuf_ofBuf]
  try simp only [StableHlo.TRef.ofBuf, StableHlo.TRef.toBuf, cast_eq]
  try rfl

set_option maxHeartbeats 1000000 in
theorem st_rnk : rnk m c = subi (iotaInDim S2048 32 0) (Host.gather gather_S8_S2048x1_S2048_n_0_n_n_0_1_1 (offs m c)
    (broadcastInDim S2048x1 ![0] bcast_S2048_S2048x1_0 (wrapS2048 8#32 (es m c)))) := by
  dsimp only [e, sidx, es, cnts, csum, offs, cpad, ctile, pcnt, psum, poff, rnk, ppos, psi, otp, ptile, tcnt, eid, tok, tab, xs, w1a, b1a, w2a, b2a, xp, w1, w2, b1, b2, wrapS2048, fdiv256, V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  try simp only [StableHlo.TRef.ofBuf_toBuf, StableHlo.TRef.toBuf_ofBuf]
  try simp only [StableHlo.TRef.ofBuf, StableHlo.TRef.toBuf, cast_eq]
  try rfl

set_option maxHeartbeats 1000000 in
theorem st_ppos : ppos m c = addi (Host.gather gather_S8_S2048x1_S2048_n_0_n_n_0_1_1 (poff m c)
    (broadcastInDim S2048x1 ![0] bcast_S2048_S2048x1_0 (wrapS2048 8#32 (es m c)))) (rnk m c) := by
  dsimp only [e, sidx, es, cnts, csum, offs, cpad, ctile, pcnt, psum, poff, rnk, ppos, psi, otp, ptile, tcnt, eid, tok, tab, xs, w1a, b1a, w2a, b2a, xp, w1, w2, b1, b2, wrapS2048, fdiv256, V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  try simp only [StableHlo.TRef.ofBuf_toBuf, StableHlo.TRef.toBuf_ofBuf]
  try simp only [StableHlo.TRef.ofBuf, StableHlo.TRef.toBuf, cast_eq]
  try rfl

set_option maxHeartbeats 1000000 in
theorem st_psi : psi m c = Host.scatter scatter_S4096_S2048x1_S2048_n_0_0_1 (fun _ b => b)
    (broadcastInDim S4096 ![] bcast_S_S4096 (constantI S_ 32 0#32))
    (broadcastInDim S2048x1 ![0] bcast_S2048_S2048x1_0 (wrapS2048 4096#32 (ppos m c))) (sidx m c) := by
  dsimp only [e, sidx, es, cnts, csum, offs, cpad, ctile, pcnt, psum, poff, rnk, ppos, psi, otp, ptile, tcnt, eid, tok, tab, xs, w1a, b1a, w2a, b2a, xp, w1, w2, b1, b2, wrapS2048, fdiv256, V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  try simp only [StableHlo.TRef.ofBuf_toBuf, StableHlo.TRef.toBuf_ofBuf]
  try simp only [StableHlo.TRef.ofBuf, StableHlo.TRef.toBuf, cast_eq]
  try rfl

set_option maxHeartbeats 1000000 in
theorem st_otp : otp m c = Host.scatter scatter_S2048_S2048x1_S2048_n_0_0_1 (fun _ b => b)
    (broadcastInDim S2048 ![] bcast_S_S2048 (constantI S_ 32 0#32))
    (broadcastInDim S2048x1 ![0] bcast_S2048_S2048x1_0 (wrapS2048 2048#32 (sidx m c))) (ppos m c) := by
  dsimp only [e, sidx, es, cnts, csum, offs, cpad, ctile, pcnt, psum, poff, rnk, ppos, psi, otp, ptile, tcnt, eid, tok, tab, xs, w1a, b1a, w2a, b2a, xp, w1, w2, b1, b2, wrapS2048, fdiv256, V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  try simp only [StableHlo.TRef.ofBuf_toBuf, StableHlo.TRef.toBuf_ofBuf]
  try simp only [StableHlo.TRef.ofBuf, StableHlo.TRef.toBuf, cast_eq]
  try rfl

set_option maxHeartbeats 1000000 in
theorem st_ptile : ptile m c = fdiv256 (poff m c) := by
  dsimp only [e, sidx, es, cnts, csum, offs, cpad, ctile, pcnt, psum, poff, rnk, ppos, psi, otp, ptile, tcnt, eid, tok, tab, xs, w1a, b1a, w2a, b2a, xp, w1, w2, b1, b2, wrapS2048, fdiv256, V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  try simp only [StableHlo.TRef.ofBuf_toBuf, StableHlo.TRef.toBuf_ofBuf]
  try simp only [StableHlo.TRef.ofBuf, StableHlo.TRef.toBuf, cast_eq]
  try rfl

set_option maxHeartbeats 1000000 in
theorem st_tcnt : tcnt m c = Host.reduce IntOp.addi
    (extui 32 (cmpi .sle (broadcastInDim S16x8 ![0, 1] bcast_S1x8_S16x8_0_1 (broadcastInDim S1x8 ![1] bcast_S8_S1x8_1 (ptile m c)))
      (broadcastInDim S16x8 ![0, 1] bcast_S16x1_S16x8_0_1 (broadcastInDim S16x1 ![0] bcast_S16_S16x1_0 (iotaInDim S16 32 0)))) natLt_1_32)
    (constantI S_ 32 0#32) reducesTo_S16x8_S16_d1 h_S_ := by
  dsimp only [e, sidx, es, cnts, csum, offs, cpad, ctile, pcnt, psum, poff, rnk, ppos, psi, otp, ptile, tcnt, eid, tok, tab, xs, w1a, b1a, w2a, b2a, xp, w1, w2, b1, b2, wrapS2048, fdiv256, V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  try simp only [StableHlo.TRef.ofBuf_toBuf, StableHlo.TRef.toBuf_ofBuf]
  try simp only [StableHlo.TRef.ofBuf, StableHlo.TRef.toBuf, cast_eq]
  try rfl

set_option maxHeartbeats 1000000 in
theorem st_eid : eid m c = minsi (broadcastInDim S16 ![] bcast_S_S16 (constantI S_ 32 7#32))
    (maxsi (broadcastInDim S16 ![] bcast_S_S16 (constantI S_ 32 0#32))
      (subi (tcnt m c) (broadcastInDim S16 ![] bcast_S_S16 (constantI S_ 32 1#32)))) := by
  dsimp only [e, sidx, es, cnts, csum, offs, cpad, ctile, pcnt, psum, poff, rnk, ppos, psi, otp, ptile, tcnt, eid, tok, tab, xs, w1a, b1a, w2a, b2a, xp, w1, w2, b1, b2, wrapS2048, fdiv256, V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  try simp only [StableHlo.TRef.ofBuf_toBuf, StableHlo.TRef.toBuf_ofBuf]
  try simp only [StableHlo.TRef.ofBuf, StableHlo.TRef.toBuf, cast_eq]
  try rfl

set_option maxHeartbeats 1000000 in
/-- the activations gathered into slot order, and the weights and biases as the kernel's windows see them -/
theorem st_xp : xp m c = Host.gather gather_S2048x1024_S4096x1_S4096x1024_1_0_n_n_0_1_11024
    (truncf .bf16 (shapeCast S2048x1024 (xs m c) shapeCasts_S2x1024x1024_S2048x1024) bitsLt_bf16_f32)
    (broadcastInDim S4096x1 ![0] bcast_S4096_S4096x1_0
      (select (cmpi .slt (psi m c) (broadcastInDim S4096 ![] bcast_S_S4096 (constantI S_ 32 0#32)))
        (addi (psi m c) (broadcastInDim S4096 ![] bcast_S_S4096 (constantI S_ 32 2048#32))) (psi m c))) := by
  dsimp only [e, sidx, es, cnts, csum, offs, cpad, ctile, pcnt, psum, poff, rnk, ppos, psi, otp, ptile, tcnt, eid, tok, tab, xs, w1a, b1a, w2a, b2a, xp, w1, w2, b1, b2, wrapS2048, fdiv256, V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  try simp only [StableHlo.TRef.ofBuf_toBuf, StableHlo.TRef.toBuf_ofBuf]
  try simp only [StableHlo.TRef.ofBuf, StableHlo.TRef.toBuf, cast_eq]
  try rfl

set_option maxHeartbeats 1000000 in
theorem st_w1 : w1 m c = truncf .bf16 (w1a m c) bitsLt_bf16_f32 := by
  dsimp only [e, sidx, es, cnts, csum, offs, cpad, ctile, pcnt, psum, poff, rnk, ppos, psi, otp, ptile, tcnt, eid, tok, tab, xs, w1a, b1a, w2a, b2a, xp, w1, w2, b1, b2, wrapS2048, fdiv256, V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  try simp only [StableHlo.TRef.ofBuf_toBuf, StableHlo.TRef.toBuf_ofBuf]
  try simp only [StableHlo.TRef.ofBuf, StableHlo.TRef.toBuf, cast_eq]
  try rfl
set_option maxHeartbeats 1000000 in
theorem st_w2 : w2 m c = truncf .bf16 (w2a m c) bitsLt_bf16_f32 := by
  dsimp only [e, sidx, es, cnts, csum, offs, cpad, ctile, pcnt, psum, poff, rnk, ppos, psi, otp, ptile, tcnt, eid, tok, tab, xs, w1a, b1a, w2a, b2a, xp, w1, w2, b1, b2, wrapS2048, fdiv256, V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  try simp only [StableHlo.TRef.ofBuf_toBuf, StableHlo.TRef.toBuf_ofBuf]
  try simp only [StableHlo.TRef.ofBuf, StableHlo.TRef.toBuf, cast_eq]
  try rfl
set_option maxHeartbeats 1000000 in
theorem st_b1 : b1 m c = shapeCast S8x1x2048 (b1a m c) shapeCasts_S8x2048_S8x1x2048 := by
  dsimp only [e, sidx, es, cnts, csum, offs, cpad, ctile, pcnt, psum, poff, rnk, ppos, psi, otp, ptile, tcnt, eid, tok, tab, xs, w1a, b1a, w2a, b2a, xp, w1, w2, b1, b2, wrapS2048, fdiv256, V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  try simp only [StableHlo.TRef.ofBuf_toBuf, StableHlo.TRef.toBuf_ofBuf]
  try simp only [StableHlo.TRef.ofBuf, StableHlo.TRef.toBuf, cast_eq]
  try rfl
set_option maxHeartbeats 1000000 in
theorem st_b2 : b2 m c = shapeCast S8x1x1024 (b2a m c) shapeCasts_S8x1024_S8x1x1024 := by
  dsimp only [e, sidx, es, cnts, csum, offs, cpad, ctile, pcnt, psum, poff, rnk, ppos, psi, otp, ptile, tcnt, eid, tok, tab, xs, w1a, b1a, w2a, b2a, xp, w1, w2, b1, b2, wrapS2048, fdiv256, V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  try simp only [StableHlo.TRef.ofBuf_toBuf, StableHlo.TRef.toBuf_ofBuf]
  try simp only [StableHlo.TRef.ofBuf, StableHlo.TRef.toBuf, cast_eq]
  try rfl

end Cert.KernelIdeal.Stages

end
-- ==== Proof.KPre.lean ====
/-
  What the precondition says of the hash table: every one of its 32000 entries is an expert label, 0 ≤ entry < 8 (the
  last conjunct of the precondition, an all-reduction of  entry ≥ 0 ∧ entry < 8 ).  A gather out of the table therefore
  reads a label below 8 whatever its indices are.
-/
import proofs.«426305_j78847009620271_3_alg».proof.Defs
import proofs.«426305_j78847009620271_3_alg».proof.Proof.KStages
import proofs.«426305_j78847009620271_3_alg».proof.Proof.Gen.Pre_finite_inputs
import Idealize.ShloMosaic.Lib.ReduceAll
import Idealize.ShloMosaic.Lib.StableHlo.Predicate

set_option maxRecDepth 16384

noncomputable section

namespace Cert.KernelIdeal.PreOf

open Cert.KernelIdeal Cert.KernelIdeal.Gen Cert.KernelIdeal.Stages
open Idealize.ShloMosaic Idealize.ShloMosaic.TcCoe Idealize.SL.Sem

variable [hP : Cert.Pre_finite_inputs.Facts]
variable (m : (ℓ : Loc nD τ sig) → Buf (Elt Ideal) ℓ)

/-- a rank-0 shape has one index -/
instance : Subsingleton Cert.Pre_finite_inputs.S_.Idx := ⟨fun a b => funext fun d => d.elim0⟩

/-- the precondition's function is a conjunction whose last conjunct is the all-reduction, over the table's entries, of
    entry ≥ 0 ∧ entry < 8 : where the function is 1, that conjunct is 1 -/
theorem fn_last {F : FTy → Type} [FloatOps F] (a0 : FVec F Cert.Pre_finite_inputs.S2x1024x1024 .f32)
    (a1 : IVec Cert.Pre_finite_inputs.S2x1024 32) (a2 : IVec Cert.Pre_finite_inputs.S32000 32)
    (a3 : FVec F Cert.Pre_finite_inputs.S8x2048x1024 .f32) (a4 : FVec F Cert.Pre_finite_inputs.S8x2048 .f32)
    (a5 : FVec F Cert.Pre_finite_inputs.S8x1024x2048 .f32) (a6 : FVec F Cert.Pre_finite_inputs.S8x1024 .f32)
    (i : Cert.Pre_finite_inputs.S_.Idx) (e : Cert.Pre_finite_inputs.fn a0 a1 a2 a3 a4 a5 a6 i = 1#1) :
    Host.reduce IntOp.andi
      (andi (cmpi .sge a2 (broadcastInDim Cert.Pre_finite_inputs.S32000 ![] hP.bcast_S_S32000 (constantI Cert.Pre_finite_inputs.S_ 32 0#32)))
        (cmpi .slt a2 (broadcastInDim Cert.Pre_finite_inputs.S32000 ![] hP.bcast_S_S32000 (constantI Cert.Pre_finite_inputs.S_ 32 8#32))))
      (constantI Cert.Pre_finite_inputs.S_ 1 1#1) hP.reducesTo_S32000_S_d0 hP.h_S_ i = 1#1 := by
  unfold Cert.Pre_finite_inputs.fn Cert.Pre_finite_inputs.fn_part1 at e
  exact (IntOp.andi_eq_one.1 e).2

/-- a word whose signed value lies in [0, 8) has a value below 8 -/
theorem toNat_lt_of_toInt (w : BitVec 32) (h0 : 0 ≤ w.toInt) (h8 : w.toInt < 8) : w.toNat < 8 := by
  rw [BitVec.toInt_eq_toNat_cond] at h0 h8
  have := w.isLt
  split at h0 <;> omega

/-- under the precondition every entry of the hash table is below 8 -/
theorem tab_lt (h : Cert.Pre_KernelIdeal m) (c : Dev nD) (x : S32000.Idx) : (tab m c x).toNat < 8 := by
  have e := congrFun (h c) (fun a => a.elim0)
  have e29 := fn_last _ _ _ _ _ _ _ _ e
  -- the all-reduction is 1, so the conjunction is 1 at every entry
  have hx := Host.reduce_andi_all _ _ _ _ _ e29 x
  obtain ⟨h1, h2⟩ := IntOp.andi_eq_one.1 hx
  have h1' := IntOp.cmpi_sge.1 h1
  have h2' := IntOp.cmpi_slt.1 h2
  exact toNat_lt_of_toInt _ h1' h2'

/-- so every gather out of the table reads a word below 8 -/
theorem gather_lt (h : Cert.Pre_KernelIdeal m) (c : Dev nD) (idx : IVec S2x1024x1 32) (i : S2x1024.Idx) :
    (Host.gather gather_S32000_S2x1024x1_S2x1024_n_0_n_n_0_2_1 (tab m c) idx i).toNat < 8 := by
  unfold Host.gather
  exact tab_lt m h c _

end Cert.KernelIdeal.PreOf

end
-- ==== Proof.LibSortPerm.lean ====
/-
  A stable sort of a vector of signed 32-bit keys that carries a second vector along (an argsort), read as a
  permutation.  For a vector  x  of n keys and a companion  y , the sort by the comparator  l.1 < r.1  (signed)
  puts at position k the entry that stood at position  perm x y k ; the map  perm x y  is a bijection of the n
  positions, and the keys read along it never decrease.
-/
import Idealize.ShloMosaic.PureOps
import Idealize.ShloMosaic.Lib.SortFacts
import Idealize.ShloMosaic.Lib.StableHlo.Predicate
import Idealize.ShloMosaic.Lib.Affine

noncomputable section

namespace Cert.SortPerm

open Idealize.ShloMosaic

variable {n : ℕ} {β : Type}

/-- the position whose entry the stable sort by signed keys puts at position k -/
def perm (cmp : BitVec 32 × β → BitVec 32 × β → BitVec 1) (x : IVec ⟨1, ![n]⟩ 32) (y : (⟨1, ![n]⟩ : Shape).Idx → β) :
    Fin n → Fin n :=
  sortedFrom (fun k k' => cmp (x (Shape.Idx.ofFin k), y (Shape.Idx.ofFin k)) (x (Shape.Idx.ofFin k'), y (Shape.Idx.ofFin k')) == 1#1)

variable (cmp : BitVec 32 × β → BitVec 32 × β → BitVec 1) (x : IVec ⟨1, ![n]⟩ 32) (y : (⟨1, ![n]⟩ : Shape).Idx → β)

theorem perm_bijective : Function.Bijective (perm cmp x y) :=
  ⟨sortedFrom_injective _, sortedFrom_surjective _⟩

/-- the sorted keys are the keys read along the permutation -/
theorem sort2_fst (k : Fin n) :
    (Host.sort2 (⟨1, ![n]⟩ : Shape) 0 cmp x y).1 (Shape.Idx.ofFin k) = x (Shape.Idx.ofFin (perm cmp x y k)) := by
  unfold Host.sort2 perm
  simp

/-- the companion is carried along the same permutation -/
theorem sort2_snd (k : Fin n) :
    (Host.sort2 (⟨1, ![n]⟩ : Shape) 0 cmp x y).2 (Shape.Idx.ofFin k) = y (Shape.Idx.ofFin (perm cmp x y k)) := by
  unfold Host.sort2 perm
  simp

/-- under the comparator "first key signed-less than second key" the keys along the permutation never decrease -/
theorem perm_mono (hcmp : ∀ l r, cmp l r = IntOp.cmpi .slt l.1 r.1) (i j : Fin n) (hij : i ≤ j) :
    (x (Shape.Idx.ofFin (perm cmp x y i))).toInt ≤ (x (Shape.Idx.ofFin (perm cmp x y j))).toInt := by
  rcases lt_or_eq_of_le hij with hlt | rfl
  · -- "before" is signed less-than on the keys: asymmetric, and its negation is transitive
    have key : ∀ a b : Fin n,
        (cmp (x (Shape.Idx.ofFin a), y (Shape.Idx.ofFin a)) (x (Shape.Idx.ofFin b), y (Shape.Idx.ofFin b)) == 1#1) = true
          ↔ (x (Shape.Idx.ofFin a)).toInt < (x (Shape.Idx.ofFin b)).toInt := by
      intro a b
      rw [beq_iff_eq, hcmp, IntOp.cmpi_slt]
    have keyF : ∀ a b : Fin n,
        (cmp (x (Shape.Idx.ofFin a), y (Shape.Idx.ofFin a)) (x (Shape.Idx.ofFin b), y (Shape.Idx.ofFin b)) == 1#1) = false
          ↔ (x (Shape.Idx.ofFin b)).toInt ≤ (x (Shape.Idx.ofFin a)).toInt := by
      intro a b
      rw [← Bool.not_eq_true, key, not_lt]
    have h := sortedFrom_noInversion
      (fun k k' => cmp (x (Shape.Idx.ofFin k), y (Shape.Idx.ofFin k)) (x (Shape.Idx.ofFin k'), y (Shape.Idx.ofFin k')) == 1#1)
      (fun k k' => cmp (x (Shape.Idx.ofFin k), y (Shape.Idx.ofFin k)) (x (Shape.Idx.ofFin k'), y (Shape.Idx.ofFin k')) == 1#1)
      (fun a b hab => by
        have h1 := (key a b).mp hab
        exact (keyF b a).mpr (le_of_lt h1))
      (fun _ _ hab => hab)
      (fun a b c hab hbc => by
        have h1 := (keyF a b).mp hab
        have h2 := (keyF b c).mp hbc
        exact (keyF a c).mpr (le_trans h2 h1))
      i j hlt
    exact (keyF _ _).mp h
  · exact le_refl _

end Cert.SortPerm

end
-- ==== Proof.LibRowGather.lean ====
/-
  Rows of a table taken at a column of start indices (jnp's  table[idx]  on a matrix): the result's row p is the
  table's row at  idx[p, 0] , read as a signed integer and clamped into the table; and NumPy's treatment of a
  negative index (add the extent) followed by that clamp does nothing to an index already in range.
-/
import Idealize.ShloMosaic.PureOps
import Idealize.ShloMosaic.Lib.ValueIdx
import Idealize.ShloMosaic.Lib.StableHlo.Predicate

noncomputable section

open Idealize.ShloMosaic Idealize.ShloMosaic.ValueIdx

namespace Cert.RowGather

variable {α : Type}

/-- The dimension numbers of  table[idx]  for a [T, C] table and an [N, 1] column of start indices: axis 0 collapsed
    and indexed, axis 1 an offset axis taken whole. -/
abbrev rowsDims (T C N : ℕ)
    (wf : GatherDims.WF ⟨2, ![T, C]⟩ ⟨2, ![N, 1]⟩ ⟨2, ![N, C]⟩ [1] [0] [] [0] [] 1 ![1, C]) :
    GatherDims ⟨2, ![T, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (p, k): the table at row  idx[p, 0]  (signed, clamped into [0, T − 1]) and column k. -/
theorem gather_rows_apply {T C N w : ℕ} (hT : 0 < T)
    (wf : GatherDims.WF ⟨2, ![T, C]⟩ ⟨2, ![N, 1]⟩ ⟨2, ![N, C]⟩ [1] [0] [] [0] [] 1 ![1, C])
    (x : (⟨2, ![T, C]⟩ : Shape).Idx → α) (idx : IVec ⟨2, ![N, 1]⟩ w) (p : Fin N) (k : Fin C) :
    Host.gather (rowsDims T C N wf) x idx (ix2 p k)
      = x (ix2 ⟨min (idx (ix2 p 0)).toInt.toNat (T - 1), by omega⟩ k) := by
  unfold Host.gather
  congr 1
  funext a
  refine Fin.ext ?_
  match a with
  | ⟨0, _⟩ =>
    show (rowsDims T C N wf).start (ix2 p k) idx 0 + (rowsDims T C N wf).batchCoord (ix2 p k) 0
      + (rowsDims T C N wf).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims T C N wf).startIndexMap from List.mem_singleton.mpr rfl)]
    have hsi : (rowsDims T C N wf).siIdx (ix2 p k) ⟨List.idxOf (0 : Fin 2) (rowsDims T C N wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    have h10 : (1 : Fin 2) ∉ ([0] : List (Fin 2)) := by decide
    show (rowsDims T C N wf).start (ix2 p k) idx 1 + (rowsDims T C N wf).batchCoord (ix2 p k) 1
      + (rowsDims T C N wf).offCoord (ix2 p k) 1 = k.val
    rw [GatherDims.batchCoord_eq_zero _ _ _ List.not_mem_nil]
    unfold GatherDims.start
    rw [dif_neg (show (1 : Fin 2) ∉ (rowsDims T C N wf).startIndexMap from h10)]
    unfold GatherDims.offCoord
    rw [dif_pos (show (1 : Fin 2) ∈ (rowsDims T C N wf).sKept from
      (GatherDims.mem_sKept _ _).mpr ⟨h10, List.not_mem_nil⟩)]
    simp only [Nat.zero_add, Nat.add_zero]
    rfl

/-- A start index already in [0, T): adding the extent when negative and clamping leave its value. -/
theorem wrap_clamp (a n : BitVec 32) (T : ℕ) (ha : a.toNat < T) (hT : T ≤ 2 ^ 31) :
    min (Scalar.select (IntOp.cmpi .slt a 0#32) (IntOp.addi a n) a).toInt.toNat (T - 1) = a.toNat := by
  have ha31 : a.toNat < 2 ^ 31 := by omega
  have h0 : (0#32).toNat < 2 ^ 31 := by decide
  have hc : ¬ IntOp.cmpi .slt a 0#32 = 1 := by
    intro h
    have hlt := (StableHlo.Predicate.slt_iff_toNat ha31 h0).mp h
    simp at hlt
  unfold Scalar.select
  rw [if_neg hc, StableHlo.Predicate.toInt_eq_toNat_of_lt ha31, Int.toNat_natCast]
  omega

end Cert.RowGather

end
-- ==== Proof.KRouteA.lean ====
/-
  The routing words, part one: the argsort as a permutation.  E n is token n's expert label as a natural number and σ the
  permutation the stable argsort of the labels realises.  The sorted index vector holds σ, the sorted labels are the
  labels read along σ, σ is a bijection, and the labels never decrease along σ.
-/
import proofs.«426305_j78847009620271_3_alg».proof.Proof.KStages
import proofs.«426305_j78847009620271_3_alg».proof.Proof.LibSortPerm
import proofs.«426305_j78847009620271_3_alg».proof.Proof.LibRowGather
import Idealize.ShloMosaic.Lib.StableHlo.Predicate

set_option maxRecDepth 16384

noncomputable section

namespace Cert.KernelIdeal.Route

open Cert.KernelIdeal Cert.KernelIdeal.Gen Cert.KernelIdeal.Stages
open Idealize.ShloMosaic Idealize.ShloMosaic.TcCoe Idealize.SL.Sem

variable {F : FTy → Type} [FloatOps F]
variable (m : (ℓ : Loc nD τ sig) → Buf (Elt F) ℓ) (c : Dev nD)

/-- token n's expert label, as a natural number -/
def E : Fin 2048 → ℕ := fun n => (e m c (Shape.Idx.ofFin n)).toNat
/-- the permutation of the tokens the stable argsort of the labels realises: σ j is the token at sorted position j -/
def σ : Fin 2048 → Fin 2048 := Cert.SortPerm.perm comparator_i32_i32_d0 (e m c) (iotaInDim S2048 32 0)

theorem sigma_bij : Function.Bijective (σ m c) :=
  Cert.SortPerm.perm_bijective comparator_i32_i32_d0 (e m c) (iotaInDim S2048 32 0)

/-- the column of start indices made from a word vector wrapped the NumPy way, read at row j: the word at j, with the
    extent added when it is negative -/
theorem wrapS2048_col_apply (n : BitVec 32) (s : IVec S2048 32) (j : Fin 2048) :
    broadcastInDim S2048x1 ![0] bcast_S2048_S2048x1_0 (wrapS2048 n s) (StableHlo.Predicate.ixP j)
      = Scalar.select (IntOp.cmpi .slt (s (Shape.Idx.ofFin j)) 0#32) (IntOp.addi (s (Shape.Idx.ofFin j)) n)
          (s (Shape.Idx.ofFin j)) := by
  rw [StableHlo.Predicate.bcast_col1]
  rfl

/-- the argsort's index vector holds σ -/
theorem sidx_apply (j : Fin 2048) : sidx m c (Shape.Idx.ofFin j) = BitVec.ofNat 32 (σ m c j).val := by
  unfold σ
  rw [st_sidx, Cert.SortPerm.sort2_snd]
  exact StableHlo.Predicate.iota_apply _

/-- the sorted labels are the labels read along σ -/
theorem es_apply (j : Fin 2048) : es m c (Shape.Idx.ofFin j) = e m c (Shape.Idx.ofFin (σ m c j)) := by
  rw [st_es, StableHlo.Predicate.gather_take gather_S2048_S2048x1_S2048_n_0_n_n_0_1_1 rfl rfl rfl rfl (e m c) _ j (by omega)]
  -- the index word is σ j, below 2048: the wrap and the clamp leave it
  have hlt : (σ m c j).val < 2048 := (σ m c j).isLt
  have hnat : (BitVec.ofNat 32 (σ m c j).val).toNat = (σ m c j).val := by
    rw [BitVec.toNat_ofNat]; exact Nat.mod_eq_of_lt (by omega)
  have key : min (broadcastInDim S2048x1 ![0] bcast_S2048_S2048x1_0 (wrapS2048 2048#32 (sidx m c))
      (StableHlo.Predicate.ixP j)).toInt.toNat (2048 - 1) = (σ m c j).val := by
    rw [wrapS2048_col_apply, sidx_apply,
      Cert.RowGather.wrap_clamp _ _ 2048 (by rw [hnat]; exact hlt) (by omega), hnat]
  exact congrArg (e m c) (congrArg Shape.Idx.ofFin (Fin.ext key))

/-- labels below 8 never decrease along σ -/
theorem sigma_mono (hE : ∀ n, E m c n < 8) (i j : Fin 2048) (hij : i ≤ j) : E m c (σ m c i) ≤ E m c (σ m c j) := by
  have h : (e m c (Shape.Idx.ofFin (σ m c i))).toInt ≤ (e m c (Shape.Idx.ofFin (σ m c j))).toInt :=
    Cert.SortPerm.perm_mono comparator_i32_i32_d0 (e m c) (iotaInDim S2048 32 0) (fun _ _ => rfl) i j hij
  have hi : (e m c (Shape.Idx.ofFin (σ m c i))).toNat < 8 := hE (σ m c i)
  have hj : (e m c (Shape.Idx.ofFin (σ m c j))).toNat < 8 := hE (σ m c j)
  rw [StableHlo.Predicate.toInt_eq_toNat_of_lt (by omega), StableHlo.Predicate.toInt_eq_toNat_of_lt (by omega)] at h
  show (e m c (Shape.Idx.ofFin (σ m c i))).toNat ≤ (e m c (Shape.Idx.ofFin (σ m c j))).toNat
  exact_mod_cast h

end Cert.KernelIdeal.Route

end
-- ==== Proof.Routing.lean ====
/-
  Routing by padded groups, over the natural numbers.

  N tokens carry labels  E n < K .  The tokens are listed in an order  σ  in which the labels never decrease.  Group k
  has  cnt k  tokens and starts, in that order, at position  off k  (the number of tokens with a smaller label).
  Each group is padded up to a multiple of the tile size  T , so group k's padded block starts at  poff k  (the sum
  of the padded sizes of the smaller labels).  The token at sorted position j is sent to the slot
  pos j = poff (E (σ j)) + (j - off (E (σ j))) .  Then: the rank  j - off  is a true difference and smaller than the
  group's size; the slots are distinct and lie below  N + K * T ; and the tile that holds slot  pos j  belongs to the
  group of that token alone: exactly  E (σ j) + 1  groups start at or before that tile.
-/
import Mathlib.Data.Fintype.BigOperators
import Mathlib.Data.Fintype.Card
import Mathlib.Algebra.Order.BigOperators.Group.Finset
import Mathlib.Tactic.Linarith
import Mathlib.Order.Interval.Finset.Fin

namespace Cert.Routing

open Finset

variable {N K T : ℕ}

/-- how many tokens carry label k -/
def cnt (E : Fin N → ℕ) (k : ℕ) : ℕ := (univ.filter fun n => E n = k).card
/-- how many tokens carry a label below k -/
def off (E : Fin N → ℕ) (k : ℕ) : ℕ := ∑ k' ∈ range k, cnt E k'
/-- group k's size rounded up to a multiple of T -/
def pcnt (T : ℕ) (E : Fin N → ℕ) (k : ℕ) : ℕ := (cnt E k + (T - 1)) / T * T
/-- where group k's padded block starts -/
def poff (T : ℕ) (E : Fin N → ℕ) (k : ℕ) : ℕ := ∑ k' ∈ range k, pcnt T E k'
/-- the slot of the token at sorted position j -/
def pos (T : ℕ) (E : Fin N → ℕ) (σ : Fin N → Fin N) (j : Fin N) : ℕ :=
  poff T E (E (σ j)) + (j.val - off E (E (σ j)))

variable (E : Fin N → ℕ) (σ : Fin N → Fin N)

/-! ### Unfolding one step of the two running sums -/

theorem off_succ (k : ℕ) : off E (k + 1) = off E k + cnt E k := by
  unfold off; rw [Finset.sum_range_succ]

theorem poff_succ (k : ℕ) : poff T E (k + 1) = poff T E k + pcnt T E k := by
  unfold poff; rw [Finset.sum_range_succ]

/-- the offset of label k counts the tokens whose label is below k -/
theorem off_eq_card (k : ℕ) : off E k = (univ.filter fun n => E n < k).card := by
  induction k with
  | zero => simp [off]
  | succ k ih =>
    rw [off_succ, ih, cnt, ← Finset.card_union_of_disjoint]
    · congr 1
      ext n
      simp only [mem_union, mem_filter, mem_univ, true_and]
      omega
    · rw [Finset.disjoint_filter]
      intro n _ h1 h2
      omega

/-- the same count taken along the listing σ, which only renames the tokens -/
theorem card_sorted (hσ : Function.Bijective σ) (k : ℕ) :
    (univ.filter fun i => E (σ i) < k).card = off E k := by
  rw [off_eq_card]
  apply Finset.card_bij (fun i _ => σ i)
  · intro i hi
    simpa using hi
  · intro a _ b _ h
    exact hσ.1 h
  · intro n hn
    obtain ⟨i, rfl⟩ := hσ.2 n
    exact ⟨i, by simpa using hn, rfl⟩

/-- if every listed position with a label below k comes before j, at most j positions have such a label -/
theorem off_le_of (hσ : Function.Bijective σ) (k : ℕ) (j : Fin N) (h : ∀ i, E (σ i) < k → i < j) :
    off E k ≤ j.val := by
  rw [← card_sorted E σ hσ k, ← Fin.card_Iio j]
  apply Finset.card_le_card
  intro i hi
  simp only [mem_filter, mem_univ, true_and] at hi
  exact Finset.mem_Iio.2 (h i hi)

/-- if every position up to j has a label below k, more than j positions have such a label -/
theorem lt_off_of (hσ : Function.Bijective σ) (k : ℕ) (j : Fin N) (h : ∀ i, i ≤ j → E (σ i) < k) :
    j.val < off E k := by
  rw [← card_sorted E σ hσ k]
  have h1 : (Finset.Iic j).card = j.val + 1 := Fin.card_Iic j
  have h2 : (Finset.Iic j).card ≤ (univ.filter fun i => E (σ i) < k).card := by
    apply Finset.card_le_card
    intro i hi
    simp only [mem_filter, mem_univ, true_and]
    exact h i (Finset.mem_Iic.1 hi)
  omega

theorem off_le (hK : ∀ n, E n < K) (hσ : Function.Bijective σ) (hmono : ∀ i j : Fin N, i ≤ j → E (σ i) ≤ E (σ j))
    (j : Fin N) : off E (E (σ j)) ≤ j.val := by
  apply off_le_of E σ hσ
  intro i hi
  by_contra hn
  have := hmono j i (not_lt.1 hn)
  omega

theorem rank_lt (hK : ∀ n, E n < K) (hσ : Function.Bijective σ) (hmono : ∀ i j : Fin N, i ≤ j → E (σ i) ≤ E (σ j))
    (j : Fin N) : j.val - off E (E (σ j)) < cnt E (E (σ j)) := by
  have h1 := off_le E σ hK hσ hmono j
  have h2 : j.val < off E (E (σ j) + 1) := by
    apply lt_off_of E σ hσ
    intro i hi
    have := hmono i j hi
    omega
  rw [off_succ] at h2
  omega

/-! ### Padding -/

/-- rounding up does not shrink a group -/
theorem cnt_le_pcnt (hT : 0 < T) (k : ℕ) : cnt E k ≤ pcnt T E k := by
  unfold pcnt
  have h1 := Nat.div_add_mod (cnt E k + (T - 1)) T
  have h2 := Nat.mod_lt (cnt E k + (T - 1)) hT
  rw [Nat.mul_comm] at h1
  omega

/-- rounding up adds less than one tile -/
theorem pcnt_le (hT : 0 < T) (k : ℕ) : pcnt T E k ≤ cnt E k + T := by
  unfold pcnt
  have h1 := Nat.div_add_mod (cnt E k + (T - 1)) T
  rw [Nat.mul_comm] at h1
  omega

theorem poff_mono {a b : ℕ} (h : a ≤ b) : poff T E a ≤ poff T E b := by
  unfold poff
  exact Finset.sum_le_sum_of_subset (Finset.range_mono h)

/-- the first k padded blocks exceed the first k groups by at most k tiles -/
theorem poff_le (hT : 0 < T) (k : ℕ) : poff T E k ≤ off E k + k * T := by
  induction k with
  | zero => simp [poff, off]
  | succ k ih =>
    rw [poff_succ, off_succ, Nat.add_mul, Nat.one_mul]
    have := pcnt_le E hT k
    omega

/-- all N tokens have a label below K -/
theorem off_K (hK : ∀ n, E n < K) : off E K = N := by
  rw [off_eq_card, Finset.filter_true_of_mem (fun n _ => hK n), Finset.card_univ, Fintype.card_fin]

theorem dvd_poff (k : ℕ) : T ∣ poff T E k := by
  induction k with
  | zero => simp [poff]
  | succ k ih =>
    rw [poff_succ]
    exact Nat.dvd_add ih (Dvd.intro_left _ rfl)

/-! ### The slot of a token lies in the unpadded part of its group's block -/

theorem pos_ge (j : Fin N) : poff T E (E (σ j)) ≤ pos T E σ j := Nat.le_add_right _ _

theorem pos_lt_block (hK : ∀ n, E n < K) (hσ : Function.Bijective σ)
    (hmono : ∀ i j : Fin N, i ≤ j → E (σ i) ≤ E (σ j)) (j : Fin N) :
    pos T E σ j < poff T E (E (σ j)) + cnt E (E (σ j)) := by
  unfold pos
  have := rank_lt E σ hK hσ hmono j
  omega

/-- hence below the start of the next block -/
theorem pos_lt_next (hT : 0 < T) (hK : ∀ n, E n < K) (hσ : Function.Bijective σ)
    (hmono : ∀ i j : Fin N, i ≤ j → E (σ i) ≤ E (σ j)) (j : Fin N) :
    pos T E σ j < poff T E (E (σ j) + 1) := by
  have h1 := pos_lt_block (T := T) E σ hK hσ hmono j
  have h2 := cnt_le_pcnt E hT (E (σ j))
  rw [poff_succ]
  omega

theorem pos_lt (hT : 0 < T) (hK : ∀ n, E n < K) (hσ : Function.Bijective σ)
    (hmono : ∀ i j : Fin N, i ≤ j → E (σ i) ≤ E (σ j)) (j : Fin N) : pos T E σ j < N + K * T := by
  have h1 := pos_lt_next E σ hT hK hσ hmono j
  have h2 : poff T E (E (σ j) + 1) ≤ poff T E K := poff_mono E (hK (σ j))
  have h3 := poff_le E hT K
  rw [off_K E hK] at h3
  omega

theorem pos_injective (hT : 0 < T) (hK : ∀ n, E n < K) (hσ : Function.Bijective σ)
    (hmono : ∀ i j : Fin N, i ≤ j → E (σ i) ≤ E (σ j)) : Function.Injective (pos T E σ) := by
  intro j1 j2 h
  rcases Nat.lt_trichotomy (E (σ j1)) (E (σ j2)) with hlt | heq | hgt
  · -- different labels: the two slots lie in disjoint blocks
    exfalso
    have a1 := pos_lt_next E σ hT hK hσ hmono j1
    have a2 : poff T E (E (σ j1) + 1) ≤ poff T E (E (σ j2)) := poff_mono E hlt
    have a3 := pos_ge (T := T) E σ j2
    omega
  · -- same label: the slot is the position plus a constant
    apply Fin.ext
    have o1 := off_le E σ hK hσ hmono j1
    have o2 := off_le E σ hK hσ hmono j2
    unfold pos at h
    rw [heq] at h o1
    omega
  · exfalso
    have a1 := pos_lt_next E σ hT hK hσ hmono j2
    have a2 : poff T E (E (σ j2) + 1) ≤ poff T E (E (σ j1)) := poff_mono E hgt
    have a3 := pos_ge (T := T) E σ j1
    omega

/-- the groups whose padded block starts at or before the tile of slot  pos j  are exactly the labels  ≤ E (σ j) -/
theorem tile_owner (hT : 0 < T) (hK : ∀ n, E n < K) (hσ : Function.Bijective σ)
    (hmono : ∀ i j : Fin N, i ≤ j → E (σ i) ≤ E (σ j)) (j : Fin N) :
    ((range K).filter fun k => poff T E k / T ≤ pos T E σ j / T).card = E (σ j) + 1 := by
  have he : E (σ j) < K := hK (σ j)
  have hfilter : ((range K).filter fun k => poff T E k / T ≤ pos T E σ j / T) = range (E (σ j) + 1) := by
    ext k
    simp only [mem_filter, mem_range]
    constructor
    · -- a later block starts at a multiple of T that lies strictly above the slot
      rintro ⟨_, hle⟩
      by_contra hn
      have hge : E (σ j) + 1 ≤ k := by omega
      have hm : poff T E (E (σ j) + 1) ≤ poff T E k := poff_mono E hge
      obtain ⟨m, hm'⟩ := dvd_poff (T := T) E (E (σ j) + 1)
      have h1 := pos_lt_next E σ hT hK hσ hmono j
      have h4 : pos T E σ j / T < m := by
        rw [Nat.div_lt_iff_lt_mul hT, Nat.mul_comm m T]
        omega
      have h5 : m ≤ poff T E k / T := by
        rw [Nat.le_div_iff_mul_le hT, Nat.mul_comm m T]
        omega
      omega
    · -- an earlier block starts at or before the slot
      intro hk
      refine ⟨by omega, Nat.div_le_div_right ?_⟩
      have b1 : poff T E k ≤ poff T E (E (σ j)) := poff_mono E (Nat.lt_succ_iff.1 hk)
      have b2 := pos_ge (T := T) E σ j
      omega
  rw [hfilter, Finset.card_range]

/-- every padded start is a multiple of the tile size -/
theorem poff_dvd (k : ℕ) : T ∣ poff T E k := dvd_poff E k

end Cert.Routing
-- ==== Proof.KRouteB.lean ====
/-
  The routing words, part two: counting.  For labels below 8: the count vector holds the number of tokens of each
  label, its exclusive running sum the number of tokens of smaller labels, the padded count the count rounded up to a
  multiple of 256, and its exclusive running sum where each label's padded block starts.
-/
import proofs.«426305_j78847009620271_3_alg».proof.Proof.KRouteA
import proofs.«426305_j78847009620271_3_alg».proof.Proof.LibHostInt
import proofs.«426305_j78847009620271_3_alg».proof.Proof.Routing
import Idealize.ShloMosaic.Lib.StableHlo.Predicate

set_option maxRecDepth 16384

noncomputable section

namespace Cert.KernelIdeal.Route

open Cert.KernelIdeal Cert.KernelIdeal.Gen Cert.KernelIdeal.Stages
open Idealize.ShloMosaic Idealize.ShloMosaic.TcCoe Idealize.SL.Sem

variable {F : FTy → Type} [FloatOps F]
variable (m : (ℓ : Loc nD τ sig) → Buf (Elt F) ℓ) (c : Dev nD)

/-- a word equals the word of a small number exactly when its value is that number -/
theorem eq_ofNat_iff_toNat (w : BitVec 32) (k : ℕ) (hk : k < 2 ^ 32) : w = BitVec.ofNat 32 k ↔ w.toNat = k := by
  constructor
  · intro h; rw [h, BitVec.toNat_ofNat]; exact Nat.mod_eq_of_lt hk
  · intro h; apply BitVec.eq_of_toNat_eq; rw [h, BitVec.toNat_ofNat]; exact (Nat.mod_eq_of_lt hk).symm

/-- counting by comparison: for any vector x of 2048 words, summing over q the bit  x q = k  gives, at k, the number of
    entries of x whose value is k -/
theorem count_eq_apply (x : IVec S2048 32) (k : Fin 8) :
    (Host.reduce IntOp.addi
      (extui 32 (cmpi .eq (broadcastInDim S8x2048 ![0, 1] bcast_S1x2048_S8x2048_0_1 (broadcastInDim S1x2048 ![1] bcast_S2048_S1x2048_1 x))
        (broadcastInDim S8x2048 ![0, 1] bcast_S8x1_S8x2048_0_1 (broadcastInDim S8x1 ![0] bcast_S8_S8x1_0 (iotaInDim S8 32 0)))) natLt_1_32)
      (constantI S_ 32 0#32) reducesTo_S8x2048_S8_d1 h_S_ (Shape.Idx.ofFin k)).toNat
      = (Finset.univ.filter fun q : Fin 2048 => (x (Shape.Idx.ofFin q)).toNat = k.val).card := by
  rw [StableHlo.Predicate.toNat_reduce_count_cols (n := 8) (m := 2048) (by norm_num) _ natLt_1_32
    reducesTo_S8x2048_S8_d1 h_S_ (Shape.Idx.ofFin k)]
  congr 1
  apply Finset.filter_congr
  intro q _
  -- row k, column q of the mask compares entry q with the word k
  show IntOp.cmpi .eq
      (broadcastInDim S8x2048 ![0, 1] bcast_S1x2048_S8x2048_0_1 (broadcastInDim S1x2048 ![1] bcast_S2048_S1x2048_1 x)
        (StableHlo.Predicate.ij (Shape.Idx.ofFin k 0) q))
      (broadcastInDim S8x2048 ![0, 1] bcast_S8x1_S8x2048_0_1 (broadcastInDim S8x1 ![0] bcast_S8_S8x1_0 (iotaInDim S8 32 0))
        (StableHlo.Predicate.ij (Shape.Idx.ofFin k 0) q)) = 1#1 ↔ _
  rw [Shape.Idx.ofFin_zero, StableHlo.Predicate.bcast_cols, StableHlo.Predicate.bcast_rows, StableHlo.Predicate.iota_apply,
    StableHlo.Predicate.cmpi_eq_iff, eq_ofNat_iff_toNat _ _ (by have := k.isLt; omega)]

theorem cnts_apply (k : Fin 8) : (cnts m c (Shape.Idx.ofFin k)).toNat = Cert.Routing.cnt (E m c) k.val := by
  rw [st_cnts, count_eq_apply]
  unfold Cert.Routing.cnt E
  rfl

/-- a label's count is at most the number of tokens -/
theorem cnt_le_tokens (k : ℕ) : Cert.Routing.cnt (E m c) k ≤ 2048 := by
  unfold Cert.Routing.cnt
  exact le_trans (Finset.card_le_univ _) (by rw [Fintype.card_fin])

/-- the counts of the labels below k together are at most the number of tokens -/
theorem off_le_tokens (k : ℕ) : Cert.Routing.off (E m c) k ≤ 2048 := by
  rw [Cert.Routing.off_eq_card]
  exact le_trans (Finset.card_le_univ _) (by rw [Fintype.card_fin])

/-- the exclusive running sum: for a vector x of 8 words with values f k whose total stays small, the width-8 window sum
    minus the vector itself is, at k, the sum of the values before k -/
theorem excl_cumsum_apply (x : IVec S8 32) (f : ℕ → ℕ) (hx : ∀ k : Fin 8, (x (Shape.Idx.ofFin k)).toNat = f k.val)
    (hb : ∑ k ∈ Finset.range 8, f k < 2 ^ 31) (k : Fin 8) :
    (subi (Host.reduceWindow IntOp.addi ![8] ![1] ![7] ![0] x (broadcastInDim S_ ![] bcast_S_S_ (constantI S_ 32 0#32))
      reduceWindows_S8_S8_w8s1p7_0 h_S_) x (Shape.Idx.ofFin k)).toNat = ∑ k' ∈ Finset.range k.val, f k' := by
  have hsum : ∑ k : Fin 8, (x (Shape.Idx.ofFin k)).toNat < 2 ^ 31 := by
    rw [Finset.sum_congr rfl (fun k _ => hx k), Fin.sum_univ_eq_sum_range f 8]; exact hb
  have hc := Cert.HostInt.cumsum8_toNat x (broadcastInDim S_ ![] bcast_S_S_ (constantI S_ 32 0#32))
    reduceWindows_S8_S8_w8s1p7_0 h_S_ (fun _ => rfl) hsum k
  have hc' : ∑ k' ∈ Finset.range (k.val + 1), (if hk : k' < 8 then (x (Shape.Idx.ofFin ⟨k', hk⟩)).toNat else 0)
      = ∑ k' ∈ Finset.range (k.val + 1), f k' := by
    apply Finset.sum_congr rfl
    intro k' hk'
    have h8 : k' < 8 := by have := Finset.mem_range.1 hk'; have := k.isLt; omega
    rw [dif_pos h8, hx ⟨k', h8⟩]
  rw [hc', Finset.sum_range_succ] at hc
  have hle : ∑ k' ∈ Finset.range (k.val + 1), f k' ≤ ∑ k' ∈ Finset.range 8, f k' :=
    Finset.sum_le_sum_of_subset (Finset.range_mono (by have := k.isLt; omega))
  rw [Finset.sum_range_succ] at hle
  -- the window sum is the sum before k plus the entry at k, so the difference does not borrow
  show (IntOp.subi _ (x (Shape.Idx.ofFin k))).toNat = _
  unfold IntOp.subi
  rw [BitVec.toNat_sub, hc, hx k]
  generalize ∑ k' ∈ Finset.range k.val, f k' = S at *
  generalize f k.val = a at *
  omega

theorem offs_apply (k : Fin 8) : (offs m c (Shape.Idx.ofFin k)).toNat = Cert.Routing.off (E m c) k.val := by
  rw [st_offs, st_csum, excl_cumsum_apply (cnts m c) (Cert.Routing.cnt (E m c)) (cnts_apply m c)
    (lt_of_le_of_lt (off_le_tokens m c 8) (by norm_num)) k]
  rfl

/-- rounding up to a multiple of 256 as the program spells it: for a vector x of 8 small words,
    floor ((x + 256 - 1) / 256) * 256  has, at k, the value  (x k + 255) / 256 * 256 -/
theorem pad_apply (x : IVec S8 32) (k : Fin 8) (hx : (x (Shape.Idx.ofFin k)).toNat ≤ 2048) :
    (muli (fdiv256 (subi (addi x (broadcastInDim S8 ![] bcast_S_S8 (constantI S_ 32 256#32)))
      (broadcastInDim S8 ![] bcast_S_S8 (constantI S_ 32 1#32)))) (broadcastInDim S8 ![] bcast_S_S8 (constantI S_ 32 256#32))
      (Shape.Idx.ofFin k)).toNat = ((x (Shape.Idx.ofFin k)).toNat + 255) / 256 * 256 := by
  have hA : (subi (addi x (broadcastInDim S8 ![] bcast_S_S8 (constantI S_ 32 256#32)))
      (broadcastInDim S8 ![] bcast_S_S8 (constantI S_ 32 1#32)) (Shape.Idx.ofFin k)).toNat = (x (Shape.Idx.ofFin k)).toNat + 255 := by
    show (IntOp.subi (IntOp.addi (x (Shape.Idx.ofFin k)) 256#32) 1#32).toNat = _
    unfold IntOp.subi IntOp.addi
    rw [BitVec.toNat_sub, BitVec.toNat_add]
    simp only [BitVec.toNat_ofNat]
    omega
  have hq := Cert.HostInt.floor_divide_apply
    (subi (addi x (broadcastInDim S8 ![] bcast_S_S8 (constantI S_ 32 256#32))) (broadcastInDim S8 ![] bcast_S_S8 (constantI S_ 32 1#32)))
    (broadcastInDim S8 ![] bcast_S_S8 (constantI S_ 32 256#32))
    (broadcastInDim S8 ![] bcast_S_S8 (signi (constantI S_ 32 256#32)))
    (broadcastInDim S8 ![] bcast_S_S8 (constantI S_ 32 0#32))
    (broadcastInDim S8 ![] bcast_S_S8 (constantI S_ 32 1#32))
    (Shape.Idx.ofFin k) rfl (Cert.HostInt.signi_256 (constantI S_ 32 256#32) _ rfl) rfl rfl (by rw [hA]; omega)
  rw [hA] at hq
  show (IntOp.muli (fdiv256 _ (Shape.Idx.ofFin k)) 256#32).toNat = _
  unfold IntOp.muli
  rw [BitVec.toNat_mul, hq]
  simp only [BitVec.toNat_ofNat]
  omega

theorem pcnt_apply (k : Fin 8) : (pcnt m c (Shape.Idx.ofFin k)).toNat = Cert.Routing.pcnt 256 (E m c) k.val := by
  rw [st_pcnt, st_ctile, st_cpad, pad_apply (cnts m c) k (by rw [cnts_apply]; exact cnt_le_tokens m c _), cnts_apply]
  rfl

theorem poff_apply (k : Fin 8) : (poff m c (Shape.Idx.ofFin k)).toNat = Cert.Routing.poff 256 (E m c) k.val := by
  have hb : ∑ k ∈ Finset.range 8, Cert.Routing.pcnt 256 (E m c) k < 2 ^ 31 := by
    have h1 : Cert.Routing.poff 256 (E m c) 8 ≤ Cert.Routing.off (E m c) 8 + 8 * 256 :=
      Cert.Routing.poff_le (E m c) (by norm_num) 8
    have h2 := off_le_tokens m c 8
    show Cert.Routing.poff 256 (E m c) 8 < 2 ^ 31
    omega
  rw [st_poff, st_psum, excl_cumsum_apply (pcnt m c) (Cert.Routing.pcnt 256 (E m c)) (pcnt_apply m c) hb k]
  rfl

end Cert.KernelIdeal.Route

end
-- ==== Proof.LibBitmap.lean ====
/-
  Three general facts, over the library only.

  * A "membership bitmap": scattering one constant `o` into an array at a list of positions (a set-scatter, each update
    replacing the element it lands on, out-of-range positions dropped) leaves `o` exactly at the positions some update
    names and the old contents elsewhere (`Host.scatter_set_const`); for a rank-1 array indexed through an [n × 1] column
    of positions, position `j` is named when some entry of the column, read as a signed integer, is `j`
    (`Host.scatter_bitmap`).
  * `jnp.any` along an axis: a reduce by `or` from 0 is 1 at `j` exactly when some operand element that reduces into
    `j` is 1 (`Host.reduce_ori_eq_one_iff`).
  * Over the extended reals a 32-bit integer converted to a float and back is the integer, for EVERY word: the conversion
    to a real is exact, truncation of an integer-valued real is that integer, and it lies inside the clamp
    (`Ideal.fptosi_sitofp`).
-/
import Idealize.ShloMosaic.Lib.ReduceAll
import Idealize.ShloMosaic.Lib.StableHlo.Predicate
import Idealize.ShloMosaic.PureOps.Ideal

namespace Idealize.ShloMosaic

namespace IntOp

/-- A left fold by `or` over `i1` words comes out 1 exactly when it started at 1 or met a 1. -/
theorem foldl_ori_eq_one_iff {ι : Type} (f : ι → BitVec 1) :
    ∀ (l : List ι) (init : BitVec 1),
      l.foldl (fun r n => ori r (f n)) init = 1#1 ↔ init = 1#1 ∨ ∃ n ∈ l, f n = 1#1
  | [], init => by simp
  | a :: l, init => by
    rw [List.foldl_cons, foldl_ori_eq_one_iff f l, ori_eq_one]
    constructor
    · rintro ((h | h) | ⟨n, hn, h⟩)
      · exact .inl h
      · exact .inr ⟨a, List.mem_cons_self, h⟩
      · exact .inr ⟨n, List.mem_cons_of_mem _ hn, h⟩
    · rintro (h | ⟨n, hn, h⟩)
      · exact .inl (.inl h)
      · rcases List.mem_cons.1 hn with rfl | hn
        · exact .inl (.inr h)
        · exact .inr ⟨n, hn, h⟩

end IntOp

namespace Host

/-- `jnp.any` along the reduced axes: the reduce by `or` is 1 at `j` iff the initial value is 1 or some operand element
    that reduces into `j` is 1. -/
theorem reduce_ori_eq_one_iff {s t u : Shape} {axes : List (Fin s.rank)} (x : s.Idx → BitVec 1) (init : u.Idx → BitVec 1)
    (h : s.ReducesTo axes t) (hu : 0 < u.numel) (j : t.Idx) :
    Host.reduce IntOp.ori x init h hu j = 1#1 ↔ init (Shape.Idx.first hu) = 1#1 ∨ ∃ i : s.Idx, h.drop i = j ∧ x i = 1#1 := by
  rw [Host.reduce_eq_foldl, IntOp.foldl_ori_eq_one_iff x]
  refine or_congr Iff.rfl ⟨?_, ?_⟩
  · rintro ⟨i, hi, hx⟩
    rw [List.mem_filter] at hi
    exact ⟨i, by simpa using hi.2, hx⟩
  · rintro ⟨i, hi, hx⟩
    exact ⟨i, List.mem_filter.2 ⟨List.mem_map.2 ⟨s.rowMajor i, List.mem_finRange _, Equiv.symm_apply_apply _ _⟩, by simp [hi]⟩, hx⟩

/-- A left fold of steps each of which either sets ONE position (`g n = some i`) to the constant `o` or does nothing
    (`g n = none`): the result holds `o` at every position some step names, and the start value at the others. -/
theorem foldl_set_const {ι κ α : Type} (g : ι → Option κ) (o : α) (step : (κ → α) → ι → (κ → α))
    (hsome : ∀ (r : κ → α) (n : ι) (i : κ), g n = some i → ∀ i', (i' = i → step r n i' = o) ∧ (i' ≠ i → step r n i' = r i'))
    (hnone : ∀ (r : κ → α) (n : ι), g n = none → step r n = r) :
    ∀ (l : List ι) (x : κ → α) (j : κ),
      ((∃ n ∈ l, g n = some j) → l.foldl step x j = o) ∧ ((∀ n ∈ l, g n ≠ some j) → l.foldl step x j = x j)
  | [], x, j => ⟨fun ⟨_, hn, _⟩ => (nomatch hn), fun _ => rfl⟩
  | a :: l, x, j => by
    obtain ⟨ih1, ih2⟩ := foldl_set_const g o step hsome hnone l (step x a) j
    rw [List.foldl_cons]
    refine ⟨?_, ?_⟩
    · rintro ⟨n, hn, h⟩
      by_cases hl : ∃ n ∈ l, g n = some j
      · exact ih1 hl
      · rw [ih2 (fun n' hn' h' => hl ⟨n', hn', h'⟩)]
        rcases List.mem_cons.1 hn with rfl | hn
        · exact ((hsome x n j h) j).1 rfl
        · exact absurd ⟨n, hn, h⟩ hl
    · intro hall
      rw [ih2 (fun n hn => hall n (List.mem_cons_of_mem _ hn))]
      have ha := hall a List.mem_cons_self
      cases hga : g a with
      | none => rw [hnone x a hga]
      | some i => exact ((hsome x a i hga) j).2 (fun hji => ha (by rw [hga, hji]))

/-- A set-scatter (the body returns the update) of updates that are all the constant `o`: the result holds `o` at every
    in-range position some update lands on, and the operand's element everywhere else. -/
theorem scatter_set_const {s si u : Shape} {w : Nat} {α : Type} (d : ScatterDims s si u) (x : s.Idx → α) (idx : IVec si w)
    (upd : u.Idx → α) (o : α) (hupd : ∀ n, upd n = o) (j : s.Idx) :
    ((∃ n : u.Idx, d.resultIdx? n idx = some j) → Host.scatter d (fun _ b => b) x idx upd j = o) ∧
    ((∀ n : u.Idx, d.resultIdx? n idx ≠ some j) → Host.scatter d (fun _ b => b) x idx upd j = x j) := by
  have key := foldl_set_const (fun n : Fin u.numel => d.resultIdx? (u.rowMajor.symm n) idx) o
    (fun r n =>
      match d.resultIdx? (u.rowMajor.symm n) idx with
      | some i => fun i' => if i' = i then (fun _ b => b) (r i) (upd (u.rowMajor.symm n)) else r i'
      | none => r)
    (by
      intro r n i h i'
      simp only [h]
      exact ⟨fun e => by rw [if_pos e, hupd], fun e => by rw [if_neg e]⟩)
    (by
      intro r n h
      simp only [h])
    (List.finRange u.numel) x j
  refine ⟨fun ⟨n, h⟩ => key.1 ⟨u.rowMajor n, List.mem_finRange _, by simpa using h⟩, fun h => key.2 fun n _ => h _⟩

open StableHlo.Predicate in
/-- For a rank-1 operand, positions given as an [n × 1] column (the index vector on axis 1, the operand's one axis
    inserted: `x.at[idx].set(v)`), update `a` lands on position `j` exactly when its column entry, read signed, is `j`. -/
theorem resultIdx?_bitmap {N n w : Nat} (d : ScatterDims ⟨1, ![N]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ w) (a : (⟨1, ![n]⟩ : Shape).Idx) (j : (⟨1, ![N]⟩ : Shape).Idx) :
    d.resultIdx? a idx = some j ↔ (idx (ixP (a 0))).toInt = ((j 0).val : Int) := by
  have hk : (0 : Fin 1) ∉ d.sKept := by simp [ScatterDims.sKept, Shape.kept, hiw]
  have hm : (0 : Fin 1) ∈ d.scatterDimsToOperandDims := by rw [hsd]; exact List.mem_singleton.mpr rfl
  have hw : d.window a 0 = 0 := by unfold ScatterDims.window; rw [dif_neg hk]
  have hs : d.start a idx 0 = (idx (ixP (a 0))).toInt := by
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have e : ∀ X : Fin 1, (a X).val = (a 0).val := fun X => by
        have hX : X = 0 := Subsingleton.elim _ _
        subst hX; rfl
      exact e _
    | ⟨1, _⟩ =>
      unfold ScatterDims.siIdx
      rw [dif_pos (by rw [hivd])]
      apply Fin.ext
      show List.idxOf (0 : Fin 1) d.scatterDimsToOperandDims = 0
      rw [hsd]; simp
  have hjN : (j 0).val < N := (j 0).isLt
  have hall : (∀ a' : Fin 1, 0 ≤ d.start a idx a' + (d.window a a' : Int) ∧
      d.start a idx a' + (d.window a a' : Int) < ((⟨1, ![N]⟩ : Shape).size a' : Int))
      ↔ (0 ≤ (idx (ixP (a 0))).toInt ∧ (idx (ixP (a 0))).toInt < (N : Int)) := by
    constructor
    · intro h; have := h 0; rw [hs, hw] at this; simpa using this
    · intro h a'; obtain rfl : a' = 0 := Subsingleton.elim _ _; rw [hs, hw]; simpa using h
  unfold ScatterDims.resultIdx?
  by_cases h : ∀ a' : Fin 1, 0 ≤ d.start a idx a' + (d.window a a' : Int) ∧
      d.start a idx a' + (d.window a a' : Int) < ((⟨1, ![N]⟩ : Shape).size a' : Int)
  · rw [dif_pos h]
    have h0 := (hall.1 h).1
    constructor
    · intro e
      have e1 := congrArg Fin.val (congrFun (Option.some.inj e) 0)
      have e2 : (d.start a idx 0 + (d.window a 0 : Int)).toNat = (j 0).val := e1
      rw [hs, hw] at e2
      omega
    · intro e
      congr 1
      funext a'
      obtain rfl : a' = 0 := Subsingleton.elim _ _
      apply Fin.ext
      show (d.start a idx 0 + (d.window a 0 : Int)).toNat = (j 0).val
      rw [hs, hw, e]; simp
  · rw [dif_neg h]
    constructor
    · intro e; exact absurd e (by simp)
    · intro e
      exact absurd (hall.2 ⟨by omega, by omega⟩) h

open StableHlo.Predicate in
/-- THE BITMAP: a constant `o` set-scattered into a rank-1 array at an [n × 1] column of positions holds `o` at `j` when
    some column entry, read signed, is `j`, and the operand's element when none is. -/
theorem scatter_bitmap {N n w : Nat} {α : Type} (d : ScatterDims ⟨1, ![N]⟩ ⟨2, ![n, 1]⟩ ⟨1, ![n]⟩)
    (hiw : d.insertedWindowDims = [0]) (hsd : d.scatterDimsToOperandDims = [0]) (hivd : d.indexVectorDim = 1)
    (x : (⟨1, ![N]⟩ : Shape).Idx → α) (idx : IVec ⟨2, ![n, 1]⟩ w) (upd : (⟨1, ![n]⟩ : Shape).Idx → α) (o : α)
    (hupd : ∀ k, upd k = o) (j : (⟨1, ![N]⟩ : Shape).Idx) :
    ((∃ a : Fin n, (idx (ixP a)).toInt = ((j 0).val : Int)) → Host.scatter d (fun _ b => b) x idx upd j = o) ∧
    ((∀ a : Fin n, (idx (ixP a)).toInt ≠ ((j 0).val : Int)) → Host.scatter d (fun _ b => b) x idx upd j = x j) := by
  obtain ⟨h1, h2⟩ := scatter_set_const d x idx upd o hupd j
  refine ⟨fun ⟨a, h⟩ => h1 ⟨Shape.Idx.ofFin a, (resultIdx?_bitmap d hiw hsd hivd idx _ j).2 (by simpa using h)⟩,
    fun h => h2 fun k hk => h (k 0) ((resultIdx?_bitmap d hiw hsd hivd idx k j).1 hk)⟩

end Host

namespace Ideal

/-- Over the extended reals a 32-bit integer survives the round trip through a float: exact conversion, then truncation
    of an integer-valued real inside the clamp. -/
theorem fptosi_sitofp (b : BitVec 32) : Ideal.fptosi 32 (((b.toInt : ℝ) : EReal)) = b := by
  unfold Ideal.fptosi
  have hc : Ideal.toIntClamped (-((2 ^ (32 - 1) : Nat) : Int)) (((2 ^ (32 - 1) : Nat) : Int) - 1) (((b.toInt : ℝ) : EReal)) = b.toInt := by
    show max _ (min _ (if (0 : ℝ) ≤ (b.toInt : ℝ) then ⌊(b.toInt : ℝ)⌋ else ⌈(b.toInt : ℝ)⌉)) = _
    rw [Int.floor_intCast, Int.ceil_intCast, ite_self]
    have h1 := BitVec.toInt_lt (x := b)
    have h2 := BitVec.le_toInt (x := b)
    norm_num at h1 h2 ⊢
    omega
  rw [hc, BitVec.ofInt_toInt]

end Ideal

end Idealize.ShloMosaic
-- ==== Proof.LibScatterSet.lean ====
/-
  A set-scatter at distinct positions.  Updates  upd j  (j < n) are written into a rank-1 array of M entries at the
  positions named by an [n × 1] column of signed index words ( x.at[idx].set(upd) ).  When update j's position is
  P j , with P injective and every P j inside the array, the result holds  upd j  at position  P j .
-/
import Idealize.ShloMosaic.PureOps
import Idealize.ShloMosaic.Lib.StableHlo.Predicate
import proofs.«426305_j78847009620271_3_alg».proof.Proof.LibBitmap

noncomputable section

namespace Cert.ScatterSet

open Idealize.ShloMosaic Idealize.ShloMosaic.StableHlo.Predicate

/-- A left fold of steps each of which either sets ONE position (`g n = some i`) to the value `v n` or does nothing
    (`g n = none`).  A position that exactly one step `a` of the list names (every step naming it IS `a`) ends up holding
    `v a`; a position no step names keeps the start value. -/
theorem foldl_set_fun {ι κ α : Type} (g : ι → Option κ) (v : ι → α) (step : (κ → α) → ι → (κ → α))
    (hsome : ∀ (r : κ → α) (n : ι) (i : κ), g n = some i → ∀ i', (i' = i → step r n i' = v n) ∧ (i' ≠ i → step r n i' = r i'))
    (hnone : ∀ (r : κ → α) (n : ι), g n = none → step r n = r) :
    ∀ (l : List ι) (x : κ → α) (i : κ),
      (∀ a ∈ l, g a = some i → (∀ n ∈ l, g n = some i → n = a) → l.foldl step x i = v a) ∧
      ((∀ n ∈ l, g n ≠ some i) → l.foldl step x i = x i)
  | [], x, i => ⟨fun _ ha => (nomatch ha), fun _ => rfl⟩
  | b :: l, x, i => by
    obtain ⟨ih1, ih2⟩ := foldl_set_fun g v step hsome hnone l (step x b) i
    rw [List.foldl_cons]
    refine ⟨?_, ?_⟩
    · intro a ha hga huniq
      by_cases hal : a ∈ l
      · exact ih1 a hal hga (fun n hn h => huniq n (List.mem_cons_of_mem _ hn) h)
      · -- the named step is the head, and no later step names the position
        have hab : a = b := by
          rcases List.mem_cons.1 ha with h | h
          · exact h
          · exact absurd h hal
        subst hab
        rw [ih2 (fun n hn h => hal (huniq n (List.mem_cons_of_mem _ hn) h ▸ hn))]
        exact ((hsome x a i hga) i).1 rfl
    · intro hall
      rw [ih2 (fun n hn => hall n (List.mem_cons_of_mem _ hn))]
      have hb := hall b List.mem_cons_self
      cases hgb : g b with
      | none => rw [hnone x b hgb]
      | some k => exact ((hsome x b k hgb) i).2 (fun hik => hb (by rw [hgb, hik]))

/-- A set-scatter (the body returns the update): a position that exactly one update `a` lands on holds `upd a`. -/
theorem scatter_set_unique {s si u : Shape} {w : Nat} {α : Type} (d : ScatterDims s si u) (x : s.Idx → α) (idx : IVec si w)
    (upd : u.Idx → α) (a : u.Idx) (i : s.Idx) (ha : d.resultIdx? a idx = some i)
    (huniq : ∀ k : u.Idx, d.resultIdx? k idx = some i → k = a) :
    Host.scatter d (fun _ b => b) x idx upd i = upd a := by
  have key := (foldl_set_fun (fun n : Fin u.numel => d.resultIdx? (u.rowMajor.symm n) idx)
    (fun n : Fin u.numel => upd (u.rowMajor.symm n))
    (fun r n =>
      match d.resultIdx? (u.rowMajor.symm n) idx with
      | some i => fun i' => if i' = i then (fun _ b => b) (r i) (upd (u.rowMajor.symm n)) else r i'
      | none => r)
    (by
      intro r n i h i'
      simp only [h]
      exact ⟨fun e => by rw [if_pos e], fun e => by rw [if_neg e]⟩)
    (by
      intro r n h
      simp only [h])
    (List.finRange u.numel) x i).1 (u.rowMajor a) (List.mem_finRange _) (by simpa using ha)
    (fun n _ h => by
      have := huniq (u.rowMajor.symm n) h
      rw [← this]; simp)
  have e : upd (u.rowMajor.symm (u.rowMajor a)) = upd a := by rw [Equiv.symm_apply_apply]
  exact key.trans e

theorem scatter_set_apply {α : Type} {M n w : ℕ} (d : ScatterDims ⟨1, ![M]⟩ ⟨2, ![n, 1]⟩ ⟨1, ![n]⟩)
    (hiw : d.insertedWindowDims = [0]) (hsd : d.scatterDimsToOperandDims = [0]) (hivd : d.indexVectorDim = 1)
    (x : (⟨1, ![M]⟩ : Shape).Idx → α) (idx : IVec ⟨2, ![n, 1]⟩ w) (upd : (⟨1, ![n]⟩ : Shape).Idx → α)
    (P : Fin n → Fin M) (hP : ∀ j, (idx (ixP j)).toInt = ((P j).val : Int)) (hinj : Function.Injective P) (j : Fin n) :
    Host.scatter d (fun _ b => b) x idx upd (Shape.Idx.ofFin (P j)) = upd (Shape.Idx.ofFin j) := by
  apply scatter_set_unique d x idx upd (Shape.Idx.ofFin j) (Shape.Idx.ofFin (P j))
  · rw [Host.resultIdx?_bitmap d hiw hsd hivd idx]
    simpa using hP j
  · intro k hk
    rw [Host.resultIdx?_bitmap d hiw hsd hivd idx] at hk
    rw [hP (k 0)] at hk
    have h1 : P (k 0) = P j := by
      apply Fin.ext
      have : ((P (k 0)).val : Int) = ((P j).val : Int) := by simpa using hk
      exact_mod_cast this
    exact (Shape.Idx.eq_ofFin k).trans (congrArg Shape.Idx.ofFin (hinj h1))

end Cert.ScatterSet

end
-- ==== Proof.KRouteC.lean ====
/-
  The routing words, part three: slots.  For labels below 8: sorted position j's slot word is the slot of the
  combinatorial routing; the slot → token table holds σ j at that slot, and the token → slot table holds the slot at
  token σ j.
-/
import proofs.«426305_j78847009620271_3_alg».proof.Proof.KRouteB
import proofs.«426305_j78847009620271_3_alg».proof.Proof.LibScatterSet
import proofs.«426305_j78847009620271_3_alg».proof.Proof.LibRowGather

set_option maxRecDepth 16384

noncomputable section

namespace Cert.KernelIdeal.Route

open Cert.KernelIdeal Cert.KernelIdeal.Gen Cert.KernelIdeal.Stages
open Idealize.ShloMosaic Idealize.ShloMosaic.TcCoe Idealize.SL.Sem

variable {F : FTy → Type} [FloatOps F]
variable (m : (ℓ : Loc nD τ sig) → Buf (Elt F) ℓ) (c : Dev nD)

open Idealize.ShloMosaic.StableHlo.Predicate in
/-- The [2048 × 1] column of wrapped index words, read at row j: the wrap of the word at j. -/
theorem wrapcol_apply (n : BitVec 32) (x : IVec S2048 32) (j : Fin 2048) :
    broadcastInDim S2048x1 ![0] bcast_S2048_S2048x1_0 (wrapS2048 n x) (ixP j)
      = Scalar.select (IntOp.cmpi .slt (x (Shape.Idx.ofFin j)) 0#32) (IntOp.addi (x (Shape.Idx.ofFin j)) n) (x (Shape.Idx.ofFin j)) := by
  rw [bcast_col1]
  rfl

open Idealize.ShloMosaic.StableHlo.Predicate in
/-- A word below 2³¹ is not negative, so the wrap leaves it; read signed it is its value. -/
theorem wrap_toInt (a n : BitVec 32) (ha : a.toNat < 2 ^ 31) :
    (Scalar.select (IntOp.cmpi .slt a 0#32) (IntOp.addi a n) a).toInt = (a.toNat : Int) := by
  have h0 : (0#32).toNat < 2 ^ 31 := by decide
  have hc : ¬ IntOp.cmpi .slt a 0#32 = 1 := by
    intro h
    have hlt := (slt_iff_toNat ha h0).mp h
    simp at hlt
  unfold Scalar.select
  rw [if_neg hc, toInt_eq_toNat_of_lt ha]

open Idealize.ShloMosaic.StableHlo.Predicate in
/-- A table of 8 words taken at the sorted labels: row j reads the table at the label of the token at sorted
    position j (a label below 8 is neither wrapped nor clamped). -/
theorem take8_apply (hE : ∀ n, E m c n < 8) (x : IVec S8 32) (j : Fin 2048) :
    Host.gather gather_S8_S2048x1_S2048_n_0_n_n_0_1_1 x
        (broadcastInDim S2048x1 ![0] bcast_S2048_S2048x1_0 (wrapS2048 8#32 (es m c))) (Shape.Idx.ofFin j)
      = x (Shape.Idx.ofFin (⟨E m c (σ m c j), hE _⟩ : Fin 8)) := by
  rw [gather_take gather_S8_S2048x1_S2048_n_0_n_n_0_1_1 rfl rfl rfl rfl x _ j (by norm_num)]
  refine congrArg (fun k : Fin 8 => x (Shape.Idx.ofFin k)) (Fin.ext ?_)
  dsimp only
  rw [wrapcol_apply, es_apply]
  exact Cert.RowGather.wrap_clamp _ _ 8 (hE (σ m c j)) (by norm_num)

open Idealize.ShloMosaic.StableHlo.Predicate in
theorem ppos_apply (hE : ∀ n, E m c n < 8) (j : Fin 2048) :
    (ppos m c (Shape.Idx.ofFin j)).toNat = Cert.Routing.pos 256 (E m c) (σ m c) j := by
  rw [st_ppos, st_rnk]
  show (IntOp.addi (Host.gather gather_S8_S2048x1_S2048_n_0_n_n_0_1_1 (poff m c) _ (Shape.Idx.ofFin j))
    (IntOp.subi (iotaInDim S2048 32 0 (Shape.Idx.ofFin j))
      (Host.gather gather_S8_S2048x1_S2048_n_0_n_n_0_1_1 (offs m c) _ (Shape.Idx.ofFin j)))).toNat = _
  rw [take8_apply m c hE, take8_apply m c hE, iota_apply]
  have hp := poff_apply m c (⟨E m c (σ m c j), hE _⟩ : Fin 8)
  have ho := offs_apply m c (⟨E m c (σ m c j), hE _⟩ : Fin 8)
  -- the rank j - off is a true difference, and the slot is below 4096: nothing wraps
  have hle := Cert.Routing.off_le (E m c) (σ m c) hE (sigma_bij m c) (sigma_mono m c hE) j
  have hlt := Cert.Routing.pos_lt (T := 256) (E m c) (σ m c) (by norm_num) hE (sigma_bij m c) (sigma_mono m c hE) j
  unfold Cert.Routing.pos at hlt ⊢
  simp only [IntOp.addi, IntOp.subi, BitVec.toNat_add, BitVec.toNat_sub, BitVec.toNat_ofNat, hp, ho]
  have hj := j.isLt
  generalize Cert.Routing.poff 256 (E m c) (E m c (σ m c j)) = A at hlt ⊢
  generalize Cert.Routing.off (E m c) (E m c (σ m c j)) = B at hle hlt ⊢
  omega

open Idealize.ShloMosaic.StableHlo.Predicate in
theorem psi_apply (hE : ∀ n, E m c n < 8) (j : Fin 2048) (h : Cert.Routing.pos 256 (E m c) (σ m c) j < 4096) :
    psi m c (Shape.Idx.ofFin (⟨Cert.Routing.pos 256 (E m c) (σ m c) j, h⟩ : Fin 4096)) = BitVec.ofNat 32 (σ m c j).val := by
  have hlt : ∀ i : Fin 2048, Cert.Routing.pos 256 (E m c) (σ m c) i < 4096 := fun i =>
    Cert.Routing.pos_lt (T := 256) (E m c) (σ m c) (by norm_num) hE (sigma_bij m c) (sigma_mono m c hE) i
  have hinj : Function.Injective (fun i : Fin 2048 => (⟨Cert.Routing.pos 256 (E m c) (σ m c) i, hlt i⟩ : Fin 4096)) := by
    intro i₁ i₂ hi
    have hv := congrArg Fin.val hi
    dsimp only at hv
    exact Cert.Routing.pos_injective (T := 256) (E m c) (σ m c) (by norm_num) hE (sigma_bij m c) (sigma_mono m c hE) hv
  have key := Cert.ScatterSet.scatter_set_apply scatter_S4096_S2048x1_S2048_n_0_0_1 rfl rfl rfl
    (broadcastInDim S4096 ![] bcast_S_S4096 (constantI S_ 32 0#32))
    (broadcastInDim S2048x1 ![0] bcast_S2048_S2048x1_0 (wrapS2048 4096#32 (ppos m c))) (sidx m c)
    (fun i : Fin 2048 => (⟨Cert.Routing.pos 256 (E m c) (σ m c) i, hlt i⟩ : Fin 4096))
    (fun i => by
      rw [wrapcol_apply, wrap_toInt _ _ (by rw [ppos_apply m c hE]; have := hlt i; omega), ppos_apply m c hE])
    hinj j
  rw [st_psi]
  rw [sidx_apply] at key
  exact key

open Idealize.ShloMosaic.StableHlo.Predicate in
theorem otp_apply (hE : ∀ n, E m c n < 8) (j : Fin 2048) :
    otp m c (Shape.Idx.ofFin (σ m c j)) = BitVec.ofNat 32 (Cert.Routing.pos 256 (E m c) (σ m c) j) := by
  have hlt : ∀ i : Fin 2048, Cert.Routing.pos 256 (E m c) (σ m c) i < 4096 := fun i =>
    Cert.Routing.pos_lt (T := 256) (E m c) (σ m c) (by norm_num) hE (sigma_bij m c) (sigma_mono m c hE) i
  have hs : ∀ i : Fin 2048, (sidx m c (Shape.Idx.ofFin i)).toNat = (σ m c i).val := fun i => by
    rw [sidx_apply, BitVec.toNat_ofNat]
    have := (σ m c i).isLt
    omega
  have key := Cert.ScatterSet.scatter_set_apply scatter_S2048_S2048x1_S2048_n_0_0_1 rfl rfl rfl
    (broadcastInDim S2048 ![] bcast_S_S2048 (constantI S_ 32 0#32))
    (broadcastInDim S2048x1 ![0] bcast_S2048_S2048x1_0 (wrapS2048 2048#32 (sidx m c))) (ppos m c)
    (σ m c)
    (fun i => by
      rw [wrapcol_apply, wrap_toInt _ _ (by rw [hs]; have := (σ m c i).isLt; omega), hs])
    (sigma_bij m c).1 j
  rw [st_otp, key]
  apply BitVec.eq_of_toNat_eq
  rw [ppos_apply m c hE, BitVec.toNat_ofNat]
  have := hlt j
  omega

end Cert.KernelIdeal.Route

end
-- ==== Proof.KRouteD.lean ====
/-
  The routing words, part four: the per-tile expert table.  Whatever the labels, every entry of the table is below 8;
  for labels below 8, tile t's entry is one less than the number of labels whose padded block starts at or before tile t.
-/
import proofs.«426305_j78847009620271_3_alg».proof.Proof.KRouteB

set_option maxRecDepth 16384

noncomputable section

namespace Cert.KernelIdeal.Route

open Cert.KernelIdeal Cert.KernelIdeal.Gen Cert.KernelIdeal.Stages
open Idealize.ShloMosaic Idealize.ShloMosaic.TcCoe Idealize.SL.Sem

variable {F : FTy → Type} [FloatOps F]
variable (m : (ℓ : Loc nD τ sig) → Buf (Elt F) ℓ) (c : Dev nD)

/-- counting the positions below n with a property, over the finite type or over the range, gives the same number -/
theorem card_fin_filter_eq_range (P : ℕ → Prop) [DecidablePred P] (n : ℕ) :
    (Finset.univ.filter fun k : Fin n => P k.val).card = ((Finset.range n).filter P).card := by
  rw [Finset.card_filter, Finset.card_filter, Fin.sum_univ_eq_sum_range (fun i => if P i then 1 else 0) n]

/-- counting by signed comparison: for a vector y of 8 non-negative words, summing over k the bit  y k ≤ t  gives, at
    tile t, the number of entries of y whose value is at most t -/
theorem count_sle_apply (y : IVec S8 32) (hy : ∀ k : Fin 8, (y (Shape.Idx.ofFin k)).toNat < 2 ^ 31) (t : Fin 16) :
    (Host.reduce IntOp.addi
      (extui 32 (cmpi .sle (broadcastInDim S16x8 ![0, 1] bcast_S1x8_S16x8_0_1 (broadcastInDim S1x8 ![1] bcast_S8_S1x8_1 y))
        (broadcastInDim S16x8 ![0, 1] bcast_S16x1_S16x8_0_1 (broadcastInDim S16x1 ![0] bcast_S16_S16x1_0 (iotaInDim S16 32 0)))) natLt_1_32)
      (constantI S_ 32 0#32) reducesTo_S16x8_S16_d1 h_S_ (Shape.Idx.ofFin t)).toNat
      = (Finset.univ.filter fun k : Fin 8 => (y (Shape.Idx.ofFin k)).toNat ≤ t.val).card := by
  rw [StableHlo.Predicate.toNat_reduce_count_cols (n := 16) (m := 8) (by omega) _ natLt_1_32
    reducesTo_S16x8_S16_d1 h_S_ (Shape.Idx.ofFin t)]
  congr 1
  apply Finset.filter_congr
  intro k _
  have ht : (BitVec.ofNat 32 t.val).toNat = t.val := by
    rw [BitVec.toNat_ofNat]; exact Nat.mod_eq_of_lt (by have := t.isLt; omega)
  -- row t, column k of the mask compares entry k with the word t
  show IntOp.cmpi .sle
      (broadcastInDim S16x8 ![0, 1] bcast_S1x8_S16x8_0_1 (broadcastInDim S1x8 ![1] bcast_S8_S1x8_1 y)
        (StableHlo.Predicate.ij (Shape.Idx.ofFin t 0) k))
      (broadcastInDim S16x8 ![0, 1] bcast_S16x1_S16x8_0_1 (broadcastInDim S16x1 ![0] bcast_S16_S16x1_0 (iotaInDim S16 32 0))
        (StableHlo.Predicate.ij (Shape.Idx.ofFin t 0) k)) = 1#1 ↔ _
  rw [Shape.Idx.ofFin_zero, StableHlo.Predicate.bcast_cols, StableHlo.Predicate.bcast_rows, StableHlo.Predicate.iota_apply,
    StableHlo.Predicate.sle_iff_toNat (hy k) (by rw [ht]; have := t.isLt; omega), ht]

/-- floor division by 256 as the program spells it, at an entry that is not negative -/
theorem fdiv256_apply (x : IVec S8 32) (k : Fin 8) (hx : (x (Shape.Idx.ofFin k)).toNat < 2 ^ 31) :
    (fdiv256 x (Shape.Idx.ofFin k)).toNat = (x (Shape.Idx.ofFin k)).toNat / 256 :=
  Cert.HostInt.floor_divide_apply x
    (broadcastInDim S8 ![] bcast_S_S8 (constantI S_ 32 256#32))
    (broadcastInDim S8 ![] bcast_S_S8 (signi (constantI S_ 32 256#32)))
    (broadcastInDim S8 ![] bcast_S_S8 (constantI S_ 32 0#32))
    (broadcastInDim S8 ![] bcast_S_S8 (constantI S_ 32 1#32))
    (Shape.Idx.ofFin k) rfl (Cert.HostInt.signi_256 (constantI S_ 32 256#32) _ rfl) rfl rfl hx

/-- the clamp of  x - 1  to [0, 7] is below 8, whatever x is -/
theorem clip7_lt (x : IVec S16 32) (t : Fin 16) :
    (minsi (broadcastInDim S16 ![] bcast_S_S16 (constantI S_ 32 7#32))
      (maxsi (broadcastInDim S16 ![] bcast_S_S16 (constantI S_ 32 0#32))
        (subi x (broadcastInDim S16 ![] bcast_S_S16 (constantI S_ 32 1#32)))) (Shape.Idx.ofFin t)).toNat < 8 := by
  have h := Cert.HostInt.clip_range (subi x (broadcastInDim S16 ![] bcast_S_S16 (constantI S_ 32 1#32)))
    (broadcastInDim S16 ![] bcast_S_S16 (constantI S_ 32 0#32)) (broadcastInDim S16 ![] bcast_S_S16 (constantI S_ 32 7#32))
    (Shape.Idx.ofFin t) rfl (by show (7#32 : BitVec 32).toNat < 2 ^ 31; decide)
  have h7 : (broadcastInDim S16 ![] bcast_S_S16 (constantI S_ 32 7#32) (Shape.Idx.ofFin t)).toNat = 7 := rfl
  omega

/-- the clamp of  x - 1  to [0, 7] is  x - 1  when x's value lies between 1 and 8 -/
theorem clip7_apply (x : IVec S16 32) (t : Fin 16) (C : ℕ) (hx : (x (Shape.Idx.ofFin t)).toNat = C) (h1 : 1 ≤ C) (h8 : C ≤ 8) :
    (minsi (broadcastInDim S16 ![] bcast_S_S16 (constantI S_ 32 7#32))
      (maxsi (broadcastInDim S16 ![] bcast_S_S16 (constantI S_ 32 0#32))
        (subi x (broadcastInDim S16 ![] bcast_S_S16 (constantI S_ 32 1#32)))) (Shape.Idx.ofFin t)).toNat = C - 1 := by
  have hW : (subi x (broadcastInDim S16 ![] bcast_S_S16 (constantI S_ 32 1#32)) (Shape.Idx.ofFin t)).toNat = C - 1 := by
    show (IntOp.subi (x (Shape.Idx.ofFin t)) 1#32).toNat = _
    unfold IntOp.subi
    rw [BitVec.toNat_sub, hx]
    simp only [BitVec.toNat_ofNat]
    omega
  have h7 : (broadcastInDim S16 ![] bcast_S_S16 (constantI S_ 32 7#32) (Shape.Idx.ofFin t)).toNat = 7 := rfl
  rw [Cert.HostInt.clip_apply (subi x (broadcastInDim S16 ![] bcast_S_S16 (constantI S_ 32 1#32)))
    (broadcastInDim S16 ![] bcast_S_S16 (constantI S_ 32 0#32)) (broadcastInDim S16 ![] bcast_S_S16 (constantI S_ 32 7#32))
    (Shape.Idx.ofFin t) rfl (by rw [h7]; omega) (by rw [hW, h7]; omega), hW]

theorem eid_lt (t : Fin 16) : (eid m c (Shape.Idx.ofFin t)).toNat < 8 := by
  rw [st_eid]
  exact clip7_lt (tcnt m c) t

/-- every padded start is at most the number of tokens plus eight tiles -/
theorem poff_le_slots (k : ℕ) (hk : k ≤ 8) : Cert.Routing.poff 256 (E m c) k ≤ 4096 := by
  have h1 : Cert.Routing.poff 256 (E m c) k ≤ Cert.Routing.poff 256 (E m c) 8 := Cert.Routing.poff_mono (E m c) hk
  have h2 : Cert.Routing.poff 256 (E m c) 8 ≤ Cert.Routing.off (E m c) 8 + 8 * 256 :=
    Cert.Routing.poff_le (E m c) (by omega) 8
  have h3 : Cert.Routing.off (E m c) 8 ≤ 2048 := by
    rw [Cert.Routing.off_eq_card]
    exact le_trans (Finset.card_le_univ _) (by rw [Fintype.card_fin])
  omega

/-- the tile in which label k's padded block starts -/
theorem ptile_apply (k : Fin 8) : (ptile m c (Shape.Idx.ofFin k)).toNat = Cert.Routing.poff 256 (E m c) k.val / 256 := by
  have hp : (poff m c (Shape.Idx.ofFin k)).toNat < 2 ^ 31 := by
    rw [poff_apply]
    have := poff_le_slots m c k.val (by have := k.isLt; omega)
    omega
  rw [st_ptile, fdiv256_apply (poff m c) k hp, poff_apply]

/-- the number of labels whose padded block starts at or before tile t -/
theorem tcnt_apply (t : Fin 16) : (tcnt m c (Shape.Idx.ofFin t)).toNat
    = ((Finset.range 8).filter fun k => Cert.Routing.poff 256 (E m c) k / 256 ≤ t.val).card := by
  have hy : ∀ k : Fin 8, (ptile m c (Shape.Idx.ofFin k)).toNat < 2 ^ 31 := by
    intro k
    rw [ptile_apply]
    have := poff_le_slots m c k.val (by have := k.isLt; omega)
    have := Nat.div_le_self (Cert.Routing.poff 256 (E m c) k.val) 256
    omega
  have hf : (Finset.univ.filter fun k : Fin 8 => (ptile m c (Shape.Idx.ofFin k)).toNat ≤ t.val)
      = Finset.univ.filter fun k : Fin 8 => Cert.Routing.poff 256 (E m c) k.val / 256 ≤ t.val := by
    apply Finset.filter_congr
    intro k _
    rw [ptile_apply]
  rw [st_tcnt, count_sle_apply (ptile m c) hy t, hf]
  exact card_fin_filter_eq_range (fun k => Cert.Routing.poff 256 (E m c) k / 256 ≤ t.val) 8

theorem eid_apply (hE : ∀ n, E m c n < 8) (t : Fin 16) :
    (eid m c (Shape.Idx.ofFin t)).toNat
      = ((Finset.range 8).filter fun k => Cert.Routing.poff 256 (E m c) k / 256 ≤ t.val).card - 1 := by
  -- label 0's block starts at 0, so at least one label counts; there are 8 labels, so at most 8 do
  have h1 : 1 ≤ ((Finset.range 8).filter fun k => Cert.Routing.poff 256 (E m c) k / 256 ≤ t.val).card := by
    apply Finset.card_pos.2
    refine ⟨0, Finset.mem_filter.2 ⟨Finset.mem_range.2 (by omega), ?_⟩⟩
    have h0 : Cert.Routing.poff 256 (E m c) 0 = 0 := by unfold Cert.Routing.poff; rw [Finset.range_zero, Finset.sum_empty]
    rw [h0]
    exact Nat.zero_le _
  have h8 : ((Finset.range 8).filter fun k => Cert.Routing.poff 256 (E m c) k / 256 ≤ t.val).card ≤ 8 :=
    le_trans (Finset.card_filter_le _ _) (by rw [Finset.card_range])
  rw [st_eid]
  exact clip7_apply (tcnt m c) t _ (tcnt_apply m c t) h1 h8

end Cert.KernelIdeal.Route

end
-- ==== Proof.KRouteF.lean ====
/-
  The routing words, assembled.  For labels below 8 every token n has a slot below 4096 (its token → slot entry); the
  slot → token table sends that slot back to n; and the tile holding the slot carries n's own label in the per-tile
  expert table.
-/
import proofs.«426305_j78847009620271_3_alg».proof.Proof.KRouteC
import proofs.«426305_j78847009620271_3_alg».proof.Proof.KRouteD

set_option maxRecDepth 16384

noncomputable section

namespace Cert.KernelIdeal.Route

open Cert.KernelIdeal Cert.KernelIdeal.Gen Cert.KernelIdeal.Stages
open Idealize.ShloMosaic Idealize.ShloMosaic.TcCoe Idealize.SL.Sem

variable {F : FTy → Type} [FloatOps F]
variable (m : (ℓ : Loc nD τ sig) → Buf (Elt F) ℓ) (c : Dev nD)

/-- the labels never decrease along σ, in the form the combinatorial lemmas take -/
theorem sigma_mono' (hE : ∀ n, E m c n < 8) :
    ∀ i j : Fin 2048, i ≤ j → E m c (σ m c i) ≤ E m c (σ m c j) :=
  fun i j h => sigma_mono m c hE i j h

/-- every slot lies below 2048 + 8 * 256 = 4096 -/
theorem pos_lt_4096 (hE : ∀ n, E m c n < 8) (j : Fin 2048) :
    Cert.Routing.pos 256 (E m c) (σ m c) j < 4096 :=
  Cert.Routing.pos_lt (T := 256) (K := 8) (E m c) (σ m c) (by norm_num) hE (sigma_bij m c) (sigma_mono' m c hE) j

/-- the token → slot word of token σ j, as a natural number, is the slot of sorted position j: the slot is below
    4096, so the 32-bit word holds it exactly -/
theorem otp_toNat (hE : ∀ n, E m c n < 8) (j : Fin 2048) :
    (otp m c (Shape.Idx.ofFin (σ m c j))).toNat = Cert.Routing.pos 256 (E m c) (σ m c) j := by
  have hlt := pos_lt_4096 m c hE j
  rw [otp_apply m c hE j, BitVec.toNat_ofNat]
  exact Nat.mod_eq_of_lt (lt_trans hlt (by norm_num))

theorem otp_lt (hE : ∀ n, E m c n < 8) (n : Fin 2048) : (otp m c (Shape.Idx.ofFin n)).toNat < 4096 := by
  -- every token is σ j for some sorted position j
  obtain ⟨j, rfl⟩ := (sigma_bij m c).2 n
  rw [otp_toNat m c hE j]
  exact pos_lt_4096 m c hE j

theorem psi_otp (hE : ∀ n, E m c n < 8) (n : Fin 2048) :
    (psi m c (Shape.Idx.ofFin (⟨(otp m c (Shape.Idx.ofFin n)).toNat, otp_lt m c hE n⟩ : Fin 4096))).toNat = n.val := by
  obtain ⟨j, rfl⟩ := (sigma_bij m c).2 n
  -- a slot index whose value is the slot of j reads σ j from the slot → token table
  have key : ∀ (v : ℕ) (hv : v < 4096), Cert.Routing.pos 256 (E m c) (σ m c) j = v →
      (psi m c (Shape.Idx.ofFin (⟨v, hv⟩ : Fin 4096))).toNat = (σ m c j).val := by
    intro v hv hv'
    subst hv'
    rw [psi_apply m c hE j hv, BitVec.toNat_ofNat]
    exact Nat.mod_eq_of_lt (lt_trans (σ m c j).isLt (by norm_num))
  exact key _ _ (otp_toNat m c hE j).symm

theorem eid_otp (hE : ∀ n, E m c n < 8) (n : Fin 2048) :
    (eid m c (Shape.Idx.ofFin (⟨(otp m c (Shape.Idx.ofFin n)).toNat / 256,
      (Nat.div_lt_iff_lt_mul (by norm_num)).2 (by have := otp_lt m c hE n; omega)⟩ : Fin 16))).toNat = E m c n := by
  obtain ⟨j, rfl⟩ := (sigma_bij m c).2 n
  -- a tile index whose value is the tile of j's slot carries the label of σ j: exactly  E (σ j) + 1  padded
  -- blocks start at or before that tile
  have key : ∀ (v : ℕ) (hv : v < 16), Cert.Routing.pos 256 (E m c) (σ m c) j / 256 = v →
      (eid m c (Shape.Idx.ofFin (⟨v, hv⟩ : Fin 16))).toNat = E m c (σ m c j) := by
    intro v hv hv'
    subst hv'
    rw [eid_apply m c hE ⟨_, hv⟩]
    simp only [Fin.val_mk]
    rw [Cert.Routing.tile_owner (T := 256) (K := 8) (E m c) (σ m c) (by norm_num) hE (sigma_bij m c)
        (sigma_mono' m c hE) j]
    exact Nat.add_sub_cancel _ _
  exact key _ _ (by rw [otp_toNat m c hE j])

end Cert.KernelIdeal.Route

end
-- ==== Proof.KBlocksDef.lean ====
/-
  The padded output array, as a function.  Tile t of the grid takes rows 256 t … 256 t + 255 of the gathered activations
  and the weight and bias blocks of the expert the per-tile table names; row P of the padded output is the feed-forward
  network of activation row P under the expert of tile P / 256.
-/
import proofs.«426305_j78847009620271_3_alg».proof.Proof.KStages
import proofs.«426305_j78847009620271_3_alg».proof.Proof.Spec
import Idealize.ShloMosaic.Lib.SortFacts
import Idealize.ShloMosaic.Lib.ValueIdx

set_option maxRecDepth 16384

noncomputable section

namespace Cert.KernelIdeal.Blocks

open Cert.KernelIdeal Cert.KernelIdeal.Gen Cert.KernelIdeal.Stages
open Idealize.ShloMosaic Idealize.ShloMosaic.TcCoe Idealize.SL.Sem Idealize.ShloMosaic.ValueIdx

variable (m : (ℓ : Loc nD τ sig) → Buf (Elt Ideal) ℓ) (c : Dev nD)

/-- the tile that holds padded row P -/
def tileOf (P : Fin 4096) : Fin 16 := ⟨P.val / 256, by have := P.isLt; omega⟩
/-- the expert the per-tile table names for padded row P's tile (capped at 7) -/
def rowExpert (P : Fin 4096) : Fin 8 := Cert.Spec.expert (eid m c (Shape.Idx.ofFin (tileOf P)))

/-- the padded output: row P, feature d -/
def Gpad : Buf (Elt Ideal) ((c : Thread nD τ).loc main_v93) := fun i =>
  Cert.Ffn.ffn (fun k : Fin 1024 => xp m c (ix2 (i 0) k))
    (fun (h : Fin 2048) (k : Fin 1024) => w1 m c (ix3 (rowExpert m c (i 0)) h k))
    (fun h : Fin 2048 => b1 m c (ix3 (rowExpert m c (i 0)) 0 h))
    (fun (d : Fin 1024) (h : Fin 2048) => w2 m c (ix3 (rowExpert m c (i 0)) d h))
    (fun d : Fin 1024 => b2 m c (ix3 (rowExpert m c (i 0)) 0 d)) (i 1)

end Cert.KernelIdeal.Blocks

end
-- ==== Proof.KTail.lean ====
/-
  The kernel program's result, given what the pallas_call leaves in the padded output array.  After the pallas_call the host gathers row otp n of the padded output for every token
  n and reshapes the [2048, 1024] rows to [2, 1024, 1024]: the result buffer holds that gather of the padded output, and
  the seven argument arrays end as launched.
-/
import proofs.«426305_j78847009620271_3_alg».proof.Proof.KBlocksDef
import Idealize.ShloMosaic.Lib.Pipeline.Value

set_option maxRecDepth 16384

noncomputable section

namespace Cert.KernelIdeal.Tail

open Cert.KernelIdeal Cert.KernelIdeal.Gen Cert.KernelIdeal.Stages Cert.KernelIdeal.Blocks
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- the result buffer: the padded output's rows gathered back into token order -/
def res (c : Dev nD) : Buf (Elt Ideal) ((c : Thread nD τ).loc main_v101) :=
  shapeCast S2x1024x1024 (Host.gather gather_S4096x1024_S2048x1_S2048x1024_1_0_n_n_0_1_11024 (Gpad m c)
    (broadcastInDim S2048x1 ![0] bcast_S2048_S2048x1_0 (wrapS2048 4096#32 (otp m c)))) shapeCasts_S2048x1024_S2x1024x1024

set_option maxHeartbeats 2000000 in
/-- the host lines after the pallas_call, read at the result buffer -/
theorem tail_eq (hO : Ok m) (c : Dev nD) (hfinal : (dats m hO 0 c).arrAt 5 (cfgM m hO).N = Gpad m c) :
    Pipeline.afterTail pcfgs (fun _ => adm m hO) (dats m hO) 0 (V0 m) [hostOps1] c main_v101 = res m c := by
  unfold Pipeline.afterTail res
  simp only [hostOps1, List.flatten_cons, List.flatten_nil, List.append_nil, List.cons_append, List.nil_append]
  after_results_simp
  have h93 : Pipeline.withArrays (Pipeline.pin pcfgs (fun _ => adm m hO) 0).spec c (V0 m c)
      (fun w => (dats m hO 0 c).arrAt w (Pipeline.pin pcfgs (fun _ => adm m hO) 0).N) (Proc.devRef .tc main_v93) = Gpad m c :=
    (Pipeline.withArrays_arr spec0 (launch0 (F := Ideal)).win.arr_inj c _ _ 5).trans hfinal
  have h67 : Pipeline.withArrays (Pipeline.pin pcfgs (fun _ => adm m hO) 0).spec c (V0 m c)
      (fun w => (dats m hO 0 c).arrAt w (Pipeline.pin pcfgs (fun _ => adm m hO) 0).N) (Proc.devRef .tc main_v67) = otp m c :=
    Pipeline.withArrays_of_ne _ c (V0 m c) _ main_v67 (by exact (by decide : ∀ w, Pipeline.arrRef spec0 w ≠ main_v67))
  rw [h93, h67]
  rfl

/-- THE KERNEL PROGRAM'S RUN with its result named: every weakly fair execution terminates, the result buffer holds the
    gathered padded output, and the arguments end as launched. -/
theorem run (hO : Ok m) (hfinal : ∀ c : Dev nD, (dats m hO 0 c).arrAt 5 (cfgM m hO).N = Gpad m c) :
    θ_run defs (onTc (τ := τ) (main (F := Ideal))) ⟨m, fun _ => 0, ρ⟩ (fun r => ∀ c : Dev nD,
      r.2.mem ((c.tc : Thread nD τ).loc main_v101) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v101 (by decide : main_v101 ∈ Pipeline.restRefs sig spec0)).trans (tail_eq m hO c (hfinal c)),
      ((h c).2 main_arg0 (by decide : main_arg0 ∈ Pipeline.restRefs sig spec0)).trans (W_main_arg0 m hO (dats m hO) c),
      ((h c).2 main_arg1 (by decide : main_arg1 ∈ Pipeline.restRefs sig spec0)).trans (W_main_arg1 m hO (dats m hO) c),
      ((h c).2 main_arg2 (by decide : main_arg2 ∈ Pipeline.restRefs sig spec0)).trans (W_main_arg2 m hO (dats m hO) c),
      ((h c).2 main_arg3 (by decide : main_arg3 ∈ Pipeline.restRefs sig spec0)).trans (W_main_arg3 m hO (dats m hO) c),
      ((h c).2 main_arg4 (by decide : main_arg4 ∈ Pipeline.restRefs sig spec0)).trans (W_main_arg4 m hO (dats m hO) c),
      ((h c).2 main_arg5 (by decide : main_arg5 ∈ Pipeline.restRefs sig spec0)).trans (W_main_arg5 m hO (dats m hO) c),
      ((h c).2 main_arg6 (by decide : main_arg6 ∈ Pipeline.restRefs sig spec0)).trans (W_main_arg6 m hO (dats m hO) c)⟩)
    (run_main m ρ hO)

end Cert.KernelIdeal.Tail

end
-- ==== Proof.KBody.lean ====
/-
  The kernel body's stored block, index by index: row p, feature d of the block is the feed-forward network of row p of
  the activation block under the expert whose weight and bias blocks the body was handed.
-/
import proofs.«426305_j78847009620271_3_alg».proof.Proof.Gen.KernelIdeal.Skeleton
import proofs.«426305_j78847009620271_3_alg».proof.Proof.FfnSpec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Body

open Cert.KernelIdeal Cert.KernelIdeal.Gen
open Idealize.ShloMosaic Idealize.ShloMosaic.ValueIdx

/-! ## The first contraction: activations [256,1024] against weights [2048,1024], axis 1 of both -/

/-- the left operand's row coordinate is the output's row coordinate -/
theorem lhsA_0 (i : S256x2048.Idx) (q : dot_S256x1024_S2048x1024_S256x2048_1_1_0_0_n_n.contr.Idx) :
    (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
/-- the left operand's column coordinate is the contraction position -/
theorem lhsA_1 (i : S256x2048.Idx) (q : dot_S256x1024_S2048x1024_S256x2048_1_1_0_0_n_n.contr.Idx) :
    (dot_S256x1024_S2048x1024_S256x2048_1_1_0_0_n_n.lhsIdx i q 1).val = (q ⟨0, by decide⟩).val :=
  dot_S256x1024_S2048x1024_S256x2048_1_1_0_0_n_n.lhsIdx_val_of_single rfl i q
/-- the right operand's row coordinate is the output's column coordinate -/
theorem rhsA_0 (i : S256x2048.Idx) (q : dot_S256x1024_S2048x1024_S256x2048_1_1_0_0_n_n.contr.Idx) :
    (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
/-- the right operand's column coordinate is the contraction position -/
theorem rhsA_1 (i : S256x2048.Idx) (q : dot_S256x1024_S2048x1024_S256x2048_1_1_0_0_n_n.contr.Idx) :
    (dot_S256x1024_S2048x1024_S256x2048_1_1_0_0_n_n.rhsIdx i q 1).val = (q ⟨0, by decide⟩).val :=
  dot_S256x1024_S2048x1024_S256x2048_1_1_0_0_n_n.rhsIdx_val_of_single rfl i q

/-- the first product into a zero accumulator, at (p, c): the sum over k of a (p, k) * b (c, k) -/
theorem matmulA_apply (a : FVec Ideal S256x1024 .bf16) (b : FVec Ideal S2048x1024 .bf16) (p : Fin 256) (c : Fin 2048) :
    matmul (F := Ideal) dot_S256x1024_S2048x1024_S256x2048_1_1_0_0_n_n none a b (constant (F := Ideal) S256x2048 .f32 0x00000000#32) (ix2 p c)
      = ∑ k : Fin 1024, a (ix2 p k) * b (ix2 c k) := by
  refine (Ideal.matmul_constant_zero_apply dot_S256x1024_S2048x1024_S256x2048_1_1_0_0_n_n none a b (ix2 p c)).trans ?_
  rw [← Equiv.sum_comp (contrEquiv1 dot_S256x1024_S2048x1024_S256x2048_1_1_0_0_n_n 1024 rfl rfl).symm]
  refine Finset.sum_congr rfl fun k _ => ?_
  have hk := contrEquiv1_symm_val dot_S256x1024_S2048x1024_S256x2048_1_1_0_0_n_n 1024 rfl rfl k
  have el : dot_S256x1024_S2048x1024_S256x2048_1_1_0_0_n_n.lhsIdx (ix2 p c) ((contrEquiv1 dot_S256x1024_S2048x1024_S256x2048_1_1_0_0_n_n 1024 rfl rfl).symm k) = ix2 p k :=
    funext fun ax => Fin.ext (by
      match ax with
      | ⟨0, _⟩ => exact lhsA_0 _ _
      | ⟨1, _⟩ => exact (lhsA_1 _ _).trans hk)
  have er : dot_S256x1024_S2048x1024_S256x2048_1_1_0_0_n_n.rhsIdx (ix2 p c) ((contrEquiv1 dot_S256x1024_S2048x1024_S256x2048_1_1_0_0_n_n 1024 rfl rfl).symm k) = ix2 c k :=
    funext fun ax => Fin.ext (by
      match ax with
      | ⟨0, _⟩ => exact rhsA_0 _ _
      | ⟨1, _⟩ => exact (rhsA_1 _ _).trans hk)
  rw [el, er]

/-! ## The second contraction: hidden units [256,2048] against weights [1024,2048], axis 1 of both -/

/-- the left operand's row coordinate is the output's row coordinate -/
theorem lhsB_0 (i : S256x1024.Idx) (q : dot_S256x2048_S1024x2048_S256x1024_1_1_0_0_n_n.contr.Idx) :
    (dot_S256x2048_S1024x2048_S256x1024_1_1_0_0_n_n.lhsIdx i q 0).val = (i 0).val := by
  unfold DotDims.lhsIdx
  rw [dif_neg (show ¬(0 : Fin S256x2048.rank) ∈ dot_S256x2048_S1024x2048_S256x1024_1_1_0_0_n_n.lhsBatch by decide), dif_pos (show (0 : Fin S256x2048.rank) ∈ dot_S256x2048_S1024x2048_S256x1024_1_1_0_0_n_n.lhsNonContracting by decide)]
  rfl
/-- the left operand's column coordinate is the contraction position -/
theorem lhsB_1 (i : S256x1024.Idx) (q : dot_S256x2048_S1024x2048_S256x1024_1_1_0_0_n_n.contr.Idx) :
    (dot_S256x2048_S1024x2048_S256x1024_1_1_0_0_n_n.lhsIdx i q 1).val = (q ⟨0, by decide⟩).val :=
  dot_S256x2048_S1024x2048_S256x1024_1_1_0_0_n_n.lhsIdx_val_of_single rfl i q
/-- the right operand's row coordinate is the output's column coordinate -/
theorem rhsB_0 (i : S256x1024.Idx) (q : dot_S256x2048_S1024x2048_S256x1024_1_1_0_0_n_n.contr.Idx) :
    (dot_S256x2048_S1024x2048_S256x1024_1_1_0_0_n_n.rhsIdx i q 0).val = (i 1).val := by
  unfold DotDims.rhsIdx
  rw [dif_neg (show ¬(0 : Fin S1024x2048.rank) ∈ dot_S256x2048_S1024x2048_S256x1024_1_1_0_0_n_n.rhsBatch by decide), dif_pos (show (0 : Fin S1024x2048.rank) ∈ dot_S256x2048_S1024x2048_S256x1024_1_1_0_0_n_n.rhsNonContracting by decide)]
  rfl
/-- the right operand's column coordinate is the contraction position -/
theorem rhsB_1 (i : S256x1024.Idx) (q : dot_S256x2048_S1024x2048_S256x1024_1_1_0_0_n_n.contr.Idx) :
    (dot_S256x2048_S1024x2048_S256x1024_1_1_0_0_n_n.rhsIdx i q 1).val = (q ⟨0, by decide⟩).val :=
  dot_S256x2048_S1024x2048_S256x1024_1_1_0_0_n_n.rhsIdx_val_of_single rfl i q

/-- the second product into a zero accumulator, at (p, c): the sum over h of a (p, h) * b (c, h) -/
theorem matmulB_apply (a : FVec Ideal S256x2048 .bf16) (b : FVec Ideal S1024x2048 .bf16) (p : Fin 256) (c : Fin 1024) :
    matmul (F := Ideal) dot_S256x2048_S1024x2048_S256x1024_1_1_0_0_n_n none a b (constant (F := Ideal) S256x1024 .f32 0x00000000#32) (ix2 p c)
      = ∑ k : Fin 2048, a (ix2 p k) * b (ix2 c k) := by
  refine (Ideal.matmul_constant_zero_apply dot_S256x2048_S1024x2048_S256x1024_1_1_0_0_n_n none a b (ix2 p c)).trans ?_
  rw [← Equiv.sum_comp (contrEquiv1 dot_S256x2048_S1024x2048_S256x1024_1_1_0_0_n_n 2048 rfl rfl).symm]
  refine Finset.sum_congr rfl fun k _ => ?_
  have hk := contrEquiv1_symm_val dot_S256x2048_S1024x2048_S256x1024_1_1_0_0_n_n 2048 rfl rfl k
  have el : dot_S256x2048_S1024x2048_S256x1024_1_1_0_0_n_n.lhsIdx (ix2 p c) ((contrEquiv1 dot_S256x2048_S1024x2048_S256x1024_1_1_0_0_n_n 2048 rfl rfl).symm k) = ix2 p k :=
    funext fun ax => Fin.ext (by
      match ax with
      | ⟨0, _⟩ => exact lhsB_0 _ _
      | ⟨1, _⟩ => exact (lhsB_1 _ _).trans hk)
  have er : dot_S256x2048_S1024x2048_S256x1024_1_1_0_0_n_n.rhsIdx (ix2 p c) ((contrEquiv1 dot_S256x2048_S1024x2048_S256x1024_1_1_0_0_n_n 2048 rfl rfl).symm k) = ix2 c k :=
    funext fun ax => Fin.ext (by
      match ax with
      | ⟨0, _⟩ => exact rhsB_0 _ _
      | ⟨1, _⟩ => exact (rhsB_1 _ _).trans hk)
  rw [el, er]

/-- the stored block at (p, d) is the feed-forward network of row p -/
theorem pay_apply (x0 : Vec Ideal S256x1024 .bf16) (x1 : Vec Ideal S1x2048x1024 .bf16) (x2 : Vec Ideal S1x1x2048 .f32)
    (x3 : Vec Ideal S1x1024x2048 .bf16) (x4 : Vec Ideal S1x1x1024 .f32) (p : Fin 256) (d : Fin 1024) :
    k0_pay1 (F := Ideal) x0 x1 x2 x3 x4 (ix2 p d)
      = Cert.Ffn.ffn (fun k : Fin 1024 => x0 (ix2 p k)) (fun (h : Fin 2048) (k : Fin 1024) => x1 (ix3 0 h k))
          (fun h : Fin 2048 => x2 (ix3 0 0 h)) (fun (d' : Fin 1024) (h : Fin 2048) => x3 (ix3 0 d' h))
          (fun d' : Fin 1024 => x4 (ix3 0 0 d')) d := by
  unfold k0_pay1
  refine (addf_apply _ _ _).trans ?_
  unfold Cert.Ffn.ffn
  refine congrArg₂ (· + ·) ?_ ?_
  · -- the second product, term by term
    refine (matmulB_apply _ _ p d).trans ?_
    refine Finset.sum_congr rfl fun h _ => ?_
    refine congrArg₂ (· * ·) ?_ ?_
    · -- hidden unit h of row p
      refine (truncf_apply (φ := .f32) (ψ := .bf16) _ bitsLt_bf16_f32 (ix2 p h)).trans ?_
      refine (maximumf_apply _ _ _).trans ?_
      unfold Cert.Ffn.hid
      refine congrArg₂ max ?_ rfl
      refine (addf_apply _ _ _).trans ?_
      refine congrArg₂ (· + ·) ?_ ?_
      · refine (matmulA_apply _ _ p h).trans ?_
        refine Finset.sum_congr rfl fun k _ => ?_
        refine congrArg₂ (· * ·) ?_ ?_
        · exact congrFun (shapeCast_self x0 _) (ix2 p k)
        · exact shapeCast_1ab_ab_apply x1 _ h k
      · refine (broadcastTo_1b_ab_apply _ _ p h).trans ?_
        exact shapeCast_1ab_ab_apply x2 _ 0 h
    · exact shapeCast_1ab_ab_apply x3 _ d h
  · -- the second bias, one row down all rows
    refine (broadcastTo_1b_ab_apply _ _ p d).trans ?_
    exact shapeCast_1ab_ab_apply x4 _ 0 d

end Cert.KernelIdeal.Body

end
-- ==== Proof.KBlocks.lean ====
/-
  The padded output array the pallas_call leaves.  Tile t of the grid takes rows 256 t … 256 t + 255 of the gathered
  activations and the weight and bias blocks of the expert the per-tile table names; its body stores the feed-forward
  network of every row.  The sixteen tiles cover the 4096 padded rows, so row P of the array is the network of
  activation row P under the expert of tile P / 256.
-/
import proofs.«426305_j78847009620271_3_alg».proof.Proof.KStages
import proofs.«426305_j78847009620271_3_alg».proof.Proof.KBody
import proofs.«426305_j78847009620271_3_alg».proof.Proof.Spec
import proofs.«426305_j78847009620271_3_alg».proof.Proof.KBlocksDef
import Idealize.ShloMosaic.Lib.Pipeline.Value
import Idealize.ShloMosaic.Lib.SortFacts

set_option maxRecDepth 16384

noncomputable section

namespace Cert.KernelIdeal.Blocks

open Cert.KernelIdeal Cert.KernelIdeal.Gen Cert.KernelIdeal.Stages
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

open Idealize.ShloMosaic.Tactic

/-- zero offsets, rank 2 and rank 3 -/
theorem hz2 : (![0, 0] : Fin 2 → Nat) = fun _ => 0 := funext fun a => by fin_cases a <;> rfl
theorem hz3 : (![0, 0, 0] : Fin 3 → Nat) = fun _ => 0 := funext fun a => by fin_cases a <;> rfl

/-- what the body leaves in the output's staging buffer: its one stored value, of the five loaded blocks -/
theorem out_eq (i : grid0.Coords) (arg2 : Memref sig .tc .vmem S256x1024 .bf16) (harg2 : arg2.IsWhole) (arg3 : Memref sig .tc .vmem S1x2048x1024 .bf16) (harg3 : arg3.IsWhole) (arg4 : Memref sig .tc .vmem S1x1x2048 .f32) (harg4 : arg4.IsWhole) (arg5 : Memref sig .tc .vmem S1x1024x2048 .bf16) (harg5 : arg5.IsWhole) (arg6 : Memref sig .tc .vmem S1x1x1024 .f32) (harg6 : arg6.IsWhole) (arg7 : Memref sig .tc .vmem S256x1024 .f32) (harg7 : arg7.IsWhole)
    (x0 : Vec Ideal S256x1024 .bf16) (x1 : Vec Ideal S1x2048x1024 .bf16) (x2 : Vec Ideal S1x1x2048 .f32) (x3 : Vec Ideal S1x1024x2048 .bf16) (x4 : Vec Ideal S1x1x1024 .f32) (xt0 : TbBuf0 (F := Ideal) c tbM0_0) :
    out0_A_5 (F := Ideal) c i arg2 harg2 arg3 harg3 arg4 harg4 arg5 harg5 arg6 harg6 arg7 harg7 x0 x1 x2 x3 x4 xt0 = k0_pay1 (F := Ideal) x0 x1 x2 x3 x4 := by
  unfold out0_A_5
  rw [View.read_writes_eq_canon _ _ _ (cover0_A_5 c i arg2 harg2 arg3 harg3 arg4 harg4 arg5 harg5 arg6 harg6 arg7 harg7 x0 x1 x2 x3 x4 xt0)]
  unfold kernelRun0_A
  dsimp only
  sl_unfold_words
  rw [View.canon_unit_zero hz2]
  simp only [View.readAt_eq_ld, Memref.IsWhole.read_unread, View.ld_unit_zero (S := S256x1024) hz2,
    View.ld_unit_zero (S := S1x2048x1024) hz3, View.ld_unit_zero (S := S1x1x2048) hz3,
    View.ld_unit_zero (S := S1x1024x2048) hz3, View.ld_unit_zero (S := S1x1x1024) hz3]

/-! ## The index maps at a tile -/

/-- the activations' block index at tile t is (t, 0) -/
theorem ix_in (t : Fin grid0.N) : cc0_transform_0 (grid0.coords t) = ![t.val, 0] := by revert t; decide +kernel
/-- and so is the output's -/
theorem ix_out (t : Fin grid0.N) : cc0_transform_5 (grid0.coords t) = ![t.val, 0] := by revert t; decide +kernel
/-- the table is read at offset t -/
theorem off_tab (t : Fin grid0.N) : k0_off1 (grid0.coords t) = ![t.val] := by revert t; decide +kernel

/-- the word an index map reads off the table at tile t is the table's entry t -/
theorem word_at (pf : pre0.Contents (Elt Ideal)) (t : Fin grid0.N) (inb : ∀ a, (k0_off1 (grid0.coords t)) a + S1.size a ≤ S16.size a) (h1 : S1.numel = 1) :
    pf.at 0 (Rect.unit (s := S16) (k0_off1 (grid0.coords t)) S1.size inb) h1 = pf 0 (Shape.Idx.ofFin t) := by
  show pf 0 _ = pf 0 _
  refine congrArg (pf 0) ?_
  refine (Shape.Idx.eq_ofFin _).trans (congrArg Shape.Idx.ofFin (Fin.ext ?_))
  have h0 : (Shape.Idx.first (s := S1) (h1.symm ▸ Nat.one_pos) (0 : Fin 1)).val = 0 := by
    have := (Shape.Idx.first (s := S1) (h1.symm ▸ Nat.one_pos) (0 : Fin 1)).isLt
    have e : S1.size (0 : Fin 1) = 1 := by decide
    omega
  show k0_off1 (grid0.coords t) 0 + 1 * (Shape.Idx.first (s := S1) (h1.symm ▸ Nat.one_pos) (0 : Fin 1)).val = t.val
  rw [h0, off_tab t]
  rfl

/-- the weight and bias windows' block index at tile t is (the table's entry t, 0, 0) -/
theorem ix_tab1 (pf : pre0.Contents (Elt Ideal)) (t : Fin grid0.N) :
    cc0_transform_1 k0_off1_inb numel1_S1 pf (grid0.coords t) = ![(pf 0 (Shape.Idx.ofFin t)).toNat, 0, 0] := by
  unfold cc0_transform_1
  dsimp only
  exact congrArg (fun w : BitVec 32 => (![w.toNat, 0, 0] : Fin 3 → Nat)) (word_at pf t _ _)
theorem ix_tab2 (pf : pre0.Contents (Elt Ideal)) (t : Fin grid0.N) :
    cc0_transform_2 k0_off1_inb numel1_S1 pf (grid0.coords t) = ![(pf 0 (Shape.Idx.ofFin t)).toNat, 0, 0] := by
  unfold cc0_transform_2
  dsimp only
  exact congrArg (fun w : BitVec 32 => (![w.toNat, 0, 0] : Fin 3 → Nat)) (word_at pf t _ _)
theorem ix_tab3 (pf : pre0.Contents (Elt Ideal)) (t : Fin grid0.N) :
    cc0_transform_3 k0_off1_inb numel1_S1 pf (grid0.coords t) = ![(pf 0 (Shape.Idx.ofFin t)).toNat, 0, 0] := by
  unfold cc0_transform_3
  dsimp only
  exact congrArg (fun w : BitVec 32 => (![w.toNat, 0, 0] : Fin 3 → Nat)) (word_at pf t _ _)
theorem ix_tab4 (pf : pre0.Contents (Elt Ideal)) (t : Fin grid0.N) :
    cc0_transform_4 k0_off1_inb numel1_S1 pf (grid0.coords t) = ![(pf 0 (Shape.Idx.ofFin t)).toNat, 0, 0] := by
  unfold cc0_transform_4
  dsimp only
  exact congrArg (fun w : BitVec 32 => (![w.toNat, 0, 0] : Fin 3 → Nat)) (word_at pf t _ _)

/-- the table's entry at every tile is below 8 when the pipeline's side condition holds -/
theorem word_lt (pf : pre0.Contents (Elt Ideal)) (h : ok0 pf) (t : Fin grid0.N) : (pf 0 (Shape.Idx.ofFin t)).toNat < 8 := by
  obtain ⟨hb, -⟩ := h.1 (grid0.coords t)
  have h0 := hb 0
  rw [ix_tab1] at h0
  have e : ((pf 0 (Shape.Idx.ofFin t)).toNat + 1) * 1 ≤ 8 := h0
  omega

/-! ## The blocks the pipeline hands the body at tile t, read at an index -/

/-- activations: rows 256 t … 256 t + 255 -/
theorem blk0_read (a : (pcfg0 (F := Ideal)).Adm) (t : Fin (cfg0 a).N) (X : (((cfg0 a).win 0).blk t).view.ty.Contents (Elt Ideal)) (r : Fin 256) (k : Fin 1024) :
    (((cfg0 a).win 0).blk t).view.read (Elt Ideal) X (ix2 r k)
      = X (ix2 (⟨256 * t.val + r.val, by have := t.isLt; have := r.isLt; have e : (cfg0 a).N = 16 := rfl; omega⟩ : Fin 4096) k) := by
  show X ((((cfg0 a).win 0).blk t).view.emb (ix2 r k)) = X _
  refine congrArg X ?_
  funext ax
  apply Fin.ext
  match ax with
  | ⟨0, _⟩ =>
    show cc0_transform_0 (grid0.coords t) 0 * 256 + 1 * r.val = 256 * t.val + r.val
    rw [ix_in]; show t.val * 256 + 1 * r.val = _; omega
  | ⟨1, _⟩ =>
    show cc0_transform_0 (grid0.coords t) 1 * 1024 + 1 * k.val = k.val
    rw [ix_in]; show 0 * 1024 + 1 * k.val = _; omega

/-- first-layer weights: the block of the expert the table names at tile t -/
theorem blk1_read (a : (pcfg0 (F := Ideal)).Adm) (pf : pre0.Contents (Elt Ideal)) (hpf : a.1 = pf) (t : Fin (cfg0 a).N)
    (X : (((cfg0 a).win 1).blk t).view.ty.Contents (Elt Ideal))
    (hw : (pf 0 (Shape.Idx.ofFin (t : Fin grid0.N))).toNat < 8) (i : Fin 2048) (j : Fin 1024) :
    (((cfg0 a).win 1).blk t).view.read (Elt Ideal) X (ix3 (0 : Fin 1) i j)
      = X (ix3 (⟨(pf 0 (Shape.Idx.ofFin (t : Fin grid0.N))).toNat, hw⟩ : Fin 8) i j) := by
  subst hpf
  show X ((((cfg0 a).win 1).blk t).view.emb (ix3 (0 : Fin 1) i j)) = X _
  refine congrArg X ?_
  funext ax
  apply Fin.ext
  match ax with
  | ⟨0, _⟩ =>
    show cc0_transform_1 k0_off1_inb numel1_S1 a.1 (grid0.coords t) 0 * 1 + 1 * 0 = (a.1 0 (Shape.Idx.ofFin (t : Fin grid0.N))).toNat
    rw [ix_tab1]; show (a.1 0 (Shape.Idx.ofFin (t : Fin grid0.N))).toNat * 1 + 1 * 0 = _; omega
  | ⟨1, _⟩ =>
    show cc0_transform_1 k0_off1_inb numel1_S1 a.1 (grid0.coords t) 1 * 2048 + 1 * i.val = i.val
    rw [ix_tab1]; show 0 * 2048 + 1 * i.val = _; omega
  | ⟨2, _⟩ =>
    show cc0_transform_1 k0_off1_inb numel1_S1 a.1 (grid0.coords t) 2 * 1024 + 1 * j.val = j.val
    rw [ix_tab1]; show 0 * 1024 + 1 * j.val = _; omega

/-- first-layer bias: that expert's row -/
theorem blk2_read (a : (pcfg0 (F := Ideal)).Adm) (pf : pre0.Contents (Elt Ideal)) (hpf : a.1 = pf) (t : Fin (cfg0 a).N)
    (X : (((cfg0 a).win 2).blk t).view.ty.Contents (Elt Ideal))
    (hw : (pf 0 (Shape.Idx.ofFin (t : Fin grid0.N))).toNat < 8) (i : Fin 1) (j : Fin 2048) :
    (((cfg0 a).win 2).blk t).view.read (Elt Ideal) X (ix3 (0 : Fin 1) i j)
      = X (ix3 (⟨(pf 0 (Shape.Idx.ofFin (t : Fin grid0.N))).toNat, hw⟩ : Fin 8) i j) := by
  subst hpf
  show X ((((cfg0 a).win 2).blk t).view.emb (ix3 (0 : Fin 1) i j)) = X _
  refine congrArg X ?_
  funext ax
  apply Fin.ext
  match ax with
  | ⟨0, _⟩ =>
    show cc0_transform_2 k0_off1_inb numel1_S1 a.1 (grid0.coords t) 0 * 1 + 1 * 0 = (a.1 0 (Shape.Idx.ofFin (t : Fin grid0.N))).toNat
    rw [ix_tab2]; show (a.1 0 (Shape.Idx.ofFin (t : Fin grid0.N))).toNat * 1 + 1 * 0 = _; omega
  | ⟨1, _⟩ =>
    show cc0_transform_2 k0_off1_inb numel1_S1 a.1 (grid0.coords t) 1 * 1 + 1 * i.val = i.val
    rw [ix_tab2]; show 0 * 1 + 1 * i.val = _; omega
  | ⟨2, _⟩ =>
    show cc0_transform_2 k0_off1_inb numel1_S1 a.1 (grid0.coords t) 2 * 2048 + 1 * j.val = j.val
    rw [ix_tab2]; show 0 * 2048 + 1 * j.val = _; omega

/-- second-layer weights: that expert's block -/
theorem blk3_read (a : (pcfg0 (F := Ideal)).Adm) (pf : pre0.Contents (Elt Ideal)) (hpf : a.1 = pf) (t : Fin (cfg0 a).N)
    (X : (((cfg0 a).win 3).blk t).view.ty.Contents (Elt Ideal))
    (hw : (pf 0 (Shape.Idx.ofFin (t : Fin grid0.N))).toNat < 8) (i : Fin 1024) (j : Fin 2048) :
    (((cfg0 a).win 3).blk t).view.read (Elt Ideal) X (ix3 (0 : Fin 1) i j)
      = X (ix3 (⟨(pf 0 (Shape.Idx.ofFin (t : Fin grid0.N))).toNat, hw⟩ : Fin 8) i j) := by
  subst hpf
  show X ((((cfg0 a).win 3).blk t).view.emb (ix3 (0 : Fin 1) i j)) = X _
  refine congrArg X ?_
  funext ax
  apply Fin.ext
  match ax with
  | ⟨0, _⟩ =>
    show cc0_transform_3 k0_off1_inb numel1_S1 a.1 (grid0.coords t) 0 * 1 + 1 * 0 = (a.1 0 (Shape.Idx.ofFin (t : Fin grid0.N))).toNat
    rw [ix_tab3]; show (a.1 0 (Shape.Idx.ofFin (t : Fin grid0.N))).toNat * 1 + 1 * 0 = _; omega
  | ⟨1, _⟩ =>
    show cc0_transform_3 k0_off1_inb numel1_S1 a.1 (grid0.coords t) 1 * 1024 + 1 * i.val = i.val
    rw [ix_tab3]; show 0 * 1024 + 1 * i.val = _; omega
  | ⟨2, _⟩ =>
    show cc0_transform_3 k0_off1_inb numel1_S1 a.1 (grid0.coords t) 2 * 2048 + 1 * j.val = j.val
    rw [ix_tab3]; show 0 * 2048 + 1 * j.val = _; omega

/-- second-layer bias: that expert's row -/
theorem blk4_read (a : (pcfg0 (F := Ideal)).Adm) (pf : pre0.Contents (Elt Ideal)) (hpf : a.1 = pf) (t : Fin (cfg0 a).N)
    (X : (((cfg0 a).win 4).blk t).view.ty.Contents (Elt Ideal))
    (hw : (pf 0 (Shape.Idx.ofFin (t : Fin grid0.N))).toNat < 8) (i : Fin 1) (j : Fin 1024) :
    (((cfg0 a).win 4).blk t).view.read (Elt Ideal) X (ix3 (0 : Fin 1) i j)
      = X (ix3 (⟨(pf 0 (Shape.Idx.ofFin (t : Fin grid0.N))).toNat, hw⟩ : Fin 8) i j) := by
  subst hpf
  show X ((((cfg0 a).win 4).blk t).view.emb (ix3 (0 : Fin 1) i j)) = X _
  refine congrArg X ?_
  funext ax
  apply Fin.ext
  match ax with
  | ⟨0, _⟩ =>
    show cc0_transform_4 k0_off1_inb numel1_S1 a.1 (grid0.coords t) 0 * 1 + 1 * 0 = (a.1 0 (Shape.Idx.ofFin (t : Fin grid0.N))).toNat
    rw [ix_tab4]; show (a.1 0 (Shape.Idx.ofFin (t : Fin grid0.N))).toNat * 1 + 1 * 0 = _; omega
  | ⟨1, _⟩ =>
    show cc0_transform_4 k0_off1_inb numel1_S1 a.1 (grid0.coords t) 1 * 1 + 1 * i.val = i.val
    rw [ix_tab4]; show 0 * 1 + 1 * i.val = _; omega
  | ⟨2, _⟩ =>
    show cc0_transform_4 k0_off1_inb numel1_S1 a.1 (grid0.coords t) 2 * 1024 + 1 * j.val = j.val
    rw [ix_tab4]; show 0 * 1024 + 1 * j.val = _; omega

/-- the output's block at tile t: rows 256 t … 256 t + 255 of the array -/
theorem blk5_read (a : (pcfg0 (F := Ideal)).Adm) (t : Fin (cfg0 a).N) (X : (((cfg0 a).win 5).blk t).view.ty.Contents (Elt Ideal)) (r : Fin 256) (k : Fin 1024) :
    (((cfg0 a).win 5).blk t).view.read (Elt Ideal) X (ix2 r k)
      = X (ix2 (⟨256 * t.val + r.val, by have := t.isLt; have := r.isLt; have e : (cfg0 a).N = 16 := rfl; omega⟩ : Fin 4096) k) := by
  show X ((((cfg0 a).win 5).blk t).view.emb (ix2 r k)) = X _
  refine congrArg X ?_
  funext ax
  apply Fin.ext
  match ax with
  | ⟨0, _⟩ =>
    show cc0_transform_5 (grid0.coords t) 0 * 256 + 1 * r.val = 256 * t.val + r.val
    rw [ix_out]; show t.val * 256 + 1 * r.val = _; omega
  | ⟨1, _⟩ =>
    show cc0_transform_5 (grid0.coords t) 1 * 1024 + 1 * k.val = k.val
    rw [ix_out]; show 0 * 1024 + 1 * k.val = _; omega

/-! ## The tiles cover the output array -/

/-- an index of the array is in tile t's block iff each coordinate is in the block's range on its axis -/
theorem mem_blk5 (a : (pcfg0 (F := Ideal)).Adm) (t : Fin (cfg0 a).N) (i : S4096x1024.Idx) :
    i ∈ (((cfg0 a).win 5).blk t).view.set ↔ ∀ ax : Fin 2, cc0_transform_5 (grid0.coords t) ax * S256x1024.size ax ≤ (i ax).val
      ∧ (i ax).val < cc0_transform_5 (grid0.coords t) ax * S256x1024.size ax + S256x1024.size ax := by
  refine Iff.trans (Eq.to_iff (congrArg (fun s => i ∈ s) (View.set_slice_whole main_v93 (((cfg0 a).win 5).rect t)))) ?_
  exact Rect.mem_set_unit

/-- row P of the array is in tile P / 256's block -/
theorem cover5 (a : (pcfg0 (F := Ideal)).Adm) (i : S4096x1024.Idx) :
    ∃ t : Fin (cfg0 a).N, ((cfg0 a).win 5).flush t = true ∧ i ∈ (((cfg0 a).win 5).blk t).view.set := by
  have hi0 : (i 0).val < 4096 := (i 0).isLt
  have hi1 : (i 1).val < 1024 := (i 1).isLt
  refine ⟨⟨(i 0).val / 256, by show (i 0).val / 256 < 16; omega⟩, flush0_5 a _, ?_⟩
  refine (mem_blk5 a _ i).mpr ?_
  intro ax
  match ax with
  | ⟨0, _⟩ =>
    rw [ix_out]
    show (i 0).val / 256 * 256 ≤ (i 0).val ∧ (i 0).val < (i 0).val / 256 * 256 + 256
    omega
  | ⟨1, _⟩ =>
    rw [ix_out]
    show 0 * 1024 ≤ (i 1).val ∧ (i 1).val < 0 * 1024 + 1024
    omega

/-! ## What tile t writes back, and the array after the last tile -/

/-- the network at inputs equal entry by entry -/
theorem ffn_congr {D H : ℕ} {x x' : Fin D → EReal} {W1 W1' : Fin H → Fin D → EReal} {b1 b1' : Fin H → EReal}
    {W2 W2' : Fin D → Fin H → EReal} {b2 b2' : Fin D → EReal} (d : Fin D)
    (hx : ∀ k, x k = x' k) (hW1 : ∀ h k, W1 h k = W1' h k) (hb1 : ∀ h, b1 h = b1' h) (hW2 : ∀ d h, W2 d h = W2' d h)
    (hb2 : ∀ d, b2 d = b2' d) : Cert.Ffn.ffn x W1 b1 W2 b2 d = Cert.Ffn.ffn x' W1' b1' W2' b2' d := by
  obtain rfl : x = x' := funext hx
  obtain rfl : W1 = W1' := funext fun h => funext (hW1 h)
  obtain rfl : b1 = b1' := funext hb1
  obtain rfl : W2 = W2' := funext fun d => funext (hW2 d)
  obtain rfl : b2 = b2' := funext hb2
  rfl

/-- the table the pipeline reads is the per-tile expert table -/
theorem tbl_eq : tbl m 0 = eid m c := (V_pre m c 0).symm

/-- the expert of every row of tile t is the table's entry t, when that entry is below 8 -/
theorem expert_eq (t : Fin grid0.N) (w : BitVec 32) (hwt : eid m c (Shape.Idx.ofFin t) = w) (hw : w.toNat < 8) (r : Fin 256)
    (hP : 256 * t.val + r.val < 4096) : (⟨w.toNat, hw⟩ : Fin 8) = rowExpert m c ⟨256 * t.val + r.val, hP⟩ := by
  have ht : tileOf ⟨256 * t.val + r.val, hP⟩ = t := Fin.ext (by
    show (256 * t.val + r.val) / 256 = t.val
    have := r.isLt; omega)
  unfold rowExpert
  rw [ht, hwt]
  unfold Cert.Spec.expert
  refine Fin.ext ?_
  show w.toNat = min w.toNat 7
  omega

set_option maxHeartbeats 400000 in
/-- what tile t writes back is its block of the padded output -/
theorem flushed_eq (hO : Ok m) (t : Fin (cfgM m hO).N) :
    (dats m hO 0 c).flushed 5 t = (((cfgM m hO).win 5).blk t).view.read (Elt Ideal) (Gpad m c) := by
  show ((cfgM m hO).win 5).cut ((cfgM m hO).grid.coords t) ((dats m hO 0 c).after 5 t) = _
  rw [after0_5]
  unfold outsAt0
  rw [out_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0)]
  funext j
  obtain ⟨r, d, rfl⟩ : ∃ (r : Fin 256) (d : Fin 1024), j = ix2 r d := ⟨_, _, eq_ix2 (n0 := 256) (n1 := 1024) j⟩
  have hw : (tbl m 0 (Shape.Idx.ofFin (t : Fin grid0.N))).toNat < 8 := word_lt (tbl m) hO t
  have hP : 256 * t.val + r.val < 4096 := by
    have h1 : t.val < 16 := t.isLt
    have h2 := r.isLt
    omega
  have hE := expert_eq m c t (tbl m 0 (Shape.Idx.ofFin (t : Fin grid0.N))) (congrFun (tbl_eq m c).symm _) hw r hP
  refine (Cert.KernelIdeal.Body.pay_apply (iblk m hO c 0 t) (iblk m hO c 1 t) (iblk m hO c 2 t) (iblk m hO c 3 t) (iblk m hO c 4 t) r d).trans ?_
  refine Eq.trans ?_ (blk5_read (adm m hO) t (Gpad m c) r d).symm
  unfold Gpad
  refine ffn_congr d (fun k => ?_) (fun h k => ?_) (fun h => ?_) (fun d' h => ?_) (fun d' => ?_)
  · exact blk0_read (adm m hO) t (V m c (Pipeline.arrRef spec0 0)) r k
  · exact (blk1_read (adm m hO) (tbl m) rfl t (V m c (Pipeline.arrRef spec0 1)) hw h k).trans
      (congrArg (fun e => w1 m c (ix3 e h k)) hE)
  · exact (blk2_read (adm m hO) (tbl m) rfl t (V m c (Pipeline.arrRef spec0 2)) hw 0 h).trans
      (congrArg (fun e => b1 m c (ix3 e 0 h)) hE)
  · exact (blk3_read (adm m hO) (tbl m) rfl t (V m c (Pipeline.arrRef spec0 3)) hw d' h).trans
      (congrArg (fun e => w2 m c (ix3 e d' h)) hE)
  · exact (blk4_read (adm m hO) (tbl m) rfl t (V m c (Pipeline.arrRef spec0 4)) hw 0 d').trans
      (congrArg (fun e => b2 m c (ix3 e 0 d')) hE)

/-- after the last tile the output array holds the padded output -/
theorem final (hO : Ok m) : (dats m hO 0 c).arrAt 5 (cfgM m hO).N = Gpad m c := by
  exact (dats m hO 0 c).arrAt_eq_of_cover 5 (Gpad m c) (fun t _ => flushed_eq m c hO t) (cover5 (adm m hO))

end Cert.KernelIdeal.Blocks

end
-- ==== Proof.KResult.lean ====
/-
  The gathered padded output is the routed feed-forward output.  Token n = 1024 b + s reads padded row otp n; that row is
  the network of activation row psi (otp n) = n, i.e. of x[b, s, :], under the expert of tile otp n / 256, which is the
  token's own label: the result is the specification's function of the arguments.
-/
import proofs.«426305_j78847009620271_3_alg».proof.Proof.KBlocksDef
import proofs.«426305_j78847009620271_3_alg».proof.Proof.LibRowGather
import Idealize.ShloMosaic.Lib.StableHlo.Predicate
import Idealize.ShloMosaic.Lib.Pipeline.Value
import Idealize.ShloMosaic.Lib.ValueLayout

set_option maxRecDepth 16384

noncomputable section

namespace Cert.KernelIdeal.Result

open Cert.KernelIdeal Cert.KernelIdeal.Gen Cert.KernelIdeal.Stages Cert.KernelIdeal.Blocks
open Idealize.ShloMosaic Idealize.ShloMosaic.TcCoe Idealize.SL.Sem Idealize.ShloMosaic.ValueIdx

variable (m : (ℓ : Loc nD τ sig) → Buf (Elt Ideal) ℓ) (c : Dev nD)

/-- the expert label of every token, as the [2, 1024] array the hash table is gathered into -/
def lab : IVec S2x1024 32 :=
  Host.gather gather_S32000_S2x1024x1_S2x1024_n_0_n_n_0_2_1 (tab m c)
    (broadcastInDim S2x1024x1 ![0, 1] bcast_S2x1024_S2x1024x1_0_1
      (select (cmpi .slt (tok m c) (broadcastInDim S2x1024 ![] bcast_S_S2x1024 (constantI S_ 32 0#32)))
        (addi (tok m c) (broadcastInDim S2x1024 ![] bcast_S_S2x1024 (constantI S_ 32 32000#32))) (tok m c)))

/-- token n = 1024 b + s -/
def tokenOf (b : Fin 2) (s : Fin 1024) : Fin 2048 := ⟨b.val * 1024 + s.val, by have := b.isLt; have := s.isLt; omega⟩

/-! ### reads of the reshapes, index columns and row gathers, over any arrays -/

section reads
variable {α : Type}

/-- row p of a one-column array -/
theorem ix2_zero_eq {n : ℕ} (p : Fin n) : ix2 p (0 : Fin 1) = StableHlo.Predicate.ixP p := by
  funext a; match a with | ⟨0, _⟩ => rfl | ⟨1, _⟩ => rfl

/-- [2048, 1024] reshaped to [2, 1024, 1024] is row-major: (b, s, d) reads row 1024 b + s, column d -/
theorem cast_out_apply (Y : S2048x1024.Idx → α) (b : Fin 2) (s : Fin 1024) (d : Fin 1024) :
    shapeCast S2x1024x1024 Y shapeCasts_S2048x1024_S2x1024x1024 (ix3 b s d) = Y (ix2 (tokenOf b s) d) :=
  shapeCast_apply Y _ _ _ (by
    rw [Shape.rowMajor_val_two, Shape.rowMajor_val_three]
    show (b.val * 1024 + s.val) * 1024 + d.val = (b.val * 1024 + s.val) * 1024 + d.val
    rfl)

/-- [2, 1024, 1024] reshaped to [2048, 1024]: row 1024 b + s, column k reads (b, s, k) -/
theorem cast_in_apply (X : S2x1024x1024.Idx → α) (b : Fin 2) (s : Fin 1024) (k : Fin 1024) :
    shapeCast S2048x1024 X shapeCasts_S2x1024x1024_S2048x1024 (ix2 (tokenOf b s) k) = X (ix3 b s k) :=
  shapeCast_apply X _ _ _ (by
    rw [Shape.rowMajor_val_two, Shape.rowMajor_val_three]
    show (b.val * 1024 + s.val) * 1024 + k.val = (b.val * 1024 + s.val) * 1024 + k.val
    rfl)

/-- [8, 2048] with a unit axis put in the middle -/
theorem cast_b1_apply (B : S8x2048.Idx → α) (q : Fin 8) (u : Fin 1) (h : Fin 2048) :
    shapeCast S8x1x2048 B shapeCasts_S8x2048_S8x1x2048 (ix3 q u h) = B (ix2 q h) :=
  shapeCast_apply B _ _ _ (by
    have hu : u.val = 0 := by omega
    rw [Shape.rowMajor_val_two, Shape.rowMajor_val_three]
    show q.val * 2048 + h.val = (q.val * 1 + u.val) * 2048 + h.val
    rw [hu]; omega)

/-- [8, 1024] with a unit axis put in the middle -/
theorem cast_b2_apply (B : S8x1024.Idx → α) (q : Fin 8) (u : Fin 1) (d : Fin 1024) :
    shapeCast S8x1x1024 B shapeCasts_S8x1024_S8x1x1024 (ix3 q u d) = B (ix2 q d) :=
  shapeCast_apply B _ _ _ (by
    have hu : u.val = 0 := by omega
    rw [Shape.rowMajor_val_two, Shape.rowMajor_val_three]
    show q.val * 1024 + d.val = (q.val * 1 + u.val) * 1024 + d.val
    rw [hu]; omega)

/-- the index column made from a 2048-vector of words wrapped the NumPy way, read at row n -/
theorem col2048_apply (w : BitVec 32) (t : IVec S2048 32) (n : Fin 2048) :
    broadcastInDim S2048x1 ![0] bcast_S2048_S2048x1_0 (wrapS2048 w t) (ix2 n (0 : Fin 1))
      = Scalar.select (IntOp.cmpi .slt (t (Shape.Idx.ofFin n)) 0#32) (IntOp.addi (t (Shape.Idx.ofFin n)) w)
          (t (Shape.Idx.ofFin n)) := by
  rw [ix2_zero_eq, StableHlo.Predicate.bcast_col1]
  rfl

/-- the index column made from a 4096-vector of words wrapped into an axis of extent 2048, read at row P -/
theorem col4096_apply (t : IVec S4096 32) (P : Fin 4096) :
    broadcastInDim S4096x1 ![0] bcast_S4096_S4096x1_0
        (select (cmpi .slt t (broadcastInDim S4096 ![] bcast_S_S4096 (constantI S_ 32 0#32)))
          (addi t (broadcastInDim S4096 ![] bcast_S_S4096 (constantI S_ 32 2048#32))) t) (ix2 P (0 : Fin 1))
      = Scalar.select (IntOp.cmpi .slt (t (Shape.Idx.ofFin P)) 0#32) (IntOp.addi (t (Shape.Idx.ofFin P)) 2048#32)
          (t (Shape.Idx.ofFin P)) := by
  rw [ix2_zero_eq, StableHlo.Predicate.bcast_col1]
  rfl

/-- rows of a [4096, 1024] table taken at a wrapped column of 2048 slots: row n is the table's row at slot n's word,
    when that word is a slot number v below 4096 -/
theorem gather_slots_apply (G : S4096x1024.Idx → α) (t : IVec S2048 32) (n : Fin 2048) (d : Fin 1024)
    (v : ℕ) (hv : v < 4096) (ht : (t (Shape.Idx.ofFin n)).toNat = v) :
    Host.gather gather_S4096x1024_S2048x1_S2048x1024_1_0_n_n_0_1_11024 G
        (broadcastInDim S2048x1 ![0] bcast_S2048_S2048x1_0 (wrapS2048 4096#32 t)) (ix2 n d)
      = G (ix2 (⟨v, hv⟩ : Fin 4096) d) := by
  refine (Cert.RowGather.gather_rows_apply (T := 4096) (C := 1024) (N := 2048) (by omega)
    gather_S4096x1024_S2048x1_S2048x1024_1_0_n_n_0_1_11024_wf G _ n d).trans ?_
  refine congrArg G (congrArg (fun r : Fin 4096 => ix2 r d) (Fin.ext ?_))
  show min _ (4096 - 1) = v
  rw [col2048_apply, Cert.RowGather.wrap_clamp _ _ 4096 (by rw [ht]; exact hv) (by omega), ht]

/-- rows of a [2048, 1024] table taken at a wrapped column of 4096 token numbers: row P is the table's row at P's
    word, when that word is a token number u below 2048 -/
theorem gather_tokens_apply (X : S2048x1024.Idx → α) (t : IVec S4096 32) (P : Fin 4096) (k : Fin 1024)
    (u : ℕ) (hu : u < 2048) (ht : (t (Shape.Idx.ofFin P)).toNat = u) :
    Host.gather gather_S2048x1024_S4096x1_S4096x1024_1_0_n_n_0_1_11024 X
        (broadcastInDim S4096x1 ![0] bcast_S4096_S4096x1_0
          (select (cmpi .slt t (broadcastInDim S4096 ![] bcast_S_S4096 (constantI S_ 32 0#32)))
            (addi t (broadcastInDim S4096 ![] bcast_S_S4096 (constantI S_ 32 2048#32))) t)) (ix2 P k)
      = X (ix2 (⟨u, hu⟩ : Fin 2048) k) := by
  refine (Cert.RowGather.gather_rows_apply (T := 2048) (C := 1024) (N := 4096) (by omega)
    gather_S2048x1024_S4096x1_S4096x1024_1_0_n_n_0_1_11024_wf X _ P k).trans ?_
  refine congrArg X (congrArg (fun r : Fin 2048 => ix2 r k) (Fin.ext ?_))
  show min _ (2048 - 1) = u
  rw [col4096_apply, Cert.RowGather.wrap_clamp _ _ 2048 (by rw [ht]; exact hu) (by omega), ht]

end reads

/-- the flattened label vector at token 1024 b + s is the label array at (b, s) -/
theorem e_apply (b : Fin 2) (s : Fin 1024) : e m c (Shape.Idx.ofFin (tokenOf b s)) = lab m c (ix2 b s) := by
  rw [st_e]
  exact shapeCast_apply _ _ _ (ix2 b s) (by
    rw [Shape.rowMajor_val_two, Shape.rowMajor_val_one]
    show b.val * 1024 + s.val = b.val * 1024 + s.val
    rfl)

/-- THE RESULT: the padded output gathered back into token order is the routed feed-forward output, given the three
    routing facts (every token's slot is below 4096; the slot's token is the token; the slot's tile carries the token's
    label) and labels below 8 -/
theorem res_eq
    (hlab : ∀ i, (lab m c i).toNat < 8)
    (hotp : ∀ n : Fin 2048, (otp m c (Shape.Idx.ofFin n)).toNat < 4096)
    (hpsi : ∀ (n : Fin 2048) (v : ℕ) (hv : v < 4096), (otp m c (Shape.Idx.ofFin n)).toNat = v →
      (psi m c (Shape.Idx.ofFin (⟨v, hv⟩ : Fin 4096))).toNat = n.val)
    (heid : ∀ (n : Fin 2048) (t : ℕ) (ht : t < 16), (otp m c (Shape.Idx.ofFin n)).toNat / 256 = t →
      (eid m c (Shape.Idx.ofFin (⟨t, ht⟩ : Fin 16))).toNat = (e m c (Shape.Idx.ofFin n)).toNat) :
    shapeCast S2x1024x1024 (Host.gather gather_S4096x1024_S2048x1_S2048x1024_1_0_n_n_0_1_11024 (Gpad m c)
      (broadcastInDim S2048x1 ![0] bcast_S2048_S2048x1_0 (wrapS2048 4096#32 (otp m c)))) shapeCasts_S2048x1024_S2x1024x1024
    = Cert.Spec.out (xs m c) (w1a m c) (b1a m c) (w2a m c) (b2a m c) (lab m c) := by
  funext i
  obtain ⟨b, s, d, rfl⟩ : ∃ (b : Fin 2) (s : Fin 1024) (d : Fin 1024), i = ix3 b s d := ⟨i 0, i 1, i 2, eq_ix3 i⟩
  -- token n = 1024 b + s sits in slot v = otp n, below 4096
  obtain ⟨v, hv⟩ : ∃ v, (otp m c (Shape.Idx.ofFin (tokenOf b s))).toNat = v := ⟨_, rfl⟩
  have hv4 : v < 4096 := hv ▸ hotp (tokenOf b s)
  refine (cast_out_apply _ b s d).trans ?_
  refine (gather_slots_apply (Gpad m c) (otp m c) (tokenOf b s) d v hv4 hv).trans ?_
  -- (a) the activation row of slot v is the token's input row
  have hx : (fun k : Fin 1024 => xp m c (ix2 (⟨v, hv4⟩ : Fin 4096) k)) = fun k : Fin 1024 => xs m c (ix3 b s k) := by
    funext k
    rw [st_xp]
    refine (gather_tokens_apply _ (psi m c) ⟨v, hv4⟩ k (tokenOf b s).val (tokenOf b s).isLt
      (hpsi (tokenOf b s) v hv4 hv)).trans ?_
    exact cast_in_apply (xs m c) b s k
  -- (b) the expert of slot v's tile is the token's own
  have hex : rowExpert m c (⟨v, hv4⟩ : Fin 4096) = Cert.Spec.expert (lab m c (ix2 b s)) := by
    have h1 := heid (tokenOf b s) (v / 256) (by omega) (by rw [hv])
    rw [e_apply] at h1
    refine Fin.ext ?_
    show min (eid m c (Shape.Idx.ofFin (⟨v / 256, _⟩ : Fin 16))).toNat 7 = min (lab m c (ix2 b s)).toNat 7
    rw [h1]
  -- (c) the weights and biases the kernel reads are the launched ones
  have hw1 : (fun (h : Fin 2048) (k : Fin 1024) => w1 m c (ix3 (rowExpert m c (⟨v, hv4⟩ : Fin 4096)) h k))
      = fun (h : Fin 2048) (k : Fin 1024) => w1a m c (ix3 (Cert.Spec.expert (lab m c (ix2 b s))) h k) := by
    funext h k; rw [hex, st_w1]; rfl
  have hw2 : (fun (d : Fin 1024) (h : Fin 2048) => w2 m c (ix3 (rowExpert m c (⟨v, hv4⟩ : Fin 4096)) d h))
      = fun (d : Fin 1024) (h : Fin 2048) => w2a m c (ix3 (Cert.Spec.expert (lab m c (ix2 b s))) d h) := by
    funext d h; rw [hex, st_w2]; rfl
  have hb1 : (fun h : Fin 2048 => b1 m c (ix3 (rowExpert m c (⟨v, hv4⟩ : Fin 4096)) 0 h))
      = fun h : Fin 2048 => b1a m c (ix2 (Cert.Spec.expert (lab m c (ix2 b s))) h) := by
    funext h; rw [hex, st_b1]; exact cast_b1_apply (b1a m c) _ 0 h
  have hb2 : (fun d : Fin 1024 => b2 m c (ix3 (rowExpert m c (⟨v, hv4⟩ : Fin 4096)) 0 d))
      = fun d : Fin 1024 => b2a m c (ix2 (Cert.Spec.expert (lab m c (ix2 b s))) d) := by
    funext d; rw [hex, st_b2]; exact cast_b2_apply (b2a m c) _ 0 d
  show Cert.Ffn.ffn (fun k : Fin 1024 => xp m c (ix2 (⟨v, hv4⟩ : Fin 4096) k))
      (fun (h : Fin 2048) (k : Fin 1024) => w1 m c (ix3 (rowExpert m c (⟨v, hv4⟩ : Fin 4096)) h k))
      (fun h : Fin 2048 => b1 m c (ix3 (rowExpert m c (⟨v, hv4⟩ : Fin 4096)) 0 h))
      (fun (d : Fin 1024) (h : Fin 2048) => w2 m c (ix3 (rowExpert m c (⟨v, hv4⟩ : Fin 4096)) d h))
      (fun d : Fin 1024 => b2 m c (ix3 (rowExpert m c (⟨v, hv4⟩ : Fin 4096)) 0 d)) d
    = Cert.Ffn.ffn (fun k : Fin 1024 => xs m c (ix3 b s k))
      (fun (h : Fin 2048) (k : Fin 1024) => w1a m c (ix3 (Cert.Spec.expert (lab m c (ix2 b s))) h k))
      (fun h : Fin 2048 => b1a m c (ix2 (Cert.Spec.expert (lab m c (ix2 b s))) h))
      (fun (d : Fin 1024) (h : Fin 2048) => w2a m c (ix3 (Cert.Spec.expert (lab m c (ix2 b s))) d h))
      (fun d : Fin 1024 => b2a m c (ix2 (Cert.Spec.expert (lab m c (ix2 b s))) d)) d
  rw [hx, hw1, hb1, hw2, hb2]

end Cert.KernelIdeal.Result

end
-- ==== Proof.lean ====
/-
  Hash-routed mixture of feed-forward experts: the Pallas kernel against its jnp reference, over the extended reals.

  Every token (b, s) carries an expert label  lab[b, s] = hash_map[orig_input[b, s]]  (the precondition says every entry
  of hash_map is a label, 0 ≤ entry < 8).  The reference runs all eight experts on all tokens and keeps, per token, the
  output of the expert its label names:  out[b, s, :] = relu(x[b, s, :] · W1[k]ᵀ + b1[k]) · W2[k]ᵀ + b2[k]  with
  k = lab[b, s].  The kernel program instead sorts the tokens by label (a stable argsort), pads every label's group
  to whole tiles of 256 rows, gathers the activations into that padded order, runs ONE pallas_call whose tile t applies
  the expert  eid[t]  of a prefetched per-tile table to its 256 rows, and gathers the rows back into token order.
  The two agree because (Routing.lean, KRouteA … KRouteF) token n's slot  otp[n]  is below 4096, the slot's token
  psi[otp[n]]  is n again, and the slot's tile carries n's own label,  eid[otp[n] / 256] = lab[n] ; the kernel body's
  block is the same two-layer network row by row (KBody.lean, KBlocks.lean), and contraction sums are the same sums on
  both sides.  No law that needs finiteness is used; of the precondition only the label range is.

  The frames: the kernel's generated frame holds under the pipeline's side condition on the prefetched table, which is
  true of every memory because the table is a clamp to 0 … 7 (KOk.lean, and its word-level copy); the reference's frame
  is its generated run with the result dropped.  The idealization rewrote nothing, so its claim is trivial.
-/
import proofs.«426305_j78847009620271_3_alg».proof.Defs
import proofs.«426305_j78847009620271_3_alg».proof.Proof.Gen.Kernel
import proofs.«426305_j78847009620271_3_alg».proof.Proof.Gen.Kernel.Skeleton
import proofs.«426305_j78847009620271_3_alg».proof.Proof.Gen.Kernel.Launch
import proofs.«426305_j78847009620271_3_alg».proof.Proof.Gen.Kernel.Points
import proofs.«426305_j78847009620271_3_alg».proof.Proof.Gen.Kernel.Frame
import proofs.«426305_j78847009620271_3_alg».proof.Proof.Gen.KernelIdeal
import proofs.«426305_j78847009620271_3_alg».proof.Proof.Gen.KernelIdeal.Skeleton
import proofs.«426305_j78847009620271_3_alg».proof.Proof.Gen.KernelIdeal.Launch
import proofs.«426305_j78847009620271_3_alg».proof.Proof.Gen.KernelIdeal.Points
import proofs.«426305_j78847009620271_3_alg».proof.Proof.Gen.KernelIdeal.Frame
import proofs.«426305_j78847009620271_3_alg».proof.Proof.Gen.ReferenceIdeal
import proofs.«426305_j78847009620271_3_alg».proof.Proof.Gen.Pre_finite_inputs
import proofs.«426305_j78847009620271_3_alg».proof.Proof.RefRun
import proofs.«426305_j78847009620271_3_alg».proof.Proof.RefValue
import proofs.«426305_j78847009620271_3_alg».proof.Proof.KOk
import proofs.«426305_j78847009620271_3_alg».proof.Proof.KOkBits
import proofs.«426305_j78847009620271_3_alg».proof.Proof.KPre
import proofs.«426305_j78847009620271_3_alg».proof.Proof.KRouteF
import proofs.«426305_j78847009620271_3_alg».proof.Proof.KTail
import proofs.«426305_j78847009620271_3_alg».proof.Proof.KBlocks
import proofs.«426305_j78847009620271_3_alg».proof.Proof.KResult
import Idealize.ShloMosaic.Adequacy
import Idealize.ShloMosaic.Init

set_option maxRecDepth 16384

noncomputable section

namespace Cert.Proof

open Idealize.ShloMosaic Idealize.ShloMosaic.TcCoe Idealize.SL.Sem

/-! ## The frames -/

theorem frame_p : Cert.frame_Kernel := fun m ρ _ => Cert.Kernel.Gen.frame m ρ (Cert.Kernel.OkOf.ok m)
theorem frame_pi : Cert.frame_KernelIdeal := fun m ρ _ => Cert.KernelIdeal.Gen.frame m ρ (Cert.KernelIdeal.OkOf.ok m)
theorem frame_ri : Cert.frame_ReferenceIdeal := fun m ρ _ =>
  (θ_run Cert.ReferenceIdeal.defs _ _).mono (fun _ h c => (h c).2) (Cert.ReferenceIdeal.Value.run (F := Ideal) m ρ)

/-! ## The labels -/

section Labels

open Cert.KernelIdeal Cert.KernelIdeal.Gen Cert.KernelIdeal.Stages

variable (m : (ℓ : Loc Cert.KernelIdeal.nD Cert.KernelIdeal.τ Cert.KernelIdeal.sig) → Buf (Elt Ideal) ℓ)

/-- under the precondition every token's label is below 8, -/
theorem lab_lt (h : Cert.Pre_KernelIdeal m) (c : Dev Cert.KernelIdeal.nD) (i : S2x1024.Idx) :
    (Cert.KernelIdeal.Result.lab m c i).toNat < 8 :=
  Cert.KernelIdeal.PreOf.gather_lt m h c _ i

/-- and so is every entry of the flattened label vector. -/
theorem E_lt (h : Cert.Pre_KernelIdeal m) (c : Dev Cert.KernelIdeal.nD) (n : Fin 2048) : Cert.KernelIdeal.Route.E m c n < 8 := by
  unfold Cert.KernelIdeal.Route.E
  rw [Cert.KernelIdeal.Stages.st_e]
  exact Cert.KernelIdeal.PreOf.gather_lt m h c _ _

end Labels

/-! ## The claims -/

/-- At Ideal the kernel program's result (the padded output gathered back, KTail.lean) and the reference's (its
    generated run) are the routed feed-forward output of arguments that agree. -/
theorem algebraic : Cert.algebraic_KernelIdeal_ReferenceIdeal := by
  intro m ρ m' ρ' hpre hagree
  refine ⟨fun c => Cert.Spec.out (Cert.KernelIdeal.Stages.xs m c) (Cert.KernelIdeal.Stages.w1a m c) (Cert.KernelIdeal.Stages.b1a m c)
    (Cert.KernelIdeal.Stages.w2a m c) (Cert.KernelIdeal.Stages.b2a m c) (Cert.KernelIdeal.Result.lab m c), ?_, ?_⟩
  · refine (θ_run Cert.KernelIdeal.defs _ _).mono (fun _ h c => ⟨(h c).1.trans ?_, (h c).2⟩)
      (Cert.KernelIdeal.Tail.run m ρ (Cert.KernelIdeal.OkOf.ok m) (fun c => Cert.KernelIdeal.Blocks.final m c (Cert.KernelIdeal.OkOf.ok m)))
    have hE := E_lt m hpre c
    refine Cert.KernelIdeal.Result.res_eq m c (lab_lt m hpre c) (Cert.KernelIdeal.Route.otp_lt m c hE) ?_ ?_
    · intro n v hv hnv
      subst hnv
      exact Cert.KernelIdeal.Route.psi_otp m c hE n
    · intro n t ht hnt
      subst hnt
      exact Cert.KernelIdeal.Route.eid_otp m c hE n
  · refine (θ_run Cert.ReferenceIdeal.defs _ _).mono (fun _ h c => ⟨(h c).1.trans ?_, (h c).2⟩)
      (Cert.ReferenceIdeal.Value.run (F := Ideal) m' ρ')
    have hl : ∀ i, (Cert.ReferenceIdeal.RefValue.lab m' c i).toNat < 8 := by
      intro i
      unfold Cert.ReferenceIdeal.RefValue.lab
      dsimp only [Cert.ReferenceIdeal.RefValue.tab, Cert.ReferenceIdeal.RefValue.tok]
      rw [(hagree c).2.1, (hagree c).2.2.1]
      exact lab_lt m hpre c i
    rw [Cert.ReferenceIdeal.RefValue.res_eq m' c hl]
    unfold Cert.ReferenceIdeal.RefValue.lab
    dsimp only [Cert.ReferenceIdeal.RefValue.xs, Cert.ReferenceIdeal.RefValue.w1a, Cert.ReferenceIdeal.RefValue.b1a,
      Cert.ReferenceIdeal.RefValue.w2a, Cert.ReferenceIdeal.RefValue.b2a, Cert.ReferenceIdeal.RefValue.tab, Cert.ReferenceIdeal.RefValue.tok]
    rw [(hagree c).1, (hagree c).2.1, (hagree c).2.2.1, (hagree c).2.2.2.1, (hagree c).2.2.2.2.1, (hagree c).2.2.2.2.2.1,
      (hagree c).2.2.2.2.2.2]
    rfl

theorem claim : Cert.Claim := ⟨Cert.Kernel.Gen.facts, Cert.KernelIdeal.Gen.facts, Cert.ReferenceIdeal.Gen.facts,
  Cert.Pre_finite_inputs.Gen.facts, frame_p, frame_pi, frame_ri, trivial, algebraic⟩

end Cert.Proof

end
